-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_r_max" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v39)) (v4 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v39) = v3 c
          ∧ r.2.mem ((c.tc : Thread Cert.KernelIdeal.nD Cert.KernelIdeal.τ).loc Cert.KernelIdeal.main_v43) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S16384x3 : Shape := ⟨2, ![16384, 3]⟩
abbrev S16384x1 : Shape := ⟨2, ![16384, 1]⟩
abbrev S1000000 : Shape := ⟨1, ![1000000]⟩
abbrev S8388608 : Shape := ⟨1, ![8388608]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S16384x3 : S_.BroadcastsInDim S16384x3 (![] : Fin 0 → Fin S16384x3.rank)
  reducesTo_S16384x3_S_d0_1 : S16384x3.ReducesTo [0, 1] S_
  bcast_S_S16384x1 : S_.BroadcastsInDim S16384x1 (![] : Fin 0 → Fin S16384x1.rank)
  reducesTo_S16384x1_S_d0_1 : S16384x1.ReducesTo [0, 1] S_
  bcast_S_S8388608 : S_.BroadcastsInDim S8388608 (![] : Fin 0 → Fin S8388608.rank)
  reducesTo_S8388608_S_d0 : S8388608.ReducesTo [0] S_

variable [Facts]

def fn_part1 {F : FTy → Type} [FloatOps F] (main_arg4 : IVec S8388608 32) (main_arg5 : IVec S8388608 32) (main_v13 : IVec S_ 1) (main_v15 : IVec S8388608 1) (main_c_5 : IVec S_ 32) : IVec S_ 1 :=
  let main_v16 : IVec S8388608 32 := broadcastInDim S8388608 ![] bcast_S_S8388608 main_c_5
  let main_v17 : IVec S8388608 1 := cmpi .slt main_arg4 main_v16
  let main_v18 : IVec S8388608 1 := andi main_v15 main_v17
  let main_c_6 : IVec S_ 1 := constantI S_ 1 1#1
  let main_v19 : IVec S_ 1 := (fun x v => Host.reduce IntOp.andi x v reducesTo_S8388608_S_d0 h_S_) main_v18 main_c_6
  let main_v20 : IVec S_ 1 := andi main_v13 main_v19
  let main_c_7 : IVec S_ 32 := constantI S_ 32 4293967296#32
  let main_v21 : IVec S8388608 32 := broadcastInDim S8388608 ![] bcast_S_S8388608 main_c_7
  let main_v22 : IVec S8388608 1 := cmpi .sge main_arg5 main_v21
  let main_c_8 : IVec S_ 32 := constantI S_ 32 1000000#32
  let main_v23 : IVec S8388608 32 := broadcastInDim S8388608 ![] bcast_S_S8388608 main_c_8
  let main_v24 : IVec S8388608 1 := cmpi .slt main_arg5 main_v23
  let main_v25 : IVec S8388608 1 := andi main_v22 main_v24
  let main_c_9 : IVec S_ 1 := constantI S_ 1 1#1
  let main_v26 : IVec S_ 1 := (fun x v => Host.reduce IntOp.andi x v reducesTo_S8388608_S_d0 h_S_) main_v25 main_c_9
  let main_v27 : IVec S_ 1 := andi main_v20 main_v26
  main_v27

def fn {F : FTy → Type} [FloatOps F] (main_arg0 : FVec F S1000000x3 .f32) (main_arg1 : FVec F S16384x3 .f32) (main_arg2 : FVec F S16384x1 .f32) (main_arg3 : IVec S1000000 32) (main_arg4 : IVec S8388608 32) (main_arg5 : IVec S8388608 32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_c_4 : IVec S_ 32 := constantI S_ 32 4294950912#32
  let main_v14 : IVec S8388608 32 := broadcastInDim S8388608 ![] bcast_S_S8388608 main_c_4
  let main_v15 : IVec S8388608 1 := cmpi .sge main_arg4 main_v14
  let main_c_5 : IVec S_ 32 := constantI S_ 32 16384#32
  fn_part1 (F := F) main_arg4 main_arg5 main_v13 main_v15 main_c_5
-- ==== Kernel.lean ====
abbrev S1000000x3 : Shape := ⟨2, ![1000000, 3]⟩
abbrev S16384x3 : Shape := ⟨2, ![16384, 3]⟩
abbrev S16384x1 : Shape := ⟨2, ![16384, 1]⟩
abbrev S1000000 : Shape := ⟨1, ![1000000]⟩
abbrev S8388608 : Shape := ⟨1, ![8388608]⟩
abbrev S_ : Shape := ⟨0, ![]⟩
abbrev S8388608x1 : Shape := ⟨2, ![8388608, 1]⟩
abbrev S1 : Shape := ⟨1, ![1]⟩
abbrev S1x1 : Shape := ⟨2, ![1, 1]⟩
abbrev S8388608x3 : Shape := ⟨2, ![8388608, 3]⟩
abbrev S65536x128 : Shape := ⟨2, ![65536, 128]⟩
abbrev S2048x128 : Shape := ⟨2, ![2048, 128]⟩

abbrev nBuf : Space → Nat
  | .hbm => 146
  | .vmem => 30
  | .smem => 0
  | _ => 0

abbrev hbmTy0_0 (i : Nat) : BufTy := match i % 128 with
  | 0 => ⟨S1000000x3, .f32⟩
  | 1 => ⟨S16384x3, .f32⟩
  | 2 => ⟨S16384x1, .f32⟩
  | 3 => ⟨S1000000, .i32⟩
  | 4 => ⟨S8388608, .i32⟩
  | 5 => ⟨S8388608, .i32⟩
  | 6 => ⟨S_, .f32⟩
  | 7 => ⟨S16384x1, .f32⟩
  | 8 => ⟨S16384x1, .f32⟩
  | 9 => ⟨S_, .f32⟩
  | 10 => ⟨S16384x1, .f32⟩
  | 11 => ⟨S16384x1, .f32⟩
  | 12 => ⟨S_, .i32⟩
  | 13 => ⟨S8388608, .i32⟩
  | 14 => ⟨S8388608, .i1⟩
  | 15 => ⟨S_, .i32⟩
  | 16 => ⟨S8388608, .i32⟩
  | 17 => ⟨S8388608, .i32⟩
  | 18 => ⟨S8388608, .i32⟩
  | 19 => ⟨S8388608x1, .i32⟩
  | 20 => ⟨S1, .i32⟩
  | 21 => ⟨S_, .i32⟩
  | 22 => ⟨S8388608x1, .i32⟩
  | 23 => ⟨S8388608x1, .i1⟩
  | 24 => ⟨S1x1, .i32⟩
  | 25 => ⟨S8388608x1, .i32⟩
  | 26 => ⟨S8388608x1, .i1⟩
  | 27 => ⟨S8388608x1, .i1⟩
  | 28 => ⟨S_, .i1⟩
  | 29 => ⟨S8388608, .i1⟩
  | 30 => ⟨S8388608x3, .f32⟩
  | 31 => ⟨S8388608x3, .i1⟩
  | 32 => ⟨S_, .f32⟩
  | 33 => ⟨S8388608x3, .f32⟩
  | 34 => ⟨S8388608x3, .f32⟩
  | 35 => ⟨S_, .i32⟩
  | 36 => ⟨S8388608, .i32⟩
  | 37 => ⟨S8388608, .i1⟩
  | 38 => ⟨S_, .i32⟩
  | 39 => ⟨S8388608, .i32⟩
  | 40 => ⟨S8388608, .i32⟩
  | 41 => ⟨S8388608, .i32⟩
  | 42 => ⟨S8388608x1, .i32⟩
  | 43 => ⟨S1, .i32⟩
  | 44 => ⟨S_, .i32⟩
  | 45 => ⟨S8388608x1, .i32⟩
  | 46 => ⟨S8388608x1, .i1⟩
  | 47 => ⟨S1x1, .i32⟩
  | 48 => ⟨S8388608x1, .i32⟩
  | 49 => ⟨S8388608x1, .i1⟩
  | 50 => ⟨S8388608x1, .i1⟩
  | 51 => ⟨S_, .i1⟩
  | 52 => ⟨S8388608, .i1⟩
  | 53 => ⟨S8388608x3, .f32⟩
  | 54 => ⟨S8388608x3, .i1⟩
  | 55 => ⟨S_, .f32⟩
  | 56 => ⟨S8388608x3, .f32⟩
  | 57 => ⟨S8388608x3, .f32⟩
  | 58 => ⟨S_, .i32⟩
  | 59 => ⟨S8388608, .i32⟩
  | 60 => ⟨S8388608, .i1⟩
  | 61 => ⟨S_, .i32⟩
  | 62 => ⟨S8388608, .i32⟩
  | 63 => ⟨S8388608, .i32⟩
  | 64 => ⟨S8388608, .i32⟩
  | 65 => ⟨S8388608x1, .i32⟩
  | 66 => ⟨S1, .i32⟩
  | 67 => ⟨S_, .i32⟩
  | 68 => ⟨S8388608x1, .i32⟩
  | 69 => ⟨S8388608x1, .i1⟩
  | 70 => ⟨S1x1, .i32⟩
  | 71 => ⟨S8388608x1, .i32⟩
  | 72 => ⟨S8388608x1, .i1⟩
  | 73 => ⟨S8388608x1, .i1⟩
  | 74 => ⟨S_, .i1⟩
  | 75 => ⟨S8388608, .i1⟩
  | 76 => ⟨S8388608x1, .f32⟩
  | 77 => ⟨S8388608x1, .i1⟩
  | 78 => ⟨S_, .f32⟩
  | 79 => ⟨S8388608x1, .f32⟩
  | 80 => ⟨S8388608x1, .f32⟩
  | 81 => ⟨S8388608, .f32⟩
  | 82 => ⟨S_, .i32⟩
  | 83 => ⟨S8388608, .i32⟩
  | 84 => ⟨S8388608, .i1⟩
  | 85 => ⟨S_, .i32⟩
  | 86 => ⟨S8388608, .i32⟩
  | 87 => ⟨S8388608, .i32⟩
  | 88 => ⟨S8388608, .i32⟩
  | 89 => ⟨S8388608x1, .i32⟩
  | 90 => ⟨S1, .i32⟩
  | 91 => ⟨S_, .i32⟩
  | 92 => ⟨S8388608x1, .i32⟩
  | 93 => ⟨S8388608x1, .i1⟩
  | 94 => ⟨S1x1, .i32⟩
  | 95 => ⟨S8388608x1, .i32⟩
  | 96 => ⟨S8388608x1, .i1⟩
  | 97 => ⟨S8388608x1, .i1⟩
  | 98 => ⟨S_, .i1⟩
  | 99 => ⟨S8388608, .i1⟩
  | 100 => ⟨S8388608, .i32⟩
  | 101 => ⟨S_, .i32⟩
  | 102 => ⟨S8388608, .i32⟩
  | 103 => ⟨S8388608, .i32⟩
  | 104 => ⟨S8388608x1, .f32⟩
  | 105 => ⟨S8388608, .f32⟩
  | 106 => ⟨S65536x128, .f32⟩
  | 107 => ⟨S8388608x1, .f32⟩
  | 108 => ⟨S8388608, .f32⟩
  | 109 => ⟨S65536x128, .f32⟩
  | 110 => ⟨S8388608x1, .f32⟩
  | 111 => ⟨S8388608, .f32⟩
  | 112 => ⟨S65536x128, .f32⟩
  | 113 => ⟨S8388608x1, .f32⟩
  | 114 => ⟨S8388608, .f32⟩
  | 115 => ⟨S65536x128, .f32⟩
  | 116 => ⟨S8388608x1, .f32⟩
  | 117 => ⟨S8388608, .f32⟩
  | 118 => ⟨S65536x128, .f32⟩
  | 119 => ⟨S8388608x1, .f32⟩
  | 120 => ⟨S8388608, .f32⟩
  | 121 => ⟨S65536x128, .f32⟩
  | 122 => ⟨S65536x128, .f32⟩
  | 123 => ⟨S65536x128, .i32⟩
  | 124 => ⟨S65536x128, .f32⟩
  | 125 => ⟨S65536x128, .f32⟩
  | 126 => ⟨S65536x128, .f32⟩
  | 127 => ⟨S65536x128, .f32⟩
  | _ => ⟨S1000000x3, .f32⟩

abbrev hbmTy0_1 (i : Nat) : BufTy := match i % 128 with
  | 0 => ⟨S65536x128, .f32⟩
  | 1 => ⟨S65536x128, .i32⟩
  | 2 => ⟨S65536x128, .i32⟩
  | 3 => ⟨S8388608, .f32⟩
  | 4 => ⟨S8388608, .f32⟩
  | 5 => ⟨S8388608, .f32⟩
  | 6 => ⟨S8388608x1, .f32⟩
  | 7 => ⟨S8388608x1, .f32⟩
  | 8 => ⟨S8388608x1, .f32⟩
  | 9 => ⟨S8388608x3, .f32⟩
  | 10 => ⟨S8388608, .f32⟩
  | 11 => ⟨S8388608, .f32⟩
  | 12 => ⟨S8388608, .i32⟩
  | 13 => ⟨S8388608, .i32⟩
  | 14 => ⟨S_, .i32⟩
  | 15 => ⟨S8388608, .i32⟩
  | 16 => ⟨S8388608, .i1⟩
  | 17 => ⟨S8388608, .i1⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .i32⟩
  | .local _ .vmem, ⟨15, _⟩ => ⟨S2048x128, .i32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .i32⟩
  | .local _ .vmem, ⟨27, _⟩ => ⟨S2048x128, .i32⟩
  | .local _ .vmem, ⟨28, _⟩ => ⟨S2048x128, .i32⟩
  | .local _ .vmem, ⟨29, _⟩ => ⟨S2048x128, .i32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v6 : Ref sig .tc := ⟨.hbm, 80, rfl⟩
abbrev main_v7 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_c_4 : Ref sig .tc := ⟨.hbm, 101, rfl⟩
abbrev main_call3_v14 : Ref sig .tc := ⟨.hbm, 102, rfl⟩
abbrev main_v8 : Ref sig .tc := ⟨.hbm, 103, rfl⟩
abbrev main_v9 : Ref sig .tc := ⟨.hbm, 104, rfl⟩
abbrev main_v10 : Ref sig .tc := ⟨.hbm, 105, rfl⟩
abbrev main_v11 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_v15 : Ref sig .tc := ⟨.hbm, 110, rfl⟩
abbrev main_v16 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29_0 : Ref sig .tc := ⟨.hbm, 124, rfl⟩
abbrev main_v29_1 : Ref sig .tc := ⟨.hbm, 125, rfl⟩
abbrev main_v29_2 : Ref sig .tc := ⟨.hbm, 126, rfl⟩
abbrev main_v29_3 : Ref sig .tc := ⟨.hbm, 127, rfl⟩
abbrev main_v29_4 : Ref sig .tc := ⟨.hbm, 128, rfl⟩
abbrev main_v29_5 : Ref sig .tc := ⟨.hbm, 129, rfl⟩
abbrev main_v29_6 : Ref sig .tc := ⟨.hbm, 130, rfl⟩
abbrev main_v30 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev main_c : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S16384x1 : S_.BroadcastsInDim S16384x1 (![] : Fin 0 → Fin S16384x1.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  reducesTo_S8388608x1_S8388608_d1 : S8388608x1.ReducesTo [1] S8388608
  h_S_ : 0 < S_.numel
  bcast_S8388608_S8388608x3_0 : S8388608.BroadcastsInDim S8388608x3 (![0] : Fin 1 → Fin S8388608x3.rank)
  bcast_S_S8388608x3 : S_.BroadcastsInDim S8388608x3 (![] : Fin 0 → Fin S8388608x3.rank)
  shapeCasts_S8388608x1_S8388608 : S8388608x1.ShapeCasts S8388608
  slices_S8388608x3_S8388608x1_0_0 : S8388608x3.Slices ![0, 0] S8388608x1
  shapeCasts_S8388608_S65536x128 : S8388608.ShapeCasts S65536x128
  slices_S8388608x3_S8388608x1_0_1 : S8388608x3.Slices ![0, 1] S8388608x1
  slices_S8388608x3_S8388608x1_0_2 : S8388608x3.Slices ![0, 2] S8388608x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  natLt_1_32 : 1 < 32
  shapeCasts_S65536x128_S8388608 : S65536x128.ShapeCasts S8388608
  concatenates_S8388608x1_S8388608x1_S8388608x1_S8388608x3_d1 : Shape.Concatenates [S8388608x1, S8388608x1, S8388608x1] S8388608x3 1
  gather_S1000000x3_S8388608x1_S8388608x3_1_0_n_n_0_1_13_wf : GatherDims.WF S1000000x3 S8388608x1 S8388608x3 [1] [0] [] [0] [] 1 ![1, 3]
  gather_S16384x3_S8388608x1_S8388608x3_1_0_n_n_0_1_13_wf : GatherDims.WF S16384x3 S8388608x1 S8388608x3 [1] [0] [] [0] [] 1 ![1, 3]
  gather_S16384x1_S8388608x1_S8388608x1_1_0_n_n_0_1_11_wf : GatherDims.WF S16384x1 S8388608x1 S8388608x1 [1] [0] [] [0] [] 1 ![1, 1]
  gather_S1000000_S8388608x1_S8388608_n_0_n_n_0_1_1_wf : GatherDims.WF S1000000 S8388608x1 S8388608 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S65536x128.size a
  hwx0_4 : ∀ i : grid0.Coords, EltTy.bits .f32 = 32 ∨ (Rect.block (s := S65536x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S65536x128.size a
  hwx0_5 : ∀ i : grid0.Coords, EltTy.bits .f32 = 32 ∨ (Rect.block (s := S65536x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S65536x128.size a
  hwx0_6 : ∀ i : grid0.Coords, EltTy.bits .f32 = 32 ∨ (Rect.block (s := S65536x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S65536x128.size a
  hwx0_7 : ∀ i : grid0.Coords, EltTy.bits .i32 = 32 ∨ (Rect.block (s := S65536x128) S2048x128.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S65536x128.size a
  hwx0_8 : ∀ i : grid0.Coords, EltTy.bits .f32 = 32 ∨ (Rect.block (s := S65536x128) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S65536x128.size a
  hwx0_9 : ∀ i : grid0.Coords, EltTy.bits .f32 = 32 ∨ (Rect.block (s := S65536x128) S2048x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S65536x128.size a
  hwx0_10 : ∀ i : grid0.Coords, EltTy.bits .f32 = 32 ∨ (Rect.block (s := S65536x128) S2048x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S65536x128.size a
  hwx0_11 : ∀ i : grid0.Coords, EltTy.bits .f32 = 32 ∨ (Rect.block (s := S65536x128) S2048x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x128.size a ≤ S65536x128.size a
  hwx0_12 : ∀ i : grid0.Coords, EltTy.bits .f32 = 32 ∨ (Rect.block (s := S65536x128) S2048x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x128.size a ≤ S65536x128.size a
  hwx0_13 : ∀ i : grid0.Coords, EltTy.bits .i32 = 32 ∨ (Rect.block (s := S65536x128) S2048x128.size (cc0_transform_13 i) (hinb0_13 i)).WholeWords (EltTy.packing .i32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x128.size a ≤ S65536x128.size a
  hwx0_14 : ∀ i : grid0.Coords, EltTy.bits .i32 = 32 ∨ (Rect.block (s := S65536x128) S2048x128.size (cc0_transform_14 i) (hinb0_14 i)).WholeWords (EltTy.packing .i32)

variable [Facts₀]

def gather_S1000000x3_S8388608x1_S8388608x3_1_0_n_n_0_1_13 : GatherDims S1000000x3 S8388608x1 S8388608x3 where
  offsetDims := [1]
  collapsedSliceDims := [0]
  operandBatchingDims := []
  startIndicesBatchingDims := []
  startIndexMap := [0]
  indexVectorDim := 1
  sliceSizes := ![1, 3]
  wf := gather_S1000000x3_S8388608x1_S8388608x3_1_0_n_n_0_1_13_wf
def gather_S16384x3_S8388608x1_S8388608x3_1_0_n_n_0_1_13 : GatherDims S16384x3 S8388608x1 S8388608x3 where
  offsetDims := [1]
  collapsedSliceDims := [0]
  operandBatchingDims := []
  startIndicesBatchingDims := []
  startIndexMap := [0]
  indexVectorDim := 1
  sliceSizes := ![1, 3]
  wf := gather_S16384x3_S8388608x1_S8388608x3_1_0_n_n_0_1_13_wf
def gather_S16384x1_S8388608x1_S8388608x1_1_0_n_n_0_1_11 : GatherDims S16384x1 S8388608x1 S8388608x1 where
  offsetDims := [1]
  collapsedSliceDims := [0]
  operandBatchingDims := []
  startIndicesBatchingDims := []
  startIndexMap := [0]
  indexVectorDim := 1
  sliceSizes := ![1, 1]
  wf := gather_S16384x1_S8388608x1_S8388608x1_1_0_n_n_0_1_11_wf
def gather_S1000000_S8388608x1_S8388608_n_0_n_n_0_1_1 : GatherDims S1000000 S8388608x1 S8388608 where
  offsetDims := []
  collapsedSliceDims := [0]
  operandBatchingDims := []
  startIndicesBatchingDims := []
  startIndexMap := [0]
  indexVectorDim := 1
  sliceSizes := ![1]
  wf := gather_S1000000_S8388608x1_S8388608_n_0_n_n_0_1_1_wf

abbrev win0_0 : Pipeline.Window sig grid0 :=
  Pipeline.Window.ofSpec (Memref.whole main_v11) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27) S2048x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28) S2048x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v29_0) S2048x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v29_1) S2048x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v29_2) S2048x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v29_3) S2048x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v29_4) S2048x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v29_5) S2048x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v29_6) S2048x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S16384x3 : Shape := ⟨2, ![16384, 3]⟩
abbrev S16384x1 : Shape := ⟨2, ![16384, 1]⟩
abbrev S1000000 : Shape := ⟨1, ![1000000]⟩
abbrev S8388608 : Shape := ⟨1, ![8388608]⟩
abbrev S_ : Shape := ⟨0, ![]⟩
abbrev S8388608x1 : Shape := ⟨2, ![8388608, 1]⟩
abbrev S8388608x3 : Shape := ⟨2, ![8388608, 3]⟩

abbrev nBuf : Space → Nat
  | .hbm => 92
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S16384x3, .f32⟩
  | .hbm, ⟨2, _⟩ => ⟨S16384x1, .f32⟩
  | .hbm, ⟨3, _⟩ => ⟨S1000000, .i32⟩
  | .hbm, ⟨4, _⟩ => ⟨S8388608, .i32⟩
  | .hbm, ⟨5, _⟩ => ⟨S8388608, .i32⟩
  | .hbm, ⟨6, _⟩ => ⟨S_, .i32⟩
  | .hbm, ⟨7, _⟩ => ⟨S8388608, .i32⟩
  | .hbm, ⟨8, _⟩ => ⟨S8388608, .i1⟩
  | .hbm, ⟨9, _⟩ => ⟨S_, .i32⟩
  | .hbm, ⟨10, _⟩ => ⟨S8388608, .i32⟩
  | .hbm, ⟨11, _⟩ => ⟨S8388608, .i32⟩
  | .hbm, ⟨12, _⟩ => ⟨S8388608, .i32⟩
  | .hbm, ⟨13, _⟩ => ⟨S8388608x1, .i32⟩
  | .hbm, ⟨14, _⟩ => ⟨S8388608x3, .f32⟩
  | .hbm, ⟨15, _⟩ => ⟨S_, .i32⟩
  | .hbm, ⟨16, _⟩ => ⟨S8388608, .i32⟩
  | .hbm, ⟨17, _⟩ => ⟨S8388608, .i1⟩
  | .hbm, ⟨18, _⟩ => ⟨S_, .i32⟩
  | .hbm, ⟨19, _⟩ => ⟨S8388608, .i32⟩
  | .hbm, ⟨20, _⟩ => ⟨S8388608, .i32⟩
  | .hbm, ⟨21, _⟩ => ⟨S8388608, .i32⟩
  | .hbm, ⟨22, _⟩ => ⟨S8388608x1, .i32⟩
  | .hbm, ⟨23, _⟩ => ⟨S8388608x3, .f32⟩
  | .hbm, ⟨24, _⟩ => ⟨S8388608x3, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .i32⟩
  | .hbm, ⟨32, _⟩ => ⟨S8388608, .i32⟩
  | .hbm, ⟨33, _⟩ => ⟨S8388608, .i1⟩
  | .hbm, ⟨34, _⟩ => ⟨S_, .i32⟩
  | .hbm, ⟨35, _⟩ => ⟨S8388608, .i32⟩
  | .hbm, ⟨36, _⟩ => ⟨S8388608, .i32⟩
  | .hbm, ⟨37, _⟩ => ⟨S8388608, .i32⟩
  | .hbm, ⟨38, _⟩ => ⟨S8388608x1, .i32⟩
  | .hbm, ⟨39, _⟩ => ⟨S8388608x1, .f32⟩
  | .hbm, ⟨40, _⟩ => ⟨S8388608x3, .f32⟩
  | .hbm, ⟨41, _⟩ => ⟨S8388608x3, .f32⟩
  | .hbm, ⟨42, _⟩ => ⟨S8388608x3, .f32⟩
  | .hbm, ⟨43, _⟩ => ⟨S_, .f32⟩
  | .hbm, ⟨44, _⟩ => ⟨S8388608, .f32⟩
  | .hbm, ⟨45, _⟩ => ⟨S8388608, .f32⟩
  | .hbm, ⟨46, _⟩ => ⟨S_, .f32⟩
  | .hbm, ⟨47, _⟩ => ⟨S8388608, .f32⟩
  | .hbm, ⟨48, _⟩ => ⟨S8388608, .i1⟩
  | .hbm, ⟨49, _⟩ => ⟨S_, .f32⟩
  | .hbm, ⟨50, _⟩ => ⟨S8388608, .f32⟩
  | .hbm, ⟨51, _⟩ => ⟨S8388608, .f32⟩
  | .hbm, ⟨52, _⟩ => ⟨S_, .f32⟩
  | .hbm, ⟨53, _⟩ => ⟨S8388608, .f32⟩
  | .hbm, ⟨54, _⟩ => ⟨S8388608, .f32⟩
  | .hbm, ⟨55, _⟩ => ⟨S_, .f32⟩
  | .hbm, ⟨56, _⟩ => ⟨S8388608, .f32⟩
  | .hbm, ⟨57, _⟩ => ⟨S8388608, .f32⟩
  | .hbm, ⟨58, _⟩ => ⟨S_, .f32⟩
  | .hbm, ⟨59, _⟩ => ⟨S8388608, .f32⟩
  | .hbm, ⟨60, _⟩ => ⟨S8388608, .f32⟩
  | .hbm, ⟨61, _⟩ => ⟨S_, .f32⟩
  | .hbm, ⟨62, _⟩ => ⟨S8388608, .f32⟩
  | .hbm, ⟨63, _⟩ => ⟨S8388608, .f32⟩
  | .hbm, ⟨64, _⟩ => ⟨S8388608, .f32⟩
  | .hbm, ⟨65, _⟩ => ⟨S_, .f32⟩
  | .hbm, ⟨66, _⟩ => ⟨S_, .f32⟩
  | .hbm, ⟨67, _⟩ => ⟨S8388608, .f32⟩
  | .hbm, ⟨68, _⟩ => ⟨S8388608, .f32⟩
  | .hbm, ⟨69, _⟩ => ⟨S8388608x3, .f32⟩
  | .hbm, ⟨70, _⟩ => ⟨S8388608x3, .f32⟩
  | .hbm, ⟨71, _⟩ => ⟨S_, .f32⟩
  | .hbm, ⟨72, _⟩ => ⟨S8388608x3, .f32⟩
  | .hbm, ⟨73, _⟩ => ⟨S8388608x3, .f32⟩
  | .hbm, ⟨74, _⟩ => ⟨S8388608, .f32⟩
  | .hbm, ⟨75, _⟩ => ⟨S8388608x1, .f32⟩
  | .hbm, ⟨76, _⟩ => ⟨S8388608x3, .f32⟩
  | .hbm, ⟨77, _⟩ => ⟨S8388608x3, .f32⟩
  | .hbm, ⟨78, _⟩ => ⟨S_, .i32⟩
  | .hbm, ⟨79, _⟩ => ⟨S8388608, .i32⟩
  | .hbm, ⟨80, _⟩ => ⟨S8388608, .i1⟩
  | .hbm, ⟨81, _⟩ => ⟨S_, .i32⟩
  | .hbm, ⟨82, _⟩ => ⟨S8388608, .i32⟩
  | .hbm, ⟨83, _⟩ => ⟨S8388608, .i32⟩
  | .hbm, ⟨84, _⟩ => ⟨S8388608, .i32⟩
  | .hbm, ⟨85, _⟩ => ⟨S8388608x1, .i32⟩
  | .hbm, ⟨86, _⟩ => ⟨S8388608, .i32⟩
  | .hbm, ⟨87, _⟩ => ⟨S_, .i32⟩
  | .hbm, ⟨88, _⟩ => ⟨S_, .i32⟩
  | .hbm, ⟨89, _⟩ => ⟨S8388608, .i32⟩
  | .hbm, ⟨90, _⟩ => ⟨S8388608, .i32⟩
  | .hbm, ⟨91, _⟩ => ⟨S8388608, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_v0 : Ref sig .tc := ⟨.hbm, 42, rfl⟩
abbrev main_call0_cst : Ref sig .tc := ⟨.hbm, 43, rfl⟩
abbrev main_call0_v1 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_cst_11 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_12 : Ref sig .tc := ⟨.hbm, 65, rfl⟩
abbrev main_call1_v0 : Ref sig .tc := ⟨.hbm, 66, rfl⟩
abbrev main_call1_v1 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_13 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_14 : Ref sig .tc := ⟨.hbm, 78, rfl⟩
abbrev main_v51 : Ref sig .tc := ⟨.hbm, 79, rfl⟩
abbrev main_v52 : Ref sig .tc := ⟨.hbm, 80, rfl⟩
abbrev main_c_15 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_16 : Ref sig .tc := ⟨.hbm, 87, rfl⟩
abbrev main_call2_v0 : Ref sig .tc := ⟨.hbm, 88, rfl⟩
abbrev main_call2_v1 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S16384x1 : S_.BroadcastsInDim S16384x1 (![] : Fin 0 → Fin S16384x1.rank)
  bcast_S8388608x1_S8388608x3_0_1 : S8388608x1.BroadcastsInDim S8388608x3 (![0, 1] : Fin 2 → Fin S8388608x3.rank)
  reducesTo_S8388608x3_S8388608_d1 : S8388608x3.ReducesTo [1] S8388608
  h_S_ : 0 < S_.numel
  bcast_S_S8388608x3 : S_.BroadcastsInDim S8388608x3 (![] : Fin 0 → Fin S8388608x3.rank)
  gather_S1000000x3_S8388608x1_S8388608x3_1_0_n_n_0_1_13_wf : GatherDims.WF S1000000x3 S8388608x1 S8388608x3 [1] [0] [] [0] [] 1 ![1, 3]
  gather_S16384x3_S8388608x1_S8388608x3_1_0_n_n_0_1_13_wf : GatherDims.WF S16384x3 S8388608x1 S8388608x3 [1] [0] [] [0] [] 1 ![1, 3]
  gather_S16384x1_S8388608x1_S8388608x1_1_0_n_n_0_1_11_wf : GatherDims.WF S16384x1 S8388608x1 S8388608x1 [1] [0] [] [0] [] 1 ![1, 1]
  gather_S1000000_S8388608x1_S8388608_n_0_n_n_0_1_1_wf : GatherDims.WF S1000000 S8388608x1 S8388608 [] [0] [] [0] [] 1 ![1]

variable [Facts₀]

def gather_S1000000x3_S8388608x1_S8388608x3_1_0_n_n_0_1_13 : GatherDims S1000000x3 S8388608x1 S8388608x3 where
  offsetDims := [1]
  collapsedSliceDims := [0]
  operandBatchingDims := []
  startIndicesBatchingDims := []
  startIndexMap := [0]
  indexVectorDim := 1
  sliceSizes := ![1, 3]
  wf := gather_S1000000x3_S8388608x1_S8388608x3_1_0_n_n_0_1_13_wf
def gather_S16384x3_S8388608x1_S8388608x3_1_0_n_n_0_1_13 : GatherDims S16384x3 S8388608x1 S8388608x3 where
  offsetDims := [1]
  collapsedSliceDims := [0]
  operandBatchingDims := []
  startIndicesBatchingDims := []
  startIndexMap := [0]
  indexVectorDim := 1
  sliceSizes := ![1, 3]
  wf := gather_S16384x3_S8388608x1_S8388608x3_1_0_n_n_0_1_13_wf
def gather_S16384x1_S8388608x1_S8388608x1_1_0_n_n_0_1_11 : GatherDims S16384x1 S8388608x1 S8388608x1 where
  offsetDims := [1]
  collapsedSliceDims := [0]
  operandBatchingDims := []
  startIndicesBatchingDims := []
  startIndexMap := [0]
  indexVectorDim := 1
  sliceSizes := ![1, 1]
  wf := gather_S16384x1_S8388608x1_S8388608x1_1_0_n_n_0_1_11_wf
def gather_S1000000_S8388608x1_S8388608_n_0_n_n_0_1_1 : GatherDims S1000000 S8388608x1 S8388608 where
  offsetDims := []
  collapsedSliceDims := [0]
  operandBatchingDims := []
  startIndicesBatchingDims := []
  startIndexMap := [0]
  indexVectorDim := 1
  sliceSizes := ![1]
  wf := gather_S1000000_S8388608x1_S8388608_n_0_n_n_0_1_1_wf

class Facts : Prop extends Facts₀ where

variable [Facts]
-- ==== Proof.KHost.lean ====
/-
  The host side of `Kernel`'s run. @main is seven stretches of host operations (the radius table, four filling gathers,
  the column slices and their re-layouts as 65536 × 128 arrays), one region over a grid of 32 row blocks, and one
  stretch after it (the re-layouts back to vectors, the stacking of the three coordinate vectors, the mask as a bit).
  Here: the contents of every buffer when the region is entered, as the fold of the seven stretches over the launch
  memory; that @main is those stretches, the region, and the last stretch; that the last stretch touches only arrays of
  the region and buffers that bypass it, allocates nothing and writes no array of the region; that no operation before
  or after the region writes an argument; a window's block at a grid point; and the frame statement from a run that
  ends with every array of the region at what its proof data computes.
-/
import proofs.«430290_j19808389169237_1_alg».proof.Proof.Gen.Kernel.Launch
import proofs.«430290_j19808389169237_1_alg».proof.Proof.Gen.Kernel.Skeleton
import proofs.«430290_j19808389169237_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Every buffer of core `c` after the seven stretches of host operations that precede the region. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the seven stretches, the region, and the stretch after it: it reduces to the region continued by that
    last stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The last stretch touches only arrays of the region and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 8000000 in
/-- And it writes no array of the region: each of its operations writes only its own result, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at grid point `t`: rows `2048 t … 2048 t + 2047` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data whose array is the
    region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, for any proof data whose array is the
    region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, for any proof data whose array is the
    region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, for any proof data whose array is the
    region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, for any proof data whose array is the
    region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run -/

/-- From a run that ends with every array of the region at what the proof data computes and every other buffer as the
    last stretch leaves it: every argument ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

end Cert.Kernel.Around

end
-- ==== Proof.KBody.lean ====
/-
  The body of `Kernel`'s kernel at one grid point, as a triple. The body loads the eight input blocks whole (three member
  coordinates, three centre coordinates, the ball radius, the batch word), computes entry by entry, and stores seven
  whole blocks. What each output buffer holds afterwards is the single whole-block store's payload, a pure term of the
  eight loaded blocks; the triple says the body runs from the inputs' buffers at their contents and the outputs' at
  anything to the inputs' unchanged and each output's at that term.
-/
import proofs.«430290_j19808389169237_1_alg».proof.Proof.Gen.Kernel.Launch
import proofs.«430290_j19808389169237_1_alg».proof.Proof.Gen.Kernel.Skeleton
import proofs.«430290_j19808389169237_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 2048 × 128 block: every load and every store of the body goes through it. -/
abbrev r0 : Rect S2048x128 := Rect.unit (s := S2048x128) ![0, 0] S2048x128.size inb_S2048x128_S2048x128_0_0

/-! ## What the body leaves in each output buffer -/

/-- Output window 8's buffer after the body (the first local coordinate, rescaled and masked): its one store, as a piece. -/
def out0_8 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .f32 :=
  View.canon [⟨r0, k0_pay4 (k0_pay10 (View.ld x6 r0)) (k0_pay12 (View.ld x0 r0) (View.ld x3 r0) (View.ld x6 r0)) (k0_pay16 (View.ld x0 r0) (View.ld x1 r0) (View.ld x2 r0) (View.ld x3 r0) (View.ld x4 r0) (View.ld x5 r0) (View.ld x6 r0))⟩]

/-- The one whole-block store covers the buffer. -/
theorem cover0_8 (p0 : Vec F S2048x128 .f32) (y : S2048x128.Idx) :
    ∃ pc ∈ ([⟨r0, p0⟩] : List (View.Piece (Elt F) S2048x128 .f32)), y ∈ pc.1.set :=
  View.cover_of_tiled [⟨r0, p0⟩] S2048x128.size (by rfl) y

/-- Output window 9's buffer after the body (the second local coordinate, rescaled and masked): its one store, as a piece. -/
def out0_9 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .f32 :=
  View.canon [⟨r0, k0_pay5 (k0_pay10 (View.ld x6 r0)) (k0_pay13 (View.ld x1 r0) (View.ld x4 r0) (View.ld x6 r0)) (k0_pay16 (View.ld x0 r0) (View.ld x1 r0) (View.ld x2 r0) (View.ld x3 r0) (View.ld x4 r0) (View.ld x5 r0) (View.ld x6 r0))⟩]

/-- The one whole-block store covers the buffer. -/
theorem cover0_9 (p0 : Vec F S2048x128 .f32) (y : S2048x128.Idx) :
    ∃ pc ∈ ([⟨r0, p0⟩] : List (View.Piece (Elt F) S2048x128 .f32)), y ∈ pc.1.set :=
  View.cover_of_tiled [⟨r0, p0⟩] S2048x128.size (by rfl) y

/-- Output window 10's buffer after the body (the third local coordinate, rescaled and masked): its one store, as a piece. -/
def out0_10 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .f32 :=
  View.canon [⟨r0, k0_pay6 (k0_pay10 (View.ld x6 r0)) (k0_pay14 (View.ld x2 r0) (View.ld x5 r0) (View.ld x6 r0)) (k0_pay16 (View.ld x0 r0) (View.ld x1 r0) (View.ld x2 r0) (View.ld x3 r0) (View.ld x4 r0) (View.ld x5 r0) (View.ld x6 r0))⟩]

/-- The one whole-block store covers the buffer. -/
theorem cover0_10 (p0 : Vec F S2048x128 .f32) (y : S2048x128.Idx) :
    ∃ pc ∈ ([⟨r0, p0⟩] : List (View.Piece (Elt F) S2048x128 .f32)), y ∈ pc.1.set :=
  View.cover_of_tiled [⟨r0, p0⟩] S2048x128.size (by rfl) y

/-- Output window 11's buffer after the body (the masked norm): its one store, as a piece. -/
def out0_11 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .f32 :=
  View.canon [⟨r0, k0_pay7 (k0_pay15 (View.ld x0 r0) (View.ld x1 r0) (View.ld x2 r0) (View.ld x3 r0) (View.ld x4 r0) (View.ld x5 r0) (View.ld x6 r0)) (k0_pay16 (View.ld x0 r0) (View.ld x1 r0) (View.ld x2 r0) (View.ld x3 r0) (View.ld x4 r0) (View.ld x5 r0) (View.ld x6 r0))⟩]

/-- The one whole-block store covers the buffer. -/
theorem cover0_11 (p0 : Vec F S2048x128 .f32) (y : S2048x128.Idx) :
    ∃ pc ∈ ([⟨r0, p0⟩] : List (View.Piece (Elt F) S2048x128 .f32)), y ∈ pc.1.set :=
  View.cover_of_tiled [⟨r0, p0⟩] S2048x128.size (by rfl) y

/-- Output window 12's buffer after the body (the log boundary weight): its one store, as a piece. -/
def out0_12 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .f32 :=
  View.canon [⟨r0, k0_pay1 (k0_pay16 (View.ld x0 r0) (View.ld x1 r0) (View.ld x2 r0) (View.ld x3 r0) (View.ld x4 r0) (View.ld x5 r0) (View.ld x6 r0)) (k0_pay17 (View.ld x0 r0) (View.ld x1 r0) (View.ld x2 r0) (View.ld x3 r0) (View.ld x4 r0) (View.ld x5 r0) (View.ld x6 r0))⟩]

/-- The one whole-block store covers the buffer. -/
theorem cover0_12 (p0 : Vec F S2048x128 .f32) (y : S2048x128.Idx) :
    ∃ pc ∈ ([⟨r0, p0⟩] : List (View.Piece (Elt F) S2048x128 .f32)), y ∈ pc.1.set :=
  View.cover_of_tiled [⟨r0, p0⟩] S2048x128.size (by rfl) y

/-- Output window 13's buffer after the body (the member's batch word, or -1 outside the ball): its one store, as a piece. -/
def out0_13 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .i32 :=
  View.canon [⟨r0, k0_pay8 (k0_pay11 (View.ld x7 r0)) (k0_pay16 (View.ld x0 r0) (View.ld x1 r0) (View.ld x2 r0) (View.ld x3 r0) (View.ld x4 r0) (View.ld x5 r0) (View.ld x6 r0))⟩]

/-- The one whole-block store covers the buffer. -/
theorem cover0_13 (p0 : Vec F S2048x128 .i32) (y : S2048x128.Idx) :
    ∃ pc ∈ ([⟨r0, p0⟩] : List (View.Piece (Elt F) S2048x128 .i32)), y ∈ pc.1.set :=
  View.cover_of_tiled [⟨r0, p0⟩] S2048x128.size (by rfl) y

/-- Output window 14's buffer after the body (the mask as a 32-bit word): its one store, as a piece. -/
def out0_14 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .i32 :=
  View.canon [⟨r0, k0_pay9 (k0_pay16 (View.ld x0 r0) (View.ld x1 r0) (View.ld x2 r0) (View.ld x3 r0) (View.ld x4 r0) (View.ld x5 r0) (View.ld x6 r0))⟩]

/-- The one whole-block store covers the buffer. -/
theorem cover0_14 (p0 : Vec F S2048x128 .i32) (y : S2048x128.Idx) :
    ∃ pc ∈ ([⟨r0, p0⟩] : List (View.Piece (Elt F) S2048x128 .i32)), y ∈ pc.1.set :=
  View.cover_of_tiled [⟨r0, p0⟩] S2048x128.size (by rfl) y

/-! ## The body's triple -/

set_option maxHeartbeats 4000000 in
/-- On whole staging memrefs, the inputs' at contents `x0 … x7` and the outputs' at anything, the body runs to the
    continuation holding the inputs' as they were and each output's at its payload of the inputs'. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .i32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .i32) (harg15 : arg15.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x4 x5 x6 x7) ∗ owns (c : Thread nD τ) arg10 fullShare (out0_9 x0 x1 x2 x3 x4 x5 x6 x7) ∗ owns (c : Thread nD τ) arg11 fullShare (out0_10 x0 x1 x2 x3 x4 x5 x6 x7) ∗ owns (c : Thread nD τ) arg12 fullShare (out0_11 x0 x1 x2 x3 x4 x5 x6 x7) ∗ owns (c : Thread nD τ) arg13 fullShare (out0_12 x0 x1 x2 x3 x4 x5 x6 x7) ∗ owns (c : Thread nD τ) arg14 fullShare (out0_13 x0 x1 x2 x3 x4 x5 x6 x7) ∗ owns (c : Thread nD τ) arg15 fullShare (out0_14 x0 x1 x2 x3 x4 x5 x6 x7)) -∗ K ⟨⟩))
      ⊢ wp frame (wpE (defs₀ (F := F)) Variants.none c none) E (cc0__norm_mask_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__norm_mask_kernel_eq_skeleton]; unfold cc0__norm_mask_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_14 _)

end Cert.Kernel.Around

end
-- ==== Proof.KRun.lean ====
/-
  `Kernel`'s run. The proof data of the one region: its arrays as the region finds them; after the body at grid point
  `t` each input buffer at its block (rows `2048 t …` of its array) and each output buffer at the body's payload of the
  eight input blocks; nothing owed, full shares, the class's invariant. From the body's triple the library's body
  obligation at every point; from it the launch: every weakly fair execution of @main ends with every array of the
  region at what the proof data computes, every other buffer as the last stretch of host operations leaves it; and
  from that run the frame statement.
-/
import proofs.«430290_j19808389169237_1_alg».proof.Proof.KHost
import proofs.«430290_j19808389169237_1_alg».proof.Proof.KBody

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
    | ⟨10, _⟩ => out0_10 (iblk m c 0 t) (iblk m c 1 t) (iblk m c 2 t) (iblk m c 3 t) (iblk m c 4 t) (iblk m c 5 t) (iblk m c 6 t) (iblk m c 7 t)
    | ⟨11, _⟩ => out0_11 (iblk m c 0 t) (iblk m c 1 t) (iblk m c 2 t) (iblk m c 3 t) (iblk m c 4 t) (iblk m c 5 t) (iblk m c 6 t) (iblk m c 7 t)
    | ⟨12, _⟩ => out0_12 (iblk m c 0 t) (iblk m c 1 t) (iblk m c 2 t) (iblk m c 3 t) (iblk m c 4 t) (iblk m c 5 t) (iblk m c 6 t) (iblk m c 7 t)
    | ⟨13, _⟩ => out0_13 (iblk m c 0 t) (iblk m c 1 t) (iblk m c 2 t) (iblk m c 3 t) (iblk m c 4 t) (iblk m c 5 t) (iblk m c 6 t) (iblk m c 7 t)
    | ⟨14, _⟩ => out0_14 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the region at what the proof data computes and every other buffer as the last stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Around

end
-- ==== Proof.KIHost.lean ====
/-
  The host side of `KernelIdeal`'s run. @main is seven stretches of host operations (the radius table, four filling gathers,
  the column slices and their re-layouts as 65536 × 128 arrays), one region over a grid of 32 row blocks, and one
  stretch after it (the re-layouts back to vectors, the stacking of the three coordinate vectors, the mask as a bit).
  Here: the contents of every buffer when the region is entered, as the fold of the seven stretches over the launch
  memory; that @main is those stretches, the region, and the last stretch; that the last stretch touches only arrays of
  the region and buffers that bypass it, allocates nothing and writes no array of the region; that no operation before
  or after the region writes an argument; a window's block at a grid point; and the frame statement from a run that
  ends with every array of the region at what its proof data computes.
-/
import proofs.«430290_j19808389169237_1_alg».proof.Proof.Gen.KernelIdeal.Launch
import proofs.«430290_j19808389169237_1_alg».proof.Proof.Gen.KernelIdeal.Skeleton
import proofs.«430290_j19808389169237_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Every buffer of core `c` after the seven stretches of host operations that precede the region. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the seven stretches, the region, and the stretch after it: it reduces to the region continued by that
    last stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The last stretch touches only arrays of the region and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 8000000 in
/-- And it writes no array of the region: each of its operations writes only its own result, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at grid point `t`: rows `2048 t … 2048 t + 2047` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data whose array is the
    region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, for any proof data whose array is the
    region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, for any proof data whose array is the
    region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, for any proof data whose array is the
    region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, for any proof data whose array is the
    region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run -/

/-- From a run that ends with every array of the region at what the proof data computes and every other buffer as the
    last stretch leaves it: every argument ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

end Cert.KernelIdeal.Around

end
-- ==== Proof.KIBody.lean ====
/-
  The body of `KernelIdeal`'s kernel at one grid point, as a triple. The body loads the eight input blocks whole (three member
  coordinates, three centre coordinates, the ball radius, the batch word), computes entry by entry, and stores seven
  whole blocks. What each output buffer holds afterwards is the single whole-block store's payload, a pure term of the
  eight loaded blocks; the triple says the body runs from the inputs' buffers at their contents and the outputs' at
  anything to the inputs' unchanged and each output's at that term.
-/
import proofs.«430290_j19808389169237_1_alg».proof.Proof.Gen.KernelIdeal.Launch
import proofs.«430290_j19808389169237_1_alg».proof.Proof.Gen.KernelIdeal.Skeleton
import proofs.«430290_j19808389169237_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The whole 2048 × 128 block: every load and every store of the body goes through it. -/
abbrev r0 : Rect S2048x128 := Rect.unit (s := S2048x128) ![0, 0] S2048x128.size inb_S2048x128_S2048x128_0_0

/-! ## What the body leaves in each output buffer -/

/-- Output window 8's buffer after the body (the first local coordinate, rescaled and masked): its one store, as a piece. -/
def out0_8 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .f32 :=
  View.canon [⟨r0, k0_pay4 (k0_pay10 (View.ld x6 r0)) (k0_pay12 (View.ld x0 r0) (View.ld x3 r0) (View.ld x6 r0)) (k0_pay16 (View.ld x0 r0) (View.ld x1 r0) (View.ld x2 r0) (View.ld x3 r0) (View.ld x4 r0) (View.ld x5 r0) (View.ld x6 r0))⟩]

/-- The one whole-block store covers the buffer. -/
theorem cover0_8 (p0 : Vec F S2048x128 .f32) (y : S2048x128.Idx) :
    ∃ pc ∈ ([⟨r0, p0⟩] : List (View.Piece (Elt F) S2048x128 .f32)), y ∈ pc.1.set :=
  View.cover_of_tiled [⟨r0, p0⟩] S2048x128.size (by rfl) y

/-- Output window 9's buffer after the body (the second local coordinate, rescaled and masked): its one store, as a piece. -/
def out0_9 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .f32 :=
  View.canon [⟨r0, k0_pay5 (k0_pay10 (View.ld x6 r0)) (k0_pay13 (View.ld x1 r0) (View.ld x4 r0) (View.ld x6 r0)) (k0_pay16 (View.ld x0 r0) (View.ld x1 r0) (View.ld x2 r0) (View.ld x3 r0) (View.ld x4 r0) (View.ld x5 r0) (View.ld x6 r0))⟩]

/-- The one whole-block store covers the buffer. -/
theorem cover0_9 (p0 : Vec F S2048x128 .f32) (y : S2048x128.Idx) :
    ∃ pc ∈ ([⟨r0, p0⟩] : List (View.Piece (Elt F) S2048x128 .f32)), y ∈ pc.1.set :=
  View.cover_of_tiled [⟨r0, p0⟩] S2048x128.size (by rfl) y

/-- Output window 10's buffer after the body (the third local coordinate, rescaled and masked): its one store, as a piece. -/
def out0_10 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .f32 :=
  View.canon [⟨r0, k0_pay6 (k0_pay10 (View.ld x6 r0)) (k0_pay14 (View.ld x2 r0) (View.ld x5 r0) (View.ld x6 r0)) (k0_pay16 (View.ld x0 r0) (View.ld x1 r0) (View.ld x2 r0) (View.ld x3 r0) (View.ld x4 r0) (View.ld x5 r0) (View.ld x6 r0))⟩]

/-- The one whole-block store covers the buffer. -/
theorem cover0_10 (p0 : Vec F S2048x128 .f32) (y : S2048x128.Idx) :
    ∃ pc ∈ ([⟨r0, p0⟩] : List (View.Piece (Elt F) S2048x128 .f32)), y ∈ pc.1.set :=
  View.cover_of_tiled [⟨r0, p0⟩] S2048x128.size (by rfl) y

/-- Output window 11's buffer after the body (the masked norm): its one store, as a piece. -/
def out0_11 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .f32 :=
  View.canon [⟨r0, k0_pay7 (k0_pay15 (View.ld x0 r0) (View.ld x1 r0) (View.ld x2 r0) (View.ld x3 r0) (View.ld x4 r0) (View.ld x5 r0) (View.ld x6 r0)) (k0_pay16 (View.ld x0 r0) (View.ld x1 r0) (View.ld x2 r0) (View.ld x3 r0) (View.ld x4 r0) (View.ld x5 r0) (View.ld x6 r0))⟩]

/-- The one whole-block store covers the buffer. -/
theorem cover0_11 (p0 : Vec F S2048x128 .f32) (y : S2048x128.Idx) :
    ∃ pc ∈ ([⟨r0, p0⟩] : List (View.Piece (Elt F) S2048x128 .f32)), y ∈ pc.1.set :=
  View.cover_of_tiled [⟨r0, p0⟩] S2048x128.size (by rfl) y

/-- Output window 12's buffer after the body (the log boundary weight): its one store, as a piece. -/
def out0_12 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .f32 :=
  View.canon [⟨r0, k0_pay1 (k0_pay16 (View.ld x0 r0) (View.ld x1 r0) (View.ld x2 r0) (View.ld x3 r0) (View.ld x4 r0) (View.ld x5 r0) (View.ld x6 r0)) (k0_pay17 (View.ld x0 r0) (View.ld x1 r0) (View.ld x2 r0) (View.ld x3 r0) (View.ld x4 r0) (View.ld x5 r0) (View.ld x6 r0))⟩]

/-- The one whole-block store covers the buffer. -/
theorem cover0_12 (p0 : Vec F S2048x128 .f32) (y : S2048x128.Idx) :
    ∃ pc ∈ ([⟨r0, p0⟩] : List (View.Piece (Elt F) S2048x128 .f32)), y ∈ pc.1.set :=
  View.cover_of_tiled [⟨r0, p0⟩] S2048x128.size (by rfl) y

/-- Output window 13's buffer after the body (the member's batch word, or -1 outside the ball): its one store, as a piece. -/
def out0_13 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .i32 :=
  View.canon [⟨r0, k0_pay8 (k0_pay11 (View.ld x7 r0)) (k0_pay16 (View.ld x0 r0) (View.ld x1 r0) (View.ld x2 r0) (View.ld x3 r0) (View.ld x4 r0) (View.ld x5 r0) (View.ld x6 r0))⟩]

/-- The one whole-block store covers the buffer. -/
theorem cover0_13 (p0 : Vec F S2048x128 .i32) (y : S2048x128.Idx) :
    ∃ pc ∈ ([⟨r0, p0⟩] : List (View.Piece (Elt F) S2048x128 .i32)), y ∈ pc.1.set :=
  View.cover_of_tiled [⟨r0, p0⟩] S2048x128.size (by rfl) y

/-- Output window 14's buffer after the body (the mask as a 32-bit word): its one store, as a piece. -/
def out0_14 (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) : Vec F S2048x128 .i32 :=
  View.canon [⟨r0, k0_pay9 (k0_pay16 (View.ld x0 r0) (View.ld x1 r0) (View.ld x2 r0) (View.ld x3 r0) (View.ld x4 r0) (View.ld x5 r0) (View.ld x6 r0))⟩]

/-- The one whole-block store covers the buffer. -/
theorem cover0_14 (p0 : Vec F S2048x128 .i32) (y : S2048x128.Idx) :
    ∃ pc ∈ ([⟨r0, p0⟩] : List (View.Piece (Elt F) S2048x128 .i32)), y ∈ pc.1.set :=
  View.cover_of_tiled [⟨r0, p0⟩] S2048x128.size (by rfl) y

/-! ## The body's triple -/

set_option maxHeartbeats 4000000 in
/-- On whole staging memrefs, the inputs' at contents `x0 … x7` and the outputs' at anything, the body runs to the
    continuation holding the inputs' as they were and each output's at its payload of the inputs'. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .i32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .i32) (harg15 : arg15.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S2048x128 .f32) (x7 : Vec F S2048x128 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2 x3 x4 x5 x6 x7) ∗ owns (c : Thread nD τ) arg10 fullShare (out0_9 x0 x1 x2 x3 x4 x5 x6 x7) ∗ owns (c : Thread nD τ) arg11 fullShare (out0_10 x0 x1 x2 x3 x4 x5 x6 x7) ∗ owns (c : Thread nD τ) arg12 fullShare (out0_11 x0 x1 x2 x3 x4 x5 x6 x7) ∗ owns (c : Thread nD τ) arg13 fullShare (out0_12 x0 x1 x2 x3 x4 x5 x6 x7) ∗ owns (c : Thread nD τ) arg14 fullShare (out0_13 x0 x1 x2 x3 x4 x5 x6 x7) ∗ owns (c : Thread nD τ) arg15 fullShare (out0_14 x0 x1 x2 x3 x4 x5 x6 x7)) -∗ K ⟨⟩))
      ⊢ wp frame (wpE (defs₀ (F := F)) Variants.none c none) E (cc0__norm_mask_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__norm_mask_kernel_eq_skeleton]; unfold cc0__norm_mask_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_14 _)

end Cert.KernelIdeal.Around

end
-- ==== Proof.KIRun.lean ====
/-
  `KernelIdeal`'s run. The proof data of the one region: its arrays as the region finds them; after the body at grid point
  `t` each input buffer at its block (rows `2048 t …` of its array) and each output buffer at the body's payload of the
  eight input blocks; nothing owed, full shares, the class's invariant. From the body's triple the library's body
  obligation at every point; from it the launch: every weakly fair execution of @main ends with every array of the
  region at what the proof data computes, every other buffer as the last stretch of host operations leaves it; and
  from that run the frame statement.
-/
import proofs.«430290_j19808389169237_1_alg».proof.Proof.KIHost
import proofs.«430290_j19808389169237_1_alg».proof.Proof.KIBody

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
    | ⟨10, _⟩ => out0_10 (iblk m c 0 t) (iblk m c 1 t) (iblk m c 2 t) (iblk m c 3 t) (iblk m c 4 t) (iblk m c 5 t) (iblk m c 6 t) (iblk m c 7 t)
    | ⟨11, _⟩ => out0_11 (iblk m c 0 t) (iblk m c 1 t) (iblk m c 2 t) (iblk m c 3 t) (iblk m c 4 t) (iblk m c 5 t) (iblk m c 6 t) (iblk m c 7 t)
    | ⟨12, _⟩ => out0_12 (iblk m c 0 t) (iblk m c 1 t) (iblk m c 2 t) (iblk m c 3 t) (iblk m c 4 t) (iblk m c 5 t) (iblk m c 6 t) (iblk m c 7 t)
    | ⟨13, _⟩ => out0_13 (iblk m c 0 t) (iblk m c 1 t) (iblk m c 2 t) (iblk m c 3 t) (iblk m c 4 t) (iblk m c 5 t) (iblk m c 6 t) (iblk m c 7 t)
    | ⟨14, _⟩ => out0_14 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the region at what the proof data computes and every other buffer as the last stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Around

end
-- ==== Proof.Spec.lean ====
/-
  The per-edge geometry both programs compute, over the extended reals. For an edge `e`: the member point `P e`, the glimpse
  centre `C e` (three coordinates each), the ball radius `R e` and the member's batch word `B e`. The local coordinate
  is `l k = (P k − C k) / R`; the norm `n = √(l₀² + l₁² + l₂²)`; the edge is inside when `n < 1.2`; the results are the local
  coordinates rescaled by `R · s` and masked, the masked norm, the log boundary weight `log (max (1 − (n − 1)/0.2) 0 + ε)`
  inside and `0` outside, the batch word inside and `−1` outside, and the inside bit. The literals are the binary values
  of the single-precision words both programs carry; `s` is the exact reciprocal of the single-precision `0.2`.
-/
import Idealize.ShloMosaic.PureOps.Ideal
import Idealize.ShloMosaic.PureOps.Ideal.Laws
import Idealize.ShloMosaic.PureOps.Vector
import Idealize.ShloMosaic.Lib.ValueIdx

noncomputable section

namespace Cert.Spec

open Idealize.ShloMosaic Idealize.ShloMosaic.ValueIdx

/-- A vector over the edges. -/
abbrev SE : Shape := ⟨1, ![8388608]⟩
/-- A column over the edges. -/
abbrev SE1 : Shape := ⟨2, ![8388608, 1]⟩
/-- Three coordinates per edge. -/
abbrev SE3 : Shape := ⟨2, ![8388608, 3]⟩

/-! ## The literals -/

/-- The cutoff, the single-precision `1.2`. -/
def cutoff : EReal := Ideal.ofBits .f32 0x3F99999A#32
/-- One. -/
def one : EReal := Ideal.ofBits .f32 0x3F800000#32
/-- The boundary ratio, the single-precision `0.2`. -/
def fifth : EReal := Ideal.ofBits .f32 0x3E4CCCCD#32
/-- Zero. -/
def zero : EReal := Ideal.ofBits .f32 0x00000000#32
/-- The guard under the logarithm, the single-precision `1e-12`. -/
def tiny : EReal := Ideal.ofBits .f32 0x2B8CBCCC#32
/-- The rescaling factor: the exact reciprocal `67108864 / 13421773` of the single-precision `0.2 = 13421773 / 2²⁶`. -/
def rescale : EReal := ((67108864 / 13421773 : ℝ) : EReal)

/-! ## One edge -/

/-- A local coordinate: the offset from the centre over the radius. -/
def coord (p c r : EReal) : EReal := Ideal.div (p - c) r
/-- The norm of the three local coordinates. -/
def norm (lx ly lz : EReal) : EReal := Ideal.sqrt (lx * lx + ly * ly + lz * lz)
/-- The inside bit: the norm is below the cutoff. -/
def inside (n : EReal) : BitVec 1 := Ideal.cmp .olt n cutoff
/-- The inside bit as a number, `0` or `1`: widened to a 32-bit word and read signed. -/
def maskf (n : EReal) : EReal := FloatOps.sitofp (F := Ideal) .f32 (BitVec.setWidth 32 (inside n))
/-- The log boundary weight. -/
def weight (n : EReal) : EReal :=
  Scalar.select (inside n) (Ideal.log (max (one - Ideal.div (n - one) fifth) zero + tiny)) zero
/-- A result coordinate: the local coordinate times the radius times the rescaling factor, masked. -/
def scaled (l r n : EReal) : EReal := l * (r * rescale) * maskf n
/-- The batch word inside, `−1` outside. -/
def batchWord (n : EReal) (b : BitVec 32) : BitVec 32 := Scalar.select (inside n) b 4294967295#32

/-! ## All edges, from the four gathered arrays -/

section Arrays

variable (MP MC : SE3.Idx → EReal) (MR : SE1.Idx → EReal) (MB : SE.Idx → BitVec 32)

/-- Local coordinate `k` of edge `e`. -/
def lAt (e : Fin 8388608) (k : Fin 3) : EReal := coord (MP (ix2 e k)) (MC (ix2 e k)) (MR (ix2 e (0 : Fin 1)))
/-- The norm of edge `e`. -/
def nAt (e : Fin 8388608) : EReal := norm (lAt MP MC MR e 0) (lAt MP MC MR e 1) (lAt MP MC MR e 2)

/-- The rescaled, masked local coordinates. -/
def localArr : SE3.Idx → EReal := fun i => scaled (lAt MP MC MR (i 0) (i 1)) (MR (ix2 (i 0) (0 : Fin 1))) (nAt MP MC MR (i 0))
/-- The masked norms. -/
def normArr : SE.Idx → EReal := fun i => nAt MP MC MR (i 0) * maskf (nAt MP MC MR (i 0))
/-- The log boundary weights. -/
def weightArr : SE.Idx → EReal := fun i => weight (nAt MP MC MR (i 0))
/-- The batch words. -/
def batchArr : SE.Idx → BitVec 32 := fun i => batchWord (nAt MP MC MR (i 0)) (MB i)
/-- The inside bits. -/
def insideArr : SE.Idx → BitVec 1 := fun i => inside (nAt MP MC MR (i 0))

end Arrays

end Cert.Spec

end
-- ==== Proof.PreRange.lean ====
/-
  The index words of the precondition, decoded. The printed precondition is one bit: the conjunction of the finiteness
  tests of the three float arrays and of two range tests, each a reduction by `and` over every entry of an index vector of
  the conjunction of two signed compares against constant words. When the bit is one every entry of the first index
  vector lies in [-16384, 16384) and every entry of the second in [-1000000, 1000000), read as signed integers.
-/
import proofs.«430290_j19808389169237_1_alg».proof.Proof.Gen.Pre_finite_inputs
import Idealize.ShloMosaic.Lib.ReduceAll
import Idealize.ShloMosaic.Lib.ValueIdx

noncomputable section

namespace Cert.PreRange

open Idealize.ShloMosaic Idealize.ShloMosaic.ValueIdx
open Cert.Pre_finite_inputs

/-- The rank-0 shape has one index. -/
instance : Subsingleton S_.Idx := ⟨fun a b => funext fun d => d.elim0⟩

/-- The word printed for -16384 reads, signed, as -16384. -/
theorem toInt_neg16384 : (4294950912#32 : BitVec 32).toInt = -(16384 : ℤ) := by decide
/-- The word printed for -1000000 reads, signed, as -1000000. -/
theorem toInt_neg1000000 : (4293967296#32 : BitVec 32).toInt = -(1000000 : ℤ) := by decide
theorem toInt_16384 : (16384#32 : BitVec 32).toInt = (16384 : ℤ) := by decide
theorem toInt_1000000 : (1000000#32 : BitVec 32).toInt = (1000000 : ℤ) := by decide

/-- THE INDEX WORDS ARE IN RANGE when the precondition's bit is one. -/
theorem index_ranges (a0 : FVec Ideal Cert.Pre_finite_inputs.S1000000x3 .f32) (a1 : FVec Ideal Cert.Pre_finite_inputs.S16384x3 .f32)
    (a2 : FVec Ideal Cert.Pre_finite_inputs.S16384x1 .f32) (a3 : IVec Cert.Pre_finite_inputs.S1000000 32)
    (a4 a5 : IVec Cert.Pre_finite_inputs.S8388608 32)
    (h : Cert.Pre_finite_inputs.fn (F := Ideal) a0 a1 a2 a3 a4 a5 = fun _ => 1#1) :
    (∀ e : Cert.Pre_finite_inputs.S8388608.Idx, -(16384 : ℤ) ≤ (a4 e).toInt ∧ (a4 e).toInt < (16384 : ℤ))
    ∧ (∀ e : Cert.Pre_finite_inputs.S8388608.Idx, -(1000000 : ℤ) ≤ (a5 e).toInt ∧ (a5 e).toInt < (1000000 : ℤ)) := by
  have h0 := congrFun h ValueIdx.ix0
  dsimp only [fn, fn_part1] at h0
  obtain ⟨h01, h5⟩ := IntOp.andi_eq_one.mp h0
  obtain ⟨_, h4⟩ := IntOp.andi_eq_one.mp h01
  refine ⟨fun e => ?_, fun e => ?_⟩
  · obtain ⟨hge, hlt⟩ := IntOp.andi_eq_one.mp (Host.reduce_andi_all _ _ _ _ _ h4 e)
    have hge' := IntOp.cmpi_sge.mp hge
    have hlt' := IntOp.cmpi_slt.mp hlt
    change (4294950912#32 : BitVec 32).toInt ≤ (a4 e).toInt at hge'
    change (a4 e).toInt < (16384#32 : BitVec 32).toInt at hlt'
    rw [toInt_neg16384] at hge'
    rw [toInt_16384] at hlt'
    exact ⟨hge', hlt'⟩
  · obtain ⟨hge, hlt⟩ := IntOp.andi_eq_one.mp (Host.reduce_andi_all _ _ _ _ _ h5 e)
    have hge' := IntOp.cmpi_sge.mp hge
    have hlt' := IntOp.cmpi_slt.mp hlt
    change (4293967296#32 : BitVec 32).toInt ≤ (a5 e).toInt at hge'
    change (a5 e).toInt < (1000000#32 : BitVec 32).toInt at hlt'
    rw [toInt_neg1000000] at hge'
    rw [toInt_1000000] at hlt'
    exact ⟨hge', hlt'⟩

end Cert.PreRange

end
-- ==== Proof.LibTakeFill.lean ====
/-
  A gather that fills out-of-range rows, when no row is out of range. `jnp.take(x, idx, axis=0)` lowers to: wrap a
  negative index by adding the extent `N`; test the wrapped index against `[0, N − 1]`; gather the rows (the start index
  clamped); and select, row by row, the gathered row where the test passed and a fill value where it did not. When every
  index word `i` satisfies `−N ≤ i < N` the wrapped index lies in `[0, N − 1]`, the test passes on every row, and the
  select returns the gathered rows: the fill value is never read.
-/
import Idealize.ShloMosaic.PureOps.Vector
import Idealize.ShloMosaic.PureOps.Contract
import Idealize.ShloMosaic.PureOps.ShapeOps
import Idealize.ShloMosaic.Lib.ValueIdx
import Idealize.ShloMosaic.Lib.Pipeline.Value
import Idealize.ShloMosaic.Lib.ReduceAll

noncomputable section

namespace Cert.LibTakeFill

open Idealize.ShloMosaic Idealize.ShloMosaic.ValueIdx

/-- The rank-0 shape. -/
abbrev Sc : Shape := ⟨0, ![]⟩
/-- A vector of `E` words. -/
abbrev V1 (E : Nat) : Shape := ⟨1, ![E]⟩
/-- A column of `E` words. -/
abbrev Col (E : Nat) : Shape := ⟨2, ![E, 1]⟩
/-- The `1 × 1` shape. -/
abbrev One2 : Shape := ⟨2, ![1, 1]⟩

/-- The index vector after the wrap of its negative words (`i < 0 ↦ i + N`), laid out as a column. -/
abbrev wrapCol {E : Nat} (hb0 : Sc.BroadcastsInDim (V1 E) (![] : Fin 0 → Fin 1))
    (hbc : (V1 E).BroadcastsInDim (Col E) (![0] : Fin 1 → Fin 2)) (Nw : BitVec 32) (idx : IVec (V1 E) 32) : IVec (Col E) 32 :=
  broadcastInDim (Col E) (![0] : Fin 1 → Fin 2) hbc
    (select (cmpi .slt idx (broadcastInDim (V1 E) (![] : Fin 0 → Fin 1) hb0 (constantI Sc 32 0#32)))
      (addi idx (broadcastInDim (V1 E) (![] : Fin 0 → Fin 1) hb0 (constantI Sc 32 Nw))) idx)

/-- The word of a natural number below `2³¹` reads, signed, as that number. -/
theorem toInt_ofNat_small (a : ℕ) (ha : a < 2 ^ 31) : (BitVec.ofNat 32 a).toInt = (a : ℤ) := by
  rw [BitVec.toInt_ofNat']
  exact Int.bmod_eq_of_le_mul_two (by omega) (by omega)

/-- One word: with `−N ≤ i < N`, the wrapped word `i'` (`i + N` when `i < 0`, else `i`) passes both tests
    `i' ≥ 0` and `i' ≤ N − 1` (signed compares on 32-bit words; `N` far below `2³¹`). -/
theorem wrap_word_in_range (N : Nat) (hN0 : 0 < N) (hN : N < 2 ^ 30) (i : BitVec 32)
    (hi : -(N : ℤ) ≤ i.toInt ∧ i.toInt < (N : ℤ)) :
    IntOp.andi
      (IntOp.cmpi .sge (Scalar.select (IntOp.cmpi .slt i 0#32) (IntOp.addi i (BitVec.ofNat 32 N)) i) 0#32)
      (IntOp.cmpi .sle (Scalar.select (IntOp.cmpi .slt i 0#32) (IntOp.addi i (BitVec.ofNat 32 N)) i) (BitVec.ofNat 32 (N - 1)))
      = 1#1 := by
  obtain ⟨h1, h2⟩ := hi
  have hNi : (BitVec.ofNat 32 N).toInt = (N : ℤ) := toInt_ofNat_small N (by omega)
  have hN1 : (BitVec.ofNat 32 (N - 1)).toInt = ((N - 1 : ℕ) : ℤ) := toInt_ofNat_small (N - 1) (by omega)
  have h0 : (0#32).toInt = 0 := BitVec.toInt_zero
  rw [IntOp.andi_eq_one, IntOp.cmpi_sge, IntOp.cmpi_sle, h0, hN1]
  by_cases hneg : i.toInt < 0
  · have hc : IntOp.cmpi .slt i 0#32 = 1#1 := IntOp.cmpi_slt.mpr (by rw [h0]; exact hneg)
    rw [hc, select_one]
    have hsum : (IntOp.addi i (BitVec.ofNat 32 N)).toInt = i.toInt + (N : ℤ) := by
      show (i + BitVec.ofNat 32 N).toInt = _
      rw [BitVec.toInt_add, hNi]
      exact Int.bmod_eq_of_le_mul_two (by omega) (by omega)
    rw [hsum]
    omega
  · have hc : ¬ IntOp.cmpi .slt i 0#32 = 1#1 := fun h => hneg (by have := IntOp.cmpi_slt.mp h; rwa [h0] at this)
    have hsel : Scalar.select (IntOp.cmpi .slt i 0#32) (IntOp.addi i (BitVec.ofNat 32 N)) i = i := if_neg hc
    rw [hsel]
    omega

/-- A broadcast of a vector that is `c` everywhere is `c` everywhere: the result at an index is the operand at some index. -/
theorem broadcastInDim_eq_const {α : Type} {s t : Shape} (dims : Fin s.rank → Fin t.rank) (h : s.BroadcastsInDim t dims)
    (x : s.Idx → α) (c : α) (hx : ∀ k, x k = c) (j : t.Idx) : broadcastInDim t dims h x j = c := hx _

/-- A fold of `and` from the bit `1` over bits that are all `1` is `1`. -/
theorem foldl_andi_ones {ι : Type} (x : ι → BitVec 1) (hx : ∀ n, x n = 1#1) (l : List ι) :
    l.foldl (fun r n => IntOp.andi r (x n)) 1#1 = 1#1 := by
  induction l with
  | nil => rfl
  | cons a l ih =>
    have h1 : IntOp.andi 1#1 (x a) = 1#1 := by rw [hx a]; decide
    simp only [List.foldl_cons, h1]
    exact ih

/-- A reduction by `and`, from an initial value that is `1`, of a vector of ones is all ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

/-- THE FILLING GATHER IS THE GATHER when every index word lies in `[−N, N)`: the row mask (the reduction by `and`, along
    the unit axis, of the two range tests of the wrapped column) is all ones, so the select keeps `g` everywhere. -/
theorem take_fill_eq {α : Type} {E C : Nat} (N : Nat) (Nw Nm1 : BitVec 32)
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (⟨2, ![E, C]⟩ : Shape) (![0] : Fin 1 → Fin 2))
    (hN0 : 0 < N) (hN : N < 2 ^ 30) (hNw : Nw = BitVec.ofNat 32 N) (hNm1 : Nm1 = BitVec.ofNat 32 (N - 1))
    (idx : IVec (V1 E) 32) (hidx : ∀ e : (V1 E).Idx, -(N : ℤ) ≤ (idx e).toInt ∧ (idx e).toInt < (N : ℤ))
    (g fill : (⟨2, ![E, C]⟩ : Shape).Idx → α) :
    select (broadcastInDim (⟨2, ![E, C]⟩ : Shape) (![0] : Fin 1 → Fin 2) hbEC
        (Host.reduce IntOp.andi
          (andi (cmpi .sge (wrapCol hb0 hbc Nw idx) (broadcastInDim (Col E) (![] : Fin 0 → Fin 2) hb01 (constantI Sc 32 0#32)))
            (cmpi .sle (wrapCol hb0 hbc Nw idx)
              (broadcastInDim (Col E) (![0, 1] : Fin 2 → Fin 2) hb1E
                (broadcastInDim One2 (![1] : Fin 1 → Fin 2) hb11 (constantI (V1 1) 32 Nm1)))))
          (constantI Sc 1 1#1) hr h0)) g fill = g := by
  subst hNw hNm1
  funext j
  rw [select_apply]
  have hmask : broadcastInDim (⟨2, ![E, C]⟩ : Shape) (![0] : Fin 1 → Fin 2) hbEC
        (Host.reduce IntOp.andi
          (andi (cmpi .sge (wrapCol hb0 hbc (BitVec.ofNat 32 N) idx) (broadcastInDim (Col E) (![] : Fin 0 → Fin 2) hb01 (constantI Sc 32 0#32)))
            (cmpi .sle (wrapCol hb0 hbc (BitVec.ofNat 32 N) idx)
              (broadcastInDim (Col E) (![0, 1] : Fin 2 → Fin 2) hb1E
                (broadcastInDim One2 (![1] : Fin 1 → Fin 2) hb11 (constantI (V1 1) 32 (BitVec.ofNat 32 (N - 1)))))))
          (constantI Sc 1 1#1) hr h0) j = 1#1 :=
    broadcastInDim_eq_const _ _ _ _
      (fun k => reduce_andi_ones _ _ _ _ (fun i => wrap_word_in_range N hN0 hN (idx _) (hidx _)) (fun _ => rfl) k) j
  rw [hmask, select_one]

end Cert.LibTakeFill

end
-- ==== Proof.KIGather.lean ====
/-
  The kernel's four gathers, when every index word is in range. Each of the four is a gather that fills the rows whose
  index falls outside the table: the index vector has its negative words wrapped by the extent, the wrapped column is
  tested against [0, extent - 1], the rows are gathered, and a select keeps the gathered row where the test passed and a
  fill value where it did not. With every index word in [-extent, extent) the test passes on every row, so the buffer
  the region finds is the plain gather of the table at the wrapped column. Here: what each of the four stretches of
  host operations leaves in its result buffer, as a term of the buffers it reads; that no later stretch rewrites the
  result and no earlier stretch rewrites the tables or the index vectors; and the four buffers as plain gathers of the
  launch memory.
-/
import proofs.«430290_j19808389169237_1_alg».proof.Proof.KIHost
import proofs.«430290_j19808389169237_1_alg».proof.Proof.LibTakeFill
import Idealize.ShloMosaic.Lib.StableHlo.Run

set_option maxRecDepth 16384

noncomputable section

namespace Cert.KernelIdeal.Gathered

open Cert.KernelIdeal Cert.KernelIdeal.Gen Cert.KernelIdeal.Around
open Idealize.ShloMosaic Idealize.ShloMosaic.TcCoe Idealize.SL.Sem

/-- The index vector with its negative words wrapped by the extent, as a column. -/
abbrev wrapped (N : BitVec 32) (idx : IVec S8388608 32) : IVec S8388608x1 32 :=
  broadcastInDim S8388608x1 ![0] bcast_S8388608_S8388608x1_0
    (select (cmpi .slt idx (broadcastInDim S8388608 ![] bcast_S_S8388608 (constantI S_ 32 0#32)))
      (addi idx (broadcastInDim S8388608 ![] bcast_S_S8388608 (constantI S_ 32 N))) idx)

/-! ## A rank-1 filling gather -/

section Twin

open Cert.LibTakeFill Idealize.ShloMosaic.ValueIdx

/-- THE RANK-1 FILLING GATHER IS THE GATHER when every index word lies in [-N, N): the select is directly over the row
    mask (the reduction by `and`, along the unit axis, of the two range tests of the wrapped column), which is all ones. -/
theorem take_fill_eq1 {α : Type} {E : Nat} (N : Nat) (Nw Nm1 : BitVec 32)
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hN0 : 0 < N) (hN : N < 2 ^ 30) (hNw : Nw = BitVec.ofNat 32 N) (hNm1 : Nm1 = BitVec.ofNat 32 (N - 1))
    (idx : IVec (V1 E) 32) (hidx : ∀ e : (V1 E).Idx, -(N : ℤ) ≤ (idx e).toInt ∧ (idx e).toInt < (N : ℤ))
    (g fill : (V1 E).Idx → α) :
    select (Host.reduce IntOp.andi
        (andi (cmpi .sge (wrapCol hb0 hbc Nw idx) (broadcastInDim (Col E) (![] : Fin 0 → Fin 2) hb01 (constantI Sc 32 0#32)))
          (cmpi .sle (wrapCol hb0 hbc Nw idx)
            (broadcastInDim (Col E) (![0, 1] : Fin 2 → Fin 2) hb1E
              (broadcastInDim One2 (![1] : Fin 1 → Fin 2) hb11 (constantI (V1 1) 32 Nm1)))))
        (constantI Sc 1 1#1) hr h0) g fill = g := by
  subst hNw hNm1
  funext j
  rw [select_apply]
  have hmask : Host.reduce IntOp.andi
        (andi (cmpi .sge (wrapCol hb0 hbc (BitVec.ofNat 32 N) idx) (broadcastInDim (Col E) (![] : Fin 0 → Fin 2) hb01 (constantI Sc 32 0#32)))
          (cmpi .sle (wrapCol hb0 hbc (BitVec.ofNat 32 N) idx)
            (broadcastInDim (Col E) (![0, 1] : Fin 2 → Fin 2) hb1E
              (broadcastInDim One2 (![1] : Fin 1 → Fin 2) hb11 (constantI (V1 1) 32 (BitVec.ofNat 32 (N - 1)))))))
        (constantI Sc 1 1#1) hr h0 j = 1#1 :=
    reduce_andi_ones _ _ _ _ (fun i => wrap_word_in_range N hN0 hN (idx _) (hidx _)) (fun _ => rfl) j
  rw [hmask, select_one]

end Twin

section Generic

variable {F : FTy → Type} [FloatOps F] [Named F]

/-! ## A value moved between a tensor type and its buffer's type -/

/-- A value moved to a buffer's own type and back is the value. -/
theorem ofBuf_toBuf {Val : EltTy → Type} {T : BufTy} (x : StableHlo.TRef sig T) (v : T.Contents Val) : x.ofBuf (x.toBuf v) = v := by
  obtain ⟨r, h, h1, h2⟩ := x
  subst h
  rfl
/-- At a reference whose type is the tensor type itself the move from the buffer's type is the identity. -/
theorem ofBuf_lit {Val : EltTy → Type} (r : Ref sig .tc) (p1 : r.ty = r.ty) (p2 p3) (v : r.ty.Contents Val) :
    (StableHlo.TRef.of (T := r.ty) r p1 p2 p3).ofBuf v = v := rfl
/-- And so is the move to the buffer's type. -/
theorem toBuf_lit {Val : EltTy → Type} (r : Ref sig .tc) (p1 : r.ty = r.ty) (p2 p3) (v : r.ty.Contents Val) :
    (StableHlo.TRef.of (T := r.ty) r p1 p2 p3).toBuf v = v := rfl

/-! ## What each gathering stretch leaves in its result buffer -/

set_option maxHeartbeats 4000000 in
/-- The first gathering stretch, from any contents: its result is the filling gather of argument 0 at argument 5. -/
theorem raw1 (X : Valuation τ sig (Elt F)) :
    (StableHlo.after hostOps0_1 X (Proc.devRef .tc main_v4) : (⟨S8388608x3, .f32⟩ : BufTy).Contents (Elt F))
      = select (broadcastInDim S8388608x3 ![0] bcast_S8388608_S8388608x3_0
          (Host.reduce IntOp.andi
            (andi (cmpi .sge (wrapped 1000000#32 (X (Proc.devRef .tc main_arg5))) (broadcastInDim S8388608x1 ![] bcast_S_S8388608x1 (constantI S_ 32 0#32)))
              (cmpi .sle (wrapped 1000000#32 (X (Proc.devRef .tc main_arg5)))
                (broadcastInDim S8388608x1 ![0, 1] bcast_S1x1_S8388608x1_0_1 (broadcastInDim S1x1 ![1] bcast_S1_S1x1_1 (constantI S1 32 999999#32)))))
            (constantI S_ 1 1#1) reducesTo_S8388608x1_S8388608_d1 h_S_))
          (Host.gather gather_S1000000x3_S8388608x1_S8388608x3_1_0_n_n_0_1_13 (X (Proc.devRef .tc main_arg0)) (wrapped 1000000#32 (X (Proc.devRef .tc main_arg5))))
          (broadcastInDim S8388608x3 ![] bcast_S_S8388608x3 (constant (F := F) S_ .f32 0x7FC00000#32)) := by
  simp only [hostOps0_1]
  after_results
  repeat rw [ofBuf_toBuf]
  rw [toBuf_lit main_v4, ofBuf_lit main_arg5, ofBuf_lit main_arg0]

set_option maxHeartbeats 4000000 in
/-- The second gathering stretch: its result is the filling gather of argument 1 at argument 4. -/
theorem raw2 (X : Valuation τ sig (Elt F)) :
    (StableHlo.after hostOps0_2 X (Proc.devRef .tc main_v5) : (⟨S8388608x3, .f32⟩ : BufTy).Contents (Elt F))
      = select (broadcastInDim S8388608x3 ![0] bcast_S8388608_S8388608x3_0
          (Host.reduce IntOp.andi
            (andi (cmpi .sge (wrapped 16384#32 (X (Proc.devRef .tc main_arg4))) (broadcastInDim S8388608x1 ![] bcast_S_S8388608x1 (constantI S_ 32 0#32)))
              (cmpi .sle (wrapped 16384#32 (X (Proc.devRef .tc main_arg4)))
                (broadcastInDim S8388608x1 ![0, 1] bcast_S1x1_S8388608x1_0_1 (broadcastInDim S1x1 ![1] bcast_S1_S1x1_1 (constantI S1 32 16383#32)))))
            (constantI S_ 1 1#1) reducesTo_S8388608x1_S8388608_d1 h_S_))
          (Host.gather gather_S16384x3_S8388608x1_S8388608x3_1_0_n_n_0_1_13 (X (Proc.devRef .tc main_arg1)) (wrapped 16384#32 (X (Proc.devRef .tc main_arg4))))
          (broadcastInDim S8388608x3 ![] bcast_S_S8388608x3 (constant (F := F) S_ .f32 0x7FC00000#32)) := by
  simp only [hostOps0_2]
  after_results
  repeat rw [ofBuf_toBuf]
  rw [toBuf_lit main_v5, ofBuf_lit main_arg4, ofBuf_lit main_arg1]

set_option maxHeartbeats 4000000 in
/-- The third gathering stretch: its result is the filling gather of the radius table at argument 4. -/
theorem raw3 (X : Valuation τ sig (Elt F)) :
    (StableHlo.after hostOps0_3 X (Proc.devRef .tc main_v6) : (⟨S8388608x1, .f32⟩ : BufTy).Contents (Elt F))
      = select (broadcastInDim S8388608x1 ![0] bcast_S8388608_S8388608x1_0
          (Host.reduce IntOp.andi
            (andi (cmpi .sge (wrapped 16384#32 (X (Proc.devRef .tc main_arg4))) (broadcastInDim S8388608x1 ![] bcast_S_S8388608x1 (constantI S_ 32 0#32)))
              (cmpi .sle (wrapped 16384#32 (X (Proc.devRef .tc main_arg4)))
                (broadcastInDim S8388608x1 ![0, 1] bcast_S1x1_S8388608x1_0_1 (broadcastInDim S1x1 ![1] bcast_S1_S1x1_1 (constantI S1 32 16383#32)))))
            (constantI S_ 1 1#1) reducesTo_S8388608x1_S8388608_d1 h_S_))
          (Host.gather gather_S16384x1_S8388608x1_S8388608x1_1_0_n_n_0_1_11 (X (Proc.devRef .tc main_v3)) (wrapped 16384#32 (X (Proc.devRef .tc main_arg4))))
          (broadcastInDim S8388608x1 ![] bcast_S_S8388608x1 (constant (F := F) S_ .f32 0x7FC00000#32)) := by
  simp only [hostOps0_3]
  after_results
  repeat rw [ofBuf_toBuf]
  rw [toBuf_lit main_v6, ofBuf_lit main_arg4, ofBuf_lit main_v3]

set_option maxHeartbeats 4000000 in
/-- The fourth gathering stretch: its result is the rank-1 filling gather of argument 3 at argument 5. -/
theorem raw5 (X : Valuation τ sig (Elt F)) :
    (StableHlo.after hostOps0_5 X (Proc.devRef .tc main_v8) : (⟨S8388608, .i32⟩ : BufTy).Contents (Elt F))
      = select (Host.reduce IntOp.andi
            (andi (cmpi .sge (wrapped 1000000#32 (X (Proc.devRef .tc main_arg5))) (broadcastInDim S8388608x1 ![] bcast_S_S8388608x1 (constantI S_ 32 0#32)))
              (cmpi .sle (wrapped 1000000#32 (X (Proc.devRef .tc main_arg5)))
                (broadcastInDim S8388608x1 ![0, 1] bcast_S1x1_S8388608x1_0_1 (broadcastInDim S1x1 ![1] bcast_S1_S1x1_1 (constantI S1 32 999999#32)))))
            (constantI S_ 1 1#1) reducesTo_S8388608x1_S8388608_d1 h_S_)
          (Host.gather gather_S1000000_S8388608x1_S8388608_n_0_n_n_0_1_1 (X (Proc.devRef .tc main_arg3)) (wrapped 1000000#32 (X (Proc.devRef .tc main_arg5))))
          (broadcastInDim S8388608 ![] bcast_S_S8388608 (constantI S_ 32 2147483648#32)) := by
  simp only [hostOps0_5]
  after_results
  repeat rw [ofBuf_toBuf]
  rw [toBuf_lit main_v8, ofBuf_lit main_arg5, ofBuf_lit main_arg3]

/-- The radius table after the first stretch: 0.15 (as printed) times argument 2, plus 0.05 (as printed). -/
theorem radius_table (X : Valuation τ sig (Elt F)) :
    (StableHlo.after hostOps0 X (Proc.devRef .tc main_v3) : (⟨S16384x1, .f32⟩ : BufTy).Contents (Elt F))
      = addf (mulf (broadcastInDim S16384x1 ![] bcast_S_S16384x1 (constant (F := F) S_ .f32 0x3E19999A#32)) (X (Proc.devRef .tc main_arg2)))
          (broadcastInDim S16384x1 ![] bcast_S_S16384x1 (constant (F := F) S_ .f32 0x3D4CCCCD#32)) := by
  simp only [hostOps0]
  after_results

/-! ## The seven stretches, cut around each gathering stretch -/

variable (m : (ℓ : Loc nD τ sig) → Buf (Elt F) ℓ)

/-- The seven stretches as: the first, the first gathering one, and the rest. -/
theorem V0_split1 (c : Dev nD) : V0 m c = StableHlo.after (List.flatten [hostOps0_2, hostOps0_3, hostOps0_4, hostOps0_5, hostOps0_6])
    (StableHlo.after hostOps0_1 (StableHlo.after hostOps0 (fun b => m (c, b)))) := by
  show StableHlo.after (List.flatten [hostOps0, hostOps0_1, hostOps0_2, hostOps0_3, hostOps0_4, hostOps0_5, hostOps0_6]) _ = _
  rw [List.flatten_cons, StableHlo.after_append, List.flatten_cons, StableHlo.after_append]

/-- The seven stretches as: the first two, the second gathering one, and the rest. -/
theorem V0_split2 (c : Dev nD) : V0 m c = StableHlo.after (List.flatten [hostOps0_3, hostOps0_4, hostOps0_5, hostOps0_6])
    (StableHlo.after hostOps0_2 (StableHlo.after (List.flatten [hostOps0, hostOps0_1]) (fun b => m (c, b)))) := by
  show StableHlo.after (List.flatten [hostOps0, hostOps0_1, hostOps0_2, hostOps0_3, hostOps0_4, hostOps0_5, hostOps0_6]) _ = _
  rw [show List.flatten [hostOps0, hostOps0_1, hostOps0_2, hostOps0_3, hostOps0_4, hostOps0_5, hostOps0_6]
      = List.flatten [hostOps0, hostOps0_1] ++ (hostOps0_2 ++ List.flatten [hostOps0_3, hostOps0_4, hostOps0_5, hostOps0_6]) from by
    simp only [List.flatten_cons, List.flatten_nil, List.append_nil, List.append_assoc],
    StableHlo.after_append, StableHlo.after_append]

/-- The seven stretches as: the first, the first two gathering ones, the third gathering one, and the rest. -/
theorem V0_split3 (c : Dev nD) : V0 m c = StableHlo.after (List.flatten [hostOps0_4, hostOps0_5, hostOps0_6])
    (StableHlo.after hostOps0_3 (StableHlo.after (List.flatten [hostOps0_1, hostOps0_2]) (StableHlo.after hostOps0 (fun b => m (c, b))))) := by
  show StableHlo.after (List.flatten [hostOps0, hostOps0_1, hostOps0_2, hostOps0_3, hostOps0_4, hostOps0_5, hostOps0_6]) _ = _
  rw [show List.flatten [hostOps0, hostOps0_1, hostOps0_2, hostOps0_3, hostOps0_4, hostOps0_5, hostOps0_6]
      = hostOps0 ++ (List.flatten [hostOps0_1, hostOps0_2] ++ (hostOps0_3 ++ List.flatten [hostOps0_4, hostOps0_5, hostOps0_6])) from by
    simp only [List.flatten_cons, List.flatten_nil, List.append_nil, List.append_assoc],
    StableHlo.after_append, StableHlo.after_append, StableHlo.after_append]

/-- The seven stretches as: the first five, the fourth gathering one, and the last. -/
theorem V0_split5 (c : Dev nD) : V0 m c = StableHlo.after hostOps0_6
    (StableHlo.after hostOps0_5 (StableHlo.after (List.flatten [hostOps0, hostOps0_1, hostOps0_2, hostOps0_3, hostOps0_4]) (fun b => m (c, b)))) := by
  show StableHlo.after (List.flatten [hostOps0, hostOps0_1, hostOps0_2, hostOps0_3, hostOps0_4, hostOps0_5, hostOps0_6]) _ = _
  rw [show List.flatten [hostOps0, hostOps0_1, hostOps0_2, hostOps0_3, hostOps0_4, hostOps0_5, hostOps0_6]
      = List.flatten [hostOps0, hostOps0_1, hostOps0_2, hostOps0_3, hostOps0_4] ++ (hostOps0_5 ++ hostOps0_6) from by
    simp only [List.flatten_cons, List.flatten_nil, List.append_nil, List.append_assoc],
    StableHlo.after_append, StableHlo.after_append]

/-! ## Buffers the other stretches leave alone -/

/-- No stretch after the first gathering one writes its result. -/
theorem keep_v4 (Y : Valuation τ sig (Elt F)) :
    StableHlo.after (List.flatten [hostOps0_2, hostOps0_3, hostOps0_4, hostOps0_5, hostOps0_6]) Y (Proc.devRef .tc main_v4) = Y (Proc.devRef .tc main_v4) :=
  StableHlo.after_of_forall_not_mem (b := Proc.devRef .tc main_v4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The first stretch writes neither argument 5 -/
theorem pre1_arg5 (Y : Valuation τ sig (Elt F)) :
    StableHlo.after hostOps0 Y (Proc.devRef .tc main_arg5) = Y (Proc.devRef .tc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- nor argument 0. -/
theorem pre1_arg0 (Y : Valuation τ sig (Elt F)) :
    StableHlo.after hostOps0 Y (Proc.devRef .tc main_arg0) = Y (Proc.devRef .tc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No stretch after the second gathering one writes its result. -/
theorem keep_v5 (Y : Valuation τ sig (Elt F)) :
    StableHlo.after (List.flatten [hostOps0_3, hostOps0_4, hostOps0_5, hostOps0_6]) Y (Proc.devRef .tc main_v5) = Y (Proc.devRef .tc main_v5) :=
  StableHlo.after_of_forall_not_mem (b := Proc.devRef .tc main_v5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The first two stretches write neither argument 4 -/
theorem pre2_arg4 (Y : Valuation τ sig (Elt F)) :
    StableHlo.after (List.flatten [hostOps0, hostOps0_1]) Y (Proc.devRef .tc main_arg4) = Y (Proc.devRef .tc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- nor argument 1. -/
theorem pre2_arg1 (Y : Valuation τ sig (Elt F)) :
    StableHlo.after (List.flatten [hostOps0, hostOps0_1]) Y (Proc.devRef .tc main_arg1) = Y (Proc.devRef .tc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No stretch after the third gathering one writes its result. -/
theorem keep_v6 (Y : Valuation τ sig (Elt F)) :
    StableHlo.after (List.flatten [hostOps0_4, hostOps0_5, hostOps0_6]) Y (Proc.devRef .tc main_v6) = Y (Proc.devRef .tc main_v6) :=
  StableHlo.after_of_forall_not_mem (b := Proc.devRef .tc main_v6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The first two gathering stretches write neither argument 4 -/
theorem pre3_arg4 (Y : Valuation τ sig (Elt F)) :
    StableHlo.after (List.flatten [hostOps0_1, hostOps0_2]) Y (Proc.devRef .tc main_arg4) = Y (Proc.devRef .tc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- nor the radius table; -/
theorem pre3_v3 (Y : Valuation τ sig (Elt F)) :
    StableHlo.after (List.flatten [hostOps0_1, hostOps0_2]) Y (Proc.devRef .tc main_v3) = Y (Proc.devRef .tc main_v3) :=
  StableHlo.after_of_forall_not_mem (b := Proc.devRef .tc main_v3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- and the first stretch does not write argument 4. -/
theorem pre3_arg4' (Y : Valuation τ sig (Elt F)) :
    StableHlo.after hostOps0 Y (Proc.devRef .tc main_arg4) = Y (Proc.devRef .tc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The last stretch before the region does not write the fourth gathering stretch's result. -/
theorem keep_v8 (Y : Valuation τ sig (Elt F)) :
    StableHlo.after hostOps0_6 Y (Proc.devRef .tc main_v8) = Y (Proc.devRef .tc main_v8) :=
  StableHlo.after_of_forall_not_mem (b := Proc.devRef .tc main_v8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The stretches before the fourth gathering one write neither argument 5 -/
theorem pre5_arg5 (Y : Valuation τ sig (Elt F)) :
    StableHlo.after (List.flatten [hostOps0, hostOps0_1, hostOps0_2, hostOps0_3, hostOps0_4]) Y (Proc.devRef .tc main_arg5) = Y (Proc.devRef .tc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- nor argument 3. -/
theorem pre5_arg3 (Y : Valuation τ sig (Elt F)) :
    StableHlo.after (List.flatten [hostOps0, hostOps0_1, hostOps0_2, hostOps0_3, hostOps0_4]) Y (Proc.devRef .tc main_arg3) = Y (Proc.devRef .tc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Generic

/-! ## The four gathered buffers as the region finds them -/

variable (m : (ℓ : Loc nD τ sig) → Buf (Elt Ideal) ℓ)

/-- The member points: rows of argument 0 at the wrapped argument 5. -/
theorem member_pos (c : Dev nD) (h : ∀ e : S8388608.Idx, -(1000000 : ℤ) ≤ (((m ((c.tc : Thread nD τ).loc main_arg5)) : IVec S8388608 32) e).toInt ∧ (((m ((c.tc : Thread nD τ).loc main_arg5)) : IVec S8388608 32) e).toInt < (1000000 : ℤ)) :
    (V m c main_v4 : S8388608x3.Idx → EReal) = Host.gather gather_S1000000x3_S8388608x1_S8388608x3_1_0_n_n_0_1_13 (m ((c.tc : Thread nD τ).loc main_arg0)) (wrapped 1000000#32 (m ((c.tc : Thread nD τ).loc main_arg5))) := by
  refine (congrFun (V0_split1 m c) (Proc.devRef .tc main_v4)).trans ?_
  rw [keep_v4, raw1, pre1_arg5, pre1_arg0]
  exact Cert.LibTakeFill.take_fill_eq (E := 8388608) (C := 3) 1000000 1000000#32 999999#32 bcast_S_S8388608 bcast_S8388608_S8388608x1_0 bcast_S_S8388608x1 bcast_S1_S1x1_1 bcast_S1x1_S8388608x1_0_1 reducesTo_S8388608x1_S8388608_d1 h_S_ bcast_S8388608_S8388608x3_0
    (by decide) (by decide) rfl rfl _ h _ _

/-- The centres: rows of argument 1 at the wrapped argument 4. -/
theorem member_center (c : Dev nD) (h : ∀ e : S8388608.Idx, -(16384 : ℤ) ≤ (((m ((c.tc : Thread nD τ).loc main_arg4)) : IVec S8388608 32) e).toInt ∧ (((m ((c.tc : Thread nD τ).loc main_arg4)) : IVec S8388608 32) e).toInt < (16384 : ℤ)) :
    (V m c main_v5 : S8388608x3.Idx → EReal) = Host.gather gather_S16384x3_S8388608x1_S8388608x3_1_0_n_n_0_1_13 (m ((c.tc : Thread nD τ).loc main_arg1)) (wrapped 16384#32 (m ((c.tc : Thread nD τ).loc main_arg4))) := by
  refine (congrFun (V0_split2 m c) (Proc.devRef .tc main_v5)).trans ?_
  rw [keep_v5, raw2, pre2_arg4, pre2_arg1]
  exact Cert.LibTakeFill.take_fill_eq (E := 8388608) (C := 3) 16384 16384#32 16383#32 bcast_S_S8388608 bcast_S8388608_S8388608x1_0 bcast_S_S8388608x1 bcast_S1_S1x1_1 bcast_S1x1_S8388608x1_0_1 reducesTo_S8388608x1_S8388608_d1 h_S_ bcast_S8388608_S8388608x3_0
    (by decide) (by decide) rfl rfl _ h _ _

/-- The radii: rows of the radius table (0.15 times argument 2 plus 0.05, as printed) at the wrapped argument 4. -/
theorem member_radius (c : Dev nD) (h : ∀ e : S8388608.Idx, -(16384 : ℤ) ≤ (((m ((c.tc : Thread nD τ).loc main_arg4)) : IVec S8388608 32) e).toInt ∧ (((m ((c.tc : Thread nD τ).loc main_arg4)) : IVec S8388608 32) e).toInt < (16384 : ℤ)) :
    (V m c main_v6 : S8388608x1.Idx → EReal) = Host.gather gather_S16384x1_S8388608x1_S8388608x1_1_0_n_n_0_1_11
      (addf (F := Ideal) (mulf (F := Ideal) (broadcastInDim S16384x1 ![] bcast_S_S16384x1 (constant (F := Ideal) S_ .f32 0x3E19999A#32)) (m ((c.tc : Thread nD τ).loc main_arg2)))
        (broadcastInDim S16384x1 ![] bcast_S_S16384x1 (constant (F := Ideal) S_ .f32 0x3D4CCCCD#32)))
      (wrapped 16384#32 (m ((c.tc : Thread nD τ).loc main_arg4))) := by
  refine (congrFun (V0_split3 m c) (Proc.devRef .tc main_v6)).trans ?_
  rw [keep_v6, raw3, pre3_arg4, pre3_v3, pre3_arg4', radius_table]
  exact Cert.LibTakeFill.take_fill_eq (E := 8388608) (C := 1) 16384 16384#32 16383#32 bcast_S_S8388608 bcast_S8388608_S8388608x1_0 bcast_S_S8388608x1 bcast_S1_S1x1_1 bcast_S1x1_S8388608x1_0_1 reducesTo_S8388608x1_S8388608_d1 h_S_ bcast_S8388608_S8388608x1_0
    (by decide) (by decide) rfl rfl _ h _ _

/-- The batch words: entries of argument 3 at the wrapped argument 5. -/
theorem member_batch (c : Dev nD) (h : ∀ e : S8388608.Idx, -(1000000 : ℤ) ≤ (((m ((c.tc : Thread nD τ).loc main_arg5)) : IVec S8388608 32) e).toInt ∧ (((m ((c.tc : Thread nD τ).loc main_arg5)) : IVec S8388608 32) e).toInt < (1000000 : ℤ)) :
    (V m c main_v8 : S8388608.Idx → BitVec 32) = Host.gather gather_S1000000_S8388608x1_S8388608_n_0_n_n_0_1_1 (m ((c.tc : Thread nD τ).loc main_arg3)) (wrapped 1000000#32 (m ((c.tc : Thread nD τ).loc main_arg5))) := by
  refine (congrFun (V0_split5 m c) (Proc.devRef .tc main_v8)).trans ?_
  rw [keep_v8, raw5, pre5_arg5, pre5_arg3]
  exact take_fill_eq1 (E := 8388608) 1000000 1000000#32 999999#32 bcast_S_S8388608 bcast_S8388608_S8388608x1_0 bcast_S_S8388608x1 bcast_S1_S1x1_1 bcast_S1x1_S8388608x1_0_1 reducesTo_S8388608x1_S8388608_d1 h_S_
    (by decide) (by decide) rfl rfl _ h _ _

end Cert.KernelIdeal.Gathered

end
-- ==== Proof.KIFinal.lean ====
/-
  What the seven output arrays of the region hold after the run, as whole-array functions of the eight input arrays.
  Every window of the region moves by the same index map (grid point `t` takes rows `2048 t … 2048 t + 2047`, all 128
  lanes) and the body computes entry by entry, so block `t` of an output is the per-entry function of blocks `t` of the
  inputs at the same place, and the 32 blocks cover the 65536 rows: each output array is that per-entry function of
  the input arrays, index by index.
-/
import proofs.«430290_j19808389169237_1_alg».proof.Proof.KIRun
import proofs.«430290_j19808389169237_1_alg».proof.Proof.Spec
import Idealize.ShloMosaic.Lib.Pipeline.Value
import Idealize.ShloMosaic.PureOps.IdealRules

set_option maxRecDepth 16384

noncomputable section

namespace Cert.KernelIdeal.Final

open Cert.KernelIdeal Cert.KernelIdeal.Gen Cert.KernelIdeal.Around
open Idealize.ShloMosaic Idealize.ShloMosaic.TcCoe Idealize.SL.Sem
open Idealize.ShloMosaic.Pipeline (Dat Cfg Window)

/-! ## The body's arithmetic at one entry -/

/-- The zero offsets of a whole-block access. -/
theorem zero_offsets : (![0, 0] : Fin 2 → Nat) = fun _ => 0 := funext fun a => by fin_cases a <;> rfl

/-- The named rescaling constant is the exact reciprocal of the single-precision 0.2. -/
theorem rescale_eq : Named.named (F := Ideal) Cert.KernelIdeal.κ "inv_r_max" (φ := .f32) 0x40A00000#32 = Cert.Spec.rescale :=
  IdealRules.named_const.ideal_named_scalar _ _ _ _ rfl

section Entry

variable (x0 x1 x2 x3 x4 x5 x6 : Vec Ideal S2048x128 .f32) (x7 : Vec Ideal S2048x128 .i32) (j : S2048x128.Idx)

/-- The radius block, re-cast to its own shape, is itself. -/
theorem radius_apply : k0_pay10 x6 j = x6 j := by
  unfold k0_pay10; rw [shapeCast_self]

/-- The batch block, re-cast to its own shape, is itself. -/
theorem batch_apply : k0_pay11 (F := Ideal) x7 j = x7 j := by
  unfold k0_pay11; rw [shapeCast_self]

/-- A local coordinate at an entry: the offset from the centre over the radius. -/
theorem coord0_apply : k0_pay12 x0 x3 x6 j = Cert.Spec.coord (x0 j) (x3 j) (x6 j) := by
  unfold k0_pay12 k0_pay10; simp only [shapeCast_self]; rfl
theorem coord1_apply : k0_pay13 x1 x4 x6 j = Cert.Spec.coord (x1 j) (x4 j) (x6 j) := by
  unfold k0_pay13 k0_pay10; simp only [shapeCast_self]; rfl
theorem coord2_apply : k0_pay14 x2 x5 x6 j = Cert.Spec.coord (x2 j) (x5 j) (x6 j) := by
  unfold k0_pay14 k0_pay10; simp only [shapeCast_self]; rfl

/-- The norm of the three local coordinates at an entry. -/
abbrev nE : EReal := Cert.Spec.norm (Cert.Spec.coord (x0 j) (x3 j) (x6 j)) (Cert.Spec.coord (x1 j) (x4 j) (x6 j)) (Cert.Spec.coord (x2 j) (x5 j) (x6 j))

theorem norm_apply : k0_pay15 x0 x1 x2 x3 x4 x5 x6 j = nE x0 x1 x2 x3 x4 x5 x6 j := by
  show Ideal.sqrt (k0_pay12 x0 x3 x6 j * k0_pay12 x0 x3 x6 j + k0_pay13 x1 x4 x6 j * k0_pay13 x1 x4 x6 j + k0_pay14 x2 x5 x6 j * k0_pay14 x2 x5 x6 j) = _
  rw [coord0_apply, coord1_apply, coord2_apply]; rfl

/-- The inside bit at an entry. -/
theorem inside_apply : k0_pay16 x0 x1 x2 x3 x4 x5 x6 j = Cert.Spec.inside (nE x0 x1 x2 x3 x4 x5 x6 j) := by
  show Ideal.cmp .olt (k0_pay15 x0 x1 x2 x3 x4 x5 x6 j) Cert.Spec.cutoff = _
  rw [norm_apply]; rfl

/-- The inside bit as a number. -/
theorem maskf_apply (b : IVec S2048x128 1) : k0_pay3 (F := Ideal) b j = FloatOps.sitofp (F := Ideal) .f32 (BitVec.setWidth 32 (b j)) := rfl

end Entry

section Stores

variable (x0 x1 x2 x3 x4 x5 x6 : Vec Ideal S2048x128 .f32) (x7 : Vec Ideal S2048x128 .i32) (j : S2048x128.Idx)

/-- The boundary ramp under the logarithm at an entry. -/
theorem ramp_apply : k0_pay17 x0 x1 x2 x3 x4 x5 x6 j
    = max (Cert.Spec.one - Ideal.div (nE x0 x1 x2 x3 x4 x5 x6 j - Cert.Spec.one) Cert.Spec.fifth) Cert.Spec.zero := by
  show max (Cert.Spec.one - Ideal.div (k0_pay15 x0 x1 x2 x3 x4 x5 x6 j - Cert.Spec.one) Cert.Spec.fifth) Cert.Spec.zero = _
  rw [norm_apply]

/-- The three rescaled, masked local coordinates at an entry. -/
theorem store8_apply : k0_pay4 (k0_pay10 x6) (k0_pay12 x0 x3 x6) (k0_pay16 x0 x1 x2 x3 x4 x5 x6) j
    = Cert.Spec.scaled (Cert.Spec.coord (x0 j) (x3 j) (x6 j)) (x6 j) (nE x0 x1 x2 x3 x4 x5 x6 j) := by
  show k0_pay12 x0 x3 x6 j * (k0_pay10 x6 j * Named.named (F := Ideal) Cert.KernelIdeal.κ "inv_r_max" (φ := .f32) 0x40A00000#32)
    * k0_pay3 (F := Ideal) (k0_pay16 x0 x1 x2 x3 x4 x5 x6) j = _
  rw [coord0_apply, radius_apply, rescale_eq, maskf_apply, inside_apply]; rfl
theorem store9_apply : k0_pay5 (k0_pay10 x6) (k0_pay13 x1 x4 x6) (k0_pay16 x0 x1 x2 x3 x4 x5 x6) j
    = Cert.Spec.scaled (Cert.Spec.coord (x1 j) (x4 j) (x6 j)) (x6 j) (nE x0 x1 x2 x3 x4 x5 x6 j) := by
  show k0_pay13 x1 x4 x6 j * (k0_pay10 x6 j * Named.named (F := Ideal) Cert.KernelIdeal.κ "inv_r_max" (φ := .f32) 0x40A00000#32)
    * k0_pay3 (F := Ideal) (k0_pay16 x0 x1 x2 x3 x4 x5 x6) j = _
  rw [coord1_apply, radius_apply, rescale_eq, maskf_apply, inside_apply]; rfl
theorem store10_apply : k0_pay6 (k0_pay10 x6) (k0_pay14 x2 x5 x6) (k0_pay16 x0 x1 x2 x3 x4 x5 x6) j
    = Cert.Spec.scaled (Cert.Spec.coord (x2 j) (x5 j) (x6 j)) (x6 j) (nE x0 x1 x2 x3 x4 x5 x6 j) := by
  show k0_pay14 x2 x5 x6 j * (k0_pay10 x6 j * Named.named (F := Ideal) Cert.KernelIdeal.κ "inv_r_max" (φ := .f32) 0x40A00000#32)
    * k0_pay3 (F := Ideal) (k0_pay16 x0 x1 x2 x3 x4 x5 x6) j = _
  rw [coord2_apply, radius_apply, rescale_eq, maskf_apply, inside_apply]; rfl

/-- The masked norm at an entry. -/
theorem store11_apply : k0_pay7 (k0_pay15 x0 x1 x2 x3 x4 x5 x6) (k0_pay16 x0 x1 x2 x3 x4 x5 x6) j
    = nE x0 x1 x2 x3 x4 x5 x6 j * Cert.Spec.maskf (nE x0 x1 x2 x3 x4 x5 x6 j) := by
  show k0_pay15 x0 x1 x2 x3 x4 x5 x6 j * k0_pay3 (F := Ideal) (k0_pay16 x0 x1 x2 x3 x4 x5 x6) j = _
  rw [norm_apply, maskf_apply, inside_apply]; rfl

/-- The log boundary weight at an entry. -/
theorem store12_apply : k0_pay1 (k0_pay16 x0 x1 x2 x3 x4 x5 x6) (k0_pay17 x0 x1 x2 x3 x4 x5 x6) j
    = Cert.Spec.weight (nE x0 x1 x2 x3 x4 x5 x6 j) := by
  show Scalar.select (k0_pay16 x0 x1 x2 x3 x4 x5 x6 j) (Ideal.log (k0_pay17 x0 x1 x2 x3 x4 x5 x6 j + Cert.Spec.tiny)) Cert.Spec.zero = _
  rw [inside_apply, ramp_apply]; rfl

/-- The batch word, or −1 outside, at an entry. -/
theorem store13_apply : k0_pay8 (k0_pay11 (F := Ideal) x7) (k0_pay16 x0 x1 x2 x3 x4 x5 x6) j
    = Cert.Spec.batchWord (nE x0 x1 x2 x3 x4 x5 x6 j) (x7 j) := by
  show Scalar.select (k0_pay16 x0 x1 x2 x3 x4 x5 x6 j) (k0_pay11 (F := Ideal) x7 j) 4294967295#32 = _
  rw [inside_apply, batch_apply]; rfl

/-- The inside bit as a 32-bit word at an entry. -/
theorem store14_apply : k0_pay9 (k0_pay16 x0 x1 x2 x3 x4 x5 x6) j = BitVec.setWidth 32 (Cert.Spec.inside (nE x0 x1 x2 x3 x4 x5 x6 j)) := by
  show BitVec.setWidth 32 (k0_pay16 x0 x1 x2 x3 x4 x5 x6 j) = _
  rw [inside_apply]

end Stores

/-! ## The windows' index map -/

/-- Every window takes, at grid point `t`, row block `t` and the one lane block. -/
theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_3 : ∀ t : Fin cfg0.N, win0_3.index t (0 : Fin 2) = t.val ∧ win0_3.index t (1 : Fin 2) = 0 :=
  (by decide +kernel : ∀ t : Fin grid0.N, _)
theorem index_4 : ∀ t : Fin cfg0.N, win0_4.index t (0 : Fin 2) = t.val ∧ win0_4.index t (1 : Fin 2) = 0 :=
  (by decide +kernel : ∀ t : Fin grid0.N, _)
theorem index_5 : ∀ t : Fin cfg0.N, win0_5.index t (0 : Fin 2) = t.val ∧ win0_5.index t (1 : Fin 2) = 0 :=
  (by decide +kernel : ∀ t : Fin grid0.N, _)
theorem index_6 : ∀ t : Fin cfg0.N, win0_6.index t (0 : Fin 2) = t.val ∧ win0_6.index t (1 : Fin 2) = 0 :=
  (by decide +kernel : ∀ t : Fin grid0.N, _)
theorem index_7 : ∀ t : Fin cfg0.N, win0_7.index t (0 : Fin 2) = t.val ∧ win0_7.index t (1 : Fin 2) = 0 :=
  (by decide +kernel : ∀ t : Fin grid0.N, _)
theorem index_8 : ∀ t : Fin cfg0.N, win0_8.index t (0 : Fin 2) = t.val ∧ win0_8.index t (1 : Fin 2) = 0 :=
  (by decide +kernel : ∀ t : Fin grid0.N, _)
theorem index_9 : ∀ t : Fin cfg0.N, win0_9.index t (0 : Fin 2) = t.val ∧ win0_9.index t (1 : Fin 2) = 0 :=
  (by decide +kernel : ∀ t : Fin grid0.N, _)
theorem index_10 : ∀ t : Fin cfg0.N, win0_10.index t (0 : Fin 2) = t.val ∧ win0_10.index t (1 : Fin 2) = 0 :=
  (by decide +kernel : ∀ t : Fin grid0.N, _)
theorem index_11 : ∀ t : Fin cfg0.N, win0_11.index t (0 : Fin 2) = t.val ∧ win0_11.index t (1 : Fin 2) = 0 :=
  (by decide +kernel : ∀ t : Fin grid0.N, _)
theorem index_12 : ∀ t : Fin cfg0.N, win0_12.index t (0 : Fin 2) = t.val ∧ win0_12.index t (1 : Fin 2) = 0 :=
  (by decide +kernel : ∀ t : Fin grid0.N, _)
theorem index_13 : ∀ t : Fin cfg0.N, win0_13.index t (0 : Fin 2) = t.val ∧ win0_13.index t (1 : Fin 2) = 0 :=
  (by decide +kernel : ∀ t : Fin grid0.N, _)
theorem index_14 : ∀ t : Fin cfg0.N, win0_14.index t (0 : Fin 2) = t.val ∧ win0_14.index t (1 : Fin 2) = 0 :=
  (by decide +kernel : ∀ t : Fin grid0.N, _)

/-- Entry `j` of row block `t`, as an index of the 65536 × 128 array. -/
def place (t : Fin cfg0.N) (j : S2048x128.Idx) : S65536x128.Idx :=
  ValueIdx.ix2 (n0 := 65536) (n1 := 128) ⟨t.val * 2048 + (j 0).val, by
      have ht : t.val < 32 := t.isLt
      have hj : (j 0).val < 2048 := (j 0).isLt
      omega⟩ ⟨(j 1).val, (j 1).isLt⟩

/-- Where a window's block at point `t` puts its entry `j`: the same place for every window. -/
theorem emb_0 (t : Fin cfg0.N) (j : S2048x128.Idx) : ((cfg0.win 0).blk t).view.emb j = place t j := by
  obtain ⟨e0, e1⟩ := index_0 t
  funext a; apply Fin.ext
  match a with
  | ⟨0, _⟩ => show win0_0.index t (0 : Fin 2) * 2048 + 1 * (j 0).val = t.val * 2048 + (j 0).val; omega
  | ⟨1, _⟩ => show win0_0.index t (1 : Fin 2) * 128 + 1 * (j 1).val = (j 1).val; omega
theorem emb_1 (t : Fin cfg0.N) (j : S2048x128.Idx) : ((cfg0.win 1).blk t).view.emb j = place t j := by
  obtain ⟨e0, e1⟩ := index_1 t
  funext a; apply Fin.ext
  match a with
  | ⟨0, _⟩ => show win0_1.index t (0 : Fin 2) * 2048 + 1 * (j 0).val = t.val * 2048 + (j 0).val; omega
  | ⟨1, _⟩ => show win0_1.index t (1 : Fin 2) * 128 + 1 * (j 1).val = (j 1).val; omega
theorem emb_2 (t : Fin cfg0.N) (j : S2048x128.Idx) : ((cfg0.win 2).blk t).view.emb j = place t j := by
  obtain ⟨e0, e1⟩ := index_2 t
  funext a; apply Fin.ext
  match a with
  | ⟨0, _⟩ => show win0_2.index t (0 : Fin 2) * 2048 + 1 * (j 0).val = t.val * 2048 + (j 0).val; omega
  | ⟨1, _⟩ => show win0_2.index t (1 : Fin 2) * 128 + 1 * (j 1).val = (j 1).val; omega
theorem emb_3 (t : Fin cfg0.N) (j : S2048x128.Idx) : ((cfg0.win 3).blk t).view.emb j = place t j := by
  obtain ⟨e0, e1⟩ := index_3 t
  funext a; apply Fin.ext
  match a with
  | ⟨0, _⟩ => show win0_3.index t (0 : Fin 2) * 2048 + 1 * (j 0).val = t.val * 2048 + (j 0).val; omega
  | ⟨1, _⟩ => show win0_3.index t (1 : Fin 2) * 128 + 1 * (j 1).val = (j 1).val; omega
theorem emb_4 (t : Fin cfg0.N) (j : S2048x128.Idx) : ((cfg0.win 4).blk t).view.emb j = place t j := by
  obtain ⟨e0, e1⟩ := index_4 t
  funext a; apply Fin.ext
  match a with
  | ⟨0, _⟩ => show win0_4.index t (0 : Fin 2) * 2048 + 1 * (j 0).val = t.val * 2048 + (j 0).val; omega
  | ⟨1, _⟩ => show win0_4.index t (1 : Fin 2) * 128 + 1 * (j 1).val = (j 1).val; omega
theorem emb_5 (t : Fin cfg0.N) (j : S2048x128.Idx) : ((cfg0.win 5).blk t).view.emb j = place t j := by
  obtain ⟨e0, e1⟩ := index_5 t
  funext a; apply Fin.ext
  match a with
  | ⟨0, _⟩ => show win0_5.index t (0 : Fin 2) * 2048 + 1 * (j 0).val = t.val * 2048 + (j 0).val; omega
  | ⟨1, _⟩ => show win0_5.index t (1 : Fin 2) * 128 + 1 * (j 1).val = (j 1).val; omega
theorem emb_6 (t : Fin cfg0.N) (j : S2048x128.Idx) : ((cfg0.win 6).blk t).view.emb j = place t j := by
  obtain ⟨e0, e1⟩ := index_6 t
  funext a; apply Fin.ext
  match a with
  | ⟨0, _⟩ => show win0_6.index t (0 : Fin 2) * 2048 + 1 * (j 0).val = t.val * 2048 + (j 0).val; omega
  | ⟨1, _⟩ => show win0_6.index t (1 : Fin 2) * 128 + 1 * (j 1).val = (j 1).val; omega
theorem emb_7 (t : Fin cfg0.N) (j : S2048x128.Idx) : ((cfg0.win 7).blk t).view.emb j = place t j := by
  obtain ⟨e0, e1⟩ := index_7 t
  funext a; apply Fin.ext
  match a with
  | ⟨0, _⟩ => show win0_7.index t (0 : Fin 2) * 2048 + 1 * (j 0).val = t.val * 2048 + (j 0).val; omega
  | ⟨1, _⟩ => show win0_7.index t (1 : Fin 2) * 128 + 1 * (j 1).val = (j 1).val; omega
theorem emb_8 (t : Fin cfg0.N) (j : S2048x128.Idx) : ((cfg0.win 8).blk t).view.emb j = place t j := by
  obtain ⟨e0, e1⟩ := index_8 t
  funext a; apply Fin.ext
  match a with
  | ⟨0, _⟩ => show win0_8.index t (0 : Fin 2) * 2048 + 1 * (j 0).val = t.val * 2048 + (j 0).val; omega
  | ⟨1, _⟩ => show win0_8.index t (1 : Fin 2) * 128 + 1 * (j 1).val = (j 1).val; omega
theorem emb_9 (t : Fin cfg0.N) (j : S2048x128.Idx) : ((cfg0.win 9).blk t).view.emb j = place t j := by
  obtain ⟨e0, e1⟩ := index_9 t
  funext a; apply Fin.ext
  match a with
  | ⟨0, _⟩ => show win0_9.index t (0 : Fin 2) * 2048 + 1 * (j 0).val = t.val * 2048 + (j 0).val; omega
  | ⟨1, _⟩ => show win0_9.index t (1 : Fin 2) * 128 + 1 * (j 1).val = (j 1).val; omega
theorem emb_10 (t : Fin cfg0.N) (j : S2048x128.Idx) : ((cfg0.win 10).blk t).view.emb j = place t j := by
  obtain ⟨e0, e1⟩ := index_10 t
  funext a; apply Fin.ext
  match a with
  | ⟨0, _⟩ => show win0_10.index t (0 : Fin 2) * 2048 + 1 * (j 0).val = t.val * 2048 + (j 0).val; omega
  | ⟨1, _⟩ => show win0_10.index t (1 : Fin 2) * 128 + 1 * (j 1).val = (j 1).val; omega
theorem emb_11 (t : Fin cfg0.N) (j : S2048x128.Idx) : ((cfg0.win 11).blk t).view.emb j = place t j := by
  obtain ⟨e0, e1⟩ := index_11 t
  funext a; apply Fin.ext
  match a with
  | ⟨0, _⟩ => show win0_11.index t (0 : Fin 2) * 2048 + 1 * (j 0).val = t.val * 2048 + (j 0).val; omega
  | ⟨1, _⟩ => show win0_11.index t (1 : Fin 2) * 128 + 1 * (j 1).val = (j 1).val; omega
theorem emb_12 (t : Fin cfg0.N) (j : S2048x128.Idx) : ((cfg0.win 12).blk t).view.emb j = place t j := by
  obtain ⟨e0, e1⟩ := index_12 t
  funext a; apply Fin.ext
  match a with
  | ⟨0, _⟩ => show win0_12.index t (0 : Fin 2) * 2048 + 1 * (j 0).val = t.val * 2048 + (j 0).val; omega
  | ⟨1, _⟩ => show win0_12.index t (1 : Fin 2) * 128 + 1 * (j 1).val = (j 1).val; omega
theorem emb_13 (t : Fin cfg0.N) (j : S2048x128.Idx) : ((cfg0.win 13).blk t).view.emb j = place t j := by
  obtain ⟨e0, e1⟩ := index_13 t
  funext a; apply Fin.ext
  match a with
  | ⟨0, _⟩ => show win0_13.index t (0 : Fin 2) * 2048 + 1 * (j 0).val = t.val * 2048 + (j 0).val; omega
  | ⟨1, _⟩ => show win0_13.index t (1 : Fin 2) * 128 + 1 * (j 1).val = (j 1).val; omega
theorem emb_14 (t : Fin cfg0.N) (j : S2048x128.Idx) : ((cfg0.win 14).blk t).view.emb j = place t j := by
  obtain ⟨e0, e1⟩ := index_14 t
  funext a; apply Fin.ext
  match a with
  | ⟨0, _⟩ => show win0_14.index t (0 : Fin 2) * 2048 + 1 * (j 0).val = t.val * 2048 + (j 0).val; omega
  | ⟨1, _⟩ => show win0_14.index t (1 : Fin 2) * 128 + 1 * (j 1).val = (j 1).val; omega

/-- A window's block at point `t`, read off an array, is the array at that place. -/
theorem read_0 (A : S65536x128.Idx → EReal) (t : Fin cfg0.N) (j : S2048x128.Idx) :
    ((cfg0.win 0).blk t).view.read (Elt Ideal) A j = A (place t j) := by
  show A (((cfg0.win 0).blk t).view.emb j) = _
  rw [emb_0]
theorem read_1 (A : S65536x128.Idx → EReal) (t : Fin cfg0.N) (j : S2048x128.Idx) :
    ((cfg0.win 1).blk t).view.read (Elt Ideal) A j = A (place t j) := by
  show A (((cfg0.win 1).blk t).view.emb j) = _
  rw [emb_1]
theorem read_2 (A : S65536x128.Idx → EReal) (t : Fin cfg0.N) (j : S2048x128.Idx) :
    ((cfg0.win 2).blk t).view.read (Elt Ideal) A j = A (place t j) := by
  show A (((cfg0.win 2).blk t).view.emb j) = _
  rw [emb_2]
theorem read_3 (A : S65536x128.Idx → EReal) (t : Fin cfg0.N) (j : S2048x128.Idx) :
    ((cfg0.win 3).blk t).view.read (Elt Ideal) A j = A (place t j) := by
  show A (((cfg0.win 3).blk t).view.emb j) = _
  rw [emb_3]
theorem read_4 (A : S65536x128.Idx → EReal) (t : Fin cfg0.N) (j : S2048x128.Idx) :
    ((cfg0.win 4).blk t).view.read (Elt Ideal) A j = A (place t j) := by
  show A (((cfg0.win 4).blk t).view.emb j) = _
  rw [emb_4]
theorem read_5 (A : S65536x128.Idx → EReal) (t : Fin cfg0.N) (j : S2048x128.Idx) :
    ((cfg0.win 5).blk t).view.read (Elt Ideal) A j = A (place t j) := by
  show A (((cfg0.win 5).blk t).view.emb j) = _
  rw [emb_5]
theorem read_6 (A : S65536x128.Idx → EReal) (t : Fin cfg0.N) (j : S2048x128.Idx) :
    ((cfg0.win 6).blk t).view.read (Elt Ideal) A j = A (place t j) := by
  show A (((cfg0.win 6).blk t).view.emb j) = _
  rw [emb_6]
theorem read_7 (A : S65536x128.Idx → BitVec 32) (t : Fin cfg0.N) (j : S2048x128.Idx) :
    ((cfg0.win 7).blk t).view.read (Elt Ideal) A j = A (place t j) := by
  show A (((cfg0.win 7).blk t).view.emb j) = _
  rw [emb_7]
theorem read_8 (A : S65536x128.Idx → EReal) (t : Fin cfg0.N) (j : S2048x128.Idx) :
    ((cfg0.win 8).blk t).view.read (Elt Ideal) A j = A (place t j) := by
  show A (((cfg0.win 8).blk t).view.emb j) = _
  rw [emb_8]
theorem read_9 (A : S65536x128.Idx → EReal) (t : Fin cfg0.N) (j : S2048x128.Idx) :
    ((cfg0.win 9).blk t).view.read (Elt Ideal) A j = A (place t j) := by
  show A (((cfg0.win 9).blk t).view.emb j) = _
  rw [emb_9]
theorem read_10 (A : S65536x128.Idx → EReal) (t : Fin cfg0.N) (j : S2048x128.Idx) :
    ((cfg0.win 10).blk t).view.read (Elt Ideal) A j = A (place t j) := by
  show A (((cfg0.win 10).blk t).view.emb j) = _
  rw [emb_10]
theorem read_11 (A : S65536x128.Idx → EReal) (t : Fin cfg0.N) (j : S2048x128.Idx) :
    ((cfg0.win 11).blk t).view.read (Elt Ideal) A j = A (place t j) := by
  show A (((cfg0.win 11).blk t).view.emb j) = _
  rw [emb_11]
theorem read_12 (A : S65536x128.Idx → EReal) (t : Fin cfg0.N) (j : S2048x128.Idx) :
    ((cfg0.win 12).blk t).view.read (Elt Ideal) A j = A (place t j) := by
  show A (((cfg0.win 12).blk t).view.emb j) = _
  rw [emb_12]
theorem read_13 (A : S65536x128.Idx → BitVec 32) (t : Fin cfg0.N) (j : S2048x128.Idx) :
    ((cfg0.win 13).blk t).view.read (Elt Ideal) A j = A (place t j) := by
  show A (((cfg0.win 13).blk t).view.emb j) = _
  rw [emb_13]
theorem read_14 (A : S65536x128.Idx → BitVec 32) (t : Fin cfg0.N) (j : S2048x128.Idx) :
    ((cfg0.win 14).blk t).view.read (Elt Ideal) A j = A (place t j) := by
  show A (((cfg0.win 14).blk t).view.emb j) = _
  rw [emb_14]

variable (m : (ℓ : Loc nD τ sig) → Buf (Elt Ideal) ℓ)

/-! ## The eight input arrays as the region finds them -/

/-- The members' three coordinates, the centres' three coordinates, the radii, the batch words: 65536 × 128 each. -/
abbrev X0 (c : Dev nD) : S65536x128.Idx → EReal := V m c main_v11
abbrev X1 (c : Dev nD) : S65536x128.Idx → EReal := V m c main_v14
abbrev X2 (c : Dev nD) : S65536x128.Idx → EReal := V m c main_v17
abbrev X3 (c : Dev nD) : S65536x128.Idx → EReal := V m c main_v20
abbrev X4 (c : Dev nD) : S65536x128.Idx → EReal := V m c main_v23
abbrev X5 (c : Dev nD) : S65536x128.Idx → EReal := V m c main_v26
abbrev X6 (c : Dev nD) : S65536x128.Idx → EReal := V m c main_v27
abbrev X7 (c : Dev nD) : S65536x128.Idx → BitVec 32 := V m c main_v28

/-- The norm of the local coordinates at an index. -/
abbrev nX (c : Dev nD) (i : S65536x128.Idx) : EReal := (Cert.Spec.norm (Cert.Spec.coord (X0 m c i) (X3 m c i) (X6 m c i)) (Cert.Spec.coord (X1 m c i) (X4 m c i) (X6 m c i)) (Cert.Spec.coord (X2 m c i) (X5 m c i) (X6 m c i)))

/-! ## The input blocks at an entry -/

theorem iblk0_apply (c : Dev nD) (t : Fin cfg0.N) (j : S2048x128.Idx) : iblk m c 0 t j = X0 m c (place t j) :=
  read_0 (V m c main_v11) t j
theorem iblk1_apply (c : Dev nD) (t : Fin cfg0.N) (j : S2048x128.Idx) : iblk m c 1 t j = X1 m c (place t j) :=
  read_1 (V m c main_v14) t j
theorem iblk2_apply (c : Dev nD) (t : Fin cfg0.N) (j : S2048x128.Idx) : iblk m c 2 t j = X2 m c (place t j) :=
  read_2 (V m c main_v17) t j
theorem iblk3_apply (c : Dev nD) (t : Fin cfg0.N) (j : S2048x128.Idx) : iblk m c 3 t j = X3 m c (place t j) :=
  read_3 (V m c main_v20) t j
theorem iblk4_apply (c : Dev nD) (t : Fin cfg0.N) (j : S2048x128.Idx) : iblk m c 4 t j = X4 m c (place t j) :=
  read_4 (V m c main_v23) t j
theorem iblk5_apply (c : Dev nD) (t : Fin cfg0.N) (j : S2048x128.Idx) : iblk m c 5 t j = X5 m c (place t j) :=
  read_5 (V m c main_v26) t j
theorem iblk6_apply (c : Dev nD) (t : Fin cfg0.N) (j : S2048x128.Idx) : iblk m c 6 t j = X6 m c (place t j) :=
  read_6 (V m c main_v27) t j
theorem iblk7_apply (c : Dev nD) (t : Fin cfg0.N) (j : S2048x128.Idx) : iblk m c 7 t j = X7 m c (place t j) :=
  read_7 (V m c main_v28) t j

/-! ## What each point writes back, and the cover of each output array -/

/-- What point `t` writes back to output 8 is block `t` of the first rescaled, masked local coordinate. -/
theorem flushed8_eq (c : Dev nD) (t : Fin cfg0.N) :
    (dats m 0 c).flushed 8 t = ((cfg0.win 8).blk t).view.read (Elt Ideal)
      (fun i => Cert.Spec.scaled (Cert.Spec.coord (X0 m c i) (X3 m c i) (X6 m c i)) (X6 m c i) (nX m c i)) := by
  show (cfg0.win 8).cut (grid0.coords t) ((dats m 0 c).after 8 t) = _
  rw [after0_8]
  unfold out0_8
  rw [View.canon_unit_zero zero_offsets]
  simp only [View.ld_unit_zero (S := S2048x128) zero_offsets]
  funext j
  refine (store8_apply (iblk m c 0 t) (iblk m c 1 t) (iblk m c 2 t) (iblk m c 3 t) (iblk m c 4 t) (iblk m c 5 t) (iblk m c 6 t) j).trans ?_
  unfold nE
  rw [read_8, iblk0_apply, iblk1_apply, iblk2_apply, iblk3_apply, iblk4_apply, iblk5_apply, iblk6_apply]

/-- An index of output 8's array is in point `t`'s block iff each coordinate is in the block's range on its axis. -/
theorem mem_blk8 (t : Fin cfg0.N) (i : S65536x128.Idx) :
    i ∈ ((cfg0.win 8).blk t).view.set ↔ ∀ a : Fin 2, win0_8.index t a * S2048x128.size a ≤ (i a).val ∧ (i a).val < win0_8.index t a * S2048x128.size a + S2048x128.size a := by
  show i ∈ ((View.whole main_v29_0).slice (win0_8.rect t)).set ↔ _
  rw [View.set_slice_whole, Rect.mem_set_unit]
  exact Iff.rfl

/-- The 32 row blocks cover output 8's array: row `r` is in the block of point `r / 2048`. -/
theorem cover8 (i : S65536x128.Idx) : ∃ t : Fin cfg0.N, (cfg0.win 8).flush t = true ∧ i ∈ ((cfg0.win 8).blk t).view.set := by
  have hi0 : (i 0).val < 65536 := (i 0).isLt
  have hi1 : (i 1).val < 128 := (i 1).isLt
  have ht : (i 0).val / 2048 < 32 := by omega
  refine ⟨⟨(i 0).val / 2048, ht⟩, flush0_8 _, ?_⟩
  obtain ⟨e0, e1⟩ := index_8 ⟨(i 0).val / 2048, ht⟩
  rw [mem_blk8]
  intro a
  match a with
  | ⟨0, _⟩ => show win0_8.index ⟨(i 0).val / 2048, ht⟩ (0 : Fin 2) * 2048 ≤ (i 0).val ∧ (i 0).val < win0_8.index ⟨(i 0).val / 2048, ht⟩ (0 : Fin 2) * 2048 + 2048; rw [e0]; show (i 0).val / 2048 * 2048 ≤ (i 0).val ∧ (i 0).val < (i 0).val / 2048 * 2048 + 2048; omega
  | ⟨1, _⟩ => show win0_8.index ⟨(i 0).val / 2048, ht⟩ (1 : Fin 2) * 128 ≤ (i 1).val ∧ (i 1).val < win0_8.index ⟨(i 0).val / 2048, ht⟩ (1 : Fin 2) * 128 + 128; rw [e1]; omega

/-- What point `t` writes back to output 9 is block `t` of the second rescaled, masked local coordinate. -/
theorem flushed9_eq (c : Dev nD) (t : Fin cfg0.N) :
    (dats m 0 c).flushed 9 t = ((cfg0.win 9).blk t).view.read (Elt Ideal)
      (fun i => Cert.Spec.scaled (Cert.Spec.coord (X1 m c i) (X4 m c i) (X6 m c i)) (X6 m c i) (nX m c i)) := by
  show (cfg0.win 9).cut (grid0.coords t) ((dats m 0 c).after 9 t) = _
  rw [after0_9]
  unfold out0_9
  rw [View.canon_unit_zero zero_offsets]
  simp only [View.ld_unit_zero (S := S2048x128) zero_offsets]
  funext j
  refine (store9_apply (iblk m c 0 t) (iblk m c 1 t) (iblk m c 2 t) (iblk m c 3 t) (iblk m c 4 t) (iblk m c 5 t) (iblk m c 6 t) j).trans ?_
  unfold nE
  rw [read_9, iblk0_apply, iblk1_apply, iblk2_apply, iblk3_apply, iblk4_apply, iblk5_apply, iblk6_apply]

/-- An index of output 9's array is in point `t`'s block iff each coordinate is in the block's range on its axis. -/
theorem mem_blk9 (t : Fin cfg0.N) (i : S65536x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v29_1).slice (win0_9.rect t)).set ↔ _
  rw [View.set_slice_whole, Rect.mem_set_unit]
  exact Iff.rfl

/-- The 32 row blocks cover output 9's array: row `r` is in the block of point `r / 2048`. -/
theorem cover9 (i : S65536x128.Idx) : ∃ t : Fin cfg0.N, (cfg0.win 9).flush t = true ∧ i ∈ ((cfg0.win 9).blk t).view.set := by
  have hi0 : (i 0).val < 65536 := (i 0).isLt
  have hi1 : (i 1).val < 128 := (i 1).isLt
  have ht : (i 0).val / 2048 < 32 := by omega
  refine ⟨⟨(i 0).val / 2048, ht⟩, flush0_9 _, ?_⟩
  obtain ⟨e0, e1⟩ := index_9 ⟨(i 0).val / 2048, ht⟩
  rw [mem_blk9]
  intro a
  match a with
  | ⟨0, _⟩ => show win0_9.index ⟨(i 0).val / 2048, ht⟩ (0 : Fin 2) * 2048 ≤ (i 0).val ∧ (i 0).val < win0_9.index ⟨(i 0).val / 2048, ht⟩ (0 : Fin 2) * 2048 + 2048; rw [e0]; show (i 0).val / 2048 * 2048 ≤ (i 0).val ∧ (i 0).val < (i 0).val / 2048 * 2048 + 2048; omega
  | ⟨1, _⟩ => show win0_9.index ⟨(i 0).val / 2048, ht⟩ (1 : Fin 2) * 128 ≤ (i 1).val ∧ (i 1).val < win0_9.index ⟨(i 0).val / 2048, ht⟩ (1 : Fin 2) * 128 + 128; rw [e1]; omega

/-- What point `t` writes back to output 10 is block `t` of the third rescaled, masked local coordinate. -/
theorem flushed10_eq (c : Dev nD) (t : Fin cfg0.N) :
    (dats m 0 c).flushed 10 t = ((cfg0.win 10).blk t).view.read (Elt Ideal)
      (fun i => Cert.Spec.scaled (Cert.Spec.coord (X2 m c i) (X5 m c i) (X6 m c i)) (X6 m c i) (nX m c i)) := by
  show (cfg0.win 10).cut (grid0.coords t) ((dats m 0 c).after 10 t) = _
  rw [after0_10]
  unfold out0_10
  rw [View.canon_unit_zero zero_offsets]
  simp only [View.ld_unit_zero (S := S2048x128) zero_offsets]
  funext j
  refine (store10_apply (iblk m c 0 t) (iblk m c 1 t) (iblk m c 2 t) (iblk m c 3 t) (iblk m c 4 t) (iblk m c 5 t) (iblk m c 6 t) j).trans ?_
  unfold nE
  rw [read_10, iblk0_apply, iblk1_apply, iblk2_apply, iblk3_apply, iblk4_apply, iblk5_apply, iblk6_apply]

/-- An index of output 10's array is in point `t`'s block iff each coordinate is in the block's range on its axis. -/
theorem mem_blk10 (t : Fin cfg0.N) (i : S65536x128.Idx) :
    i ∈ ((cfg0.win 10).blk t).view.set ↔ ∀ a : Fin 2, win0_10.index t a * S2048x128.size a ≤ (i a).val ∧ (i a).val < win0_10.index t a * S2048x128.size a + S2048x128.size a := by
  show i ∈ ((View.whole main_v29_2).slice (win0_10.rect t)).set ↔ _
  rw [View.set_slice_whole, Rect.mem_set_unit]
  exact Iff.rfl

/-- The 32 row blocks cover output 10's array: row `r` is in the block of point `r / 2048`. -/
theorem cover10 (i : S65536x128.Idx) : ∃ t : Fin cfg0.N, (cfg0.win 10).flush t = true ∧ i ∈ ((cfg0.win 10).blk t).view.set := by
  have hi0 : (i 0).val < 65536 := (i 0).isLt
  have hi1 : (i 1).val < 128 := (i 1).isLt
  have ht : (i 0).val / 2048 < 32 := by omega
  refine ⟨⟨(i 0).val / 2048, ht⟩, flush0_10 _, ?_⟩
  obtain ⟨e0, e1⟩ := index_10 ⟨(i 0).val / 2048, ht⟩
  rw [mem_blk10]
  intro a
  match a with
  | ⟨0, _⟩ => show win0_10.index ⟨(i 0).val / 2048, ht⟩ (0 : Fin 2) * 2048 ≤ (i 0).val ∧ (i 0).val < win0_10.index ⟨(i 0).val / 2048, ht⟩ (0 : Fin 2) * 2048 + 2048; rw [e0]; show (i 0).val / 2048 * 2048 ≤ (i 0).val ∧ (i 0).val < (i 0).val / 2048 * 2048 + 2048; omega
  | ⟨1, _⟩ => show win0_10.index ⟨(i 0).val / 2048, ht⟩ (1 : Fin 2) * 128 ≤ (i 1).val ∧ (i 1).val < win0_10.index ⟨(i 0).val / 2048, ht⟩ (1 : Fin 2) * 128 + 128; rw [e1]; omega

/-- What point `t` writes back to output 11 is block `t` of the masked norm. -/
theorem flushed11_eq (c : Dev nD) (t : Fin cfg0.N) :
    (dats m 0 c).flushed 11 t = ((cfg0.win 11).blk t).view.read (Elt Ideal)
      (fun i => nX m c i * Cert.Spec.maskf (nX m c i)) := by
  show (cfg0.win 11).cut (grid0.coords t) ((dats m 0 c).after 11 t) = _
  rw [after0_11]
  unfold out0_11
  rw [View.canon_unit_zero zero_offsets]
  simp only [View.ld_unit_zero (S := S2048x128) zero_offsets]
  funext j
  refine (store11_apply (iblk m c 0 t) (iblk m c 1 t) (iblk m c 2 t) (iblk m c 3 t) (iblk m c 4 t) (iblk m c 5 t) (iblk m c 6 t) j).trans ?_
  unfold nE
  rw [read_11, iblk0_apply, iblk1_apply, iblk2_apply, iblk3_apply, iblk4_apply, iblk5_apply, iblk6_apply]

/-- An index of output 11's array is in point `t`'s block iff each coordinate is in the block's range on its axis. -/
theorem mem_blk11 (t : Fin cfg0.N) (i : S65536x128.Idx) :
    i ∈ ((cfg0.win 11).blk t).view.set ↔ ∀ a : Fin 2, win0_11.index t a * S2048x128.size a ≤ (i a).val ∧ (i a).val < win0_11.index t a * S2048x128.size a + S2048x128.size a := by
  show i ∈ ((View.whole main_v29_3).slice (win0_11.rect t)).set ↔ _
  rw [View.set_slice_whole, Rect.mem_set_unit]
  exact Iff.rfl

/-- The 32 row blocks cover output 11's array: row `r` is in the block of point `r / 2048`. -/
theorem cover11 (i : S65536x128.Idx) : ∃ t : Fin cfg0.N, (cfg0.win 11).flush t = true ∧ i ∈ ((cfg0.win 11).blk t).view.set := by
  have hi0 : (i 0).val < 65536 := (i 0).isLt
  have hi1 : (i 1).val < 128 := (i 1).isLt
  have ht : (i 0).val / 2048 < 32 := by omega
  refine ⟨⟨(i 0).val / 2048, ht⟩, flush0_11 _, ?_⟩
  obtain ⟨e0, e1⟩ := index_11 ⟨(i 0).val / 2048, ht⟩
  rw [mem_blk11]
  intro a
  match a with
  | ⟨0, _⟩ => show win0_11.index ⟨(i 0).val / 2048, ht⟩ (0 : Fin 2) * 2048 ≤ (i 0).val ∧ (i 0).val < win0_11.index ⟨(i 0).val / 2048, ht⟩ (0 : Fin 2) * 2048 + 2048; rw [e0]; show (i 0).val / 2048 * 2048 ≤ (i 0).val ∧ (i 0).val < (i 0).val / 2048 * 2048 + 2048; omega
  | ⟨1, _⟩ => show win0_11.index ⟨(i 0).val / 2048, ht⟩ (1 : Fin 2) * 128 ≤ (i 1).val ∧ (i 1).val < win0_11.index ⟨(i 0).val / 2048, ht⟩ (1 : Fin 2) * 128 + 128; rw [e1]; omega

/-- What point `t` writes back to output 12 is block `t` of the log boundary weight. -/
theorem flushed12_eq (c : Dev nD) (t : Fin cfg0.N) :
    (dats m 0 c).flushed 12 t = ((cfg0.win 12).blk t).view.read (Elt Ideal)
      (fun i => Cert.Spec.weight (nX m c i)) := by
  show (cfg0.win 12).cut (grid0.coords t) ((dats m 0 c).after 12 t) = _
  rw [after0_12]
  unfold out0_12
  rw [View.canon_unit_zero zero_offsets]
  simp only [View.ld_unit_zero (S := S2048x128) zero_offsets]
  funext j
  refine (store12_apply (iblk m c 0 t) (iblk m c 1 t) (iblk m c 2 t) (iblk m c 3 t) (iblk m c 4 t) (iblk m c 5 t) (iblk m c 6 t) j).trans ?_
  unfold nE
  rw [read_12, iblk0_apply, iblk1_apply, iblk2_apply, iblk3_apply, iblk4_apply, iblk5_apply, iblk6_apply]

/-- An index of output 12's array is in point `t`'s block iff each coordinate is in the block's range on its axis. -/
theorem mem_blk12 (t : Fin cfg0.N) (i : S65536x128.Idx) :
    i ∈ ((cfg0.win 12).blk t).view.set ↔ ∀ a : Fin 2, win0_12.index t a * S2048x128.size a ≤ (i a).val ∧ (i a).val < win0_12.index t a * S2048x128.size a + S2048x128.size a := by
  show i ∈ ((View.whole main_v29_4).slice (win0_12.rect t)).set ↔ _
  rw [View.set_slice_whole, Rect.mem_set_unit]
  exact Iff.rfl

/-- The 32 row blocks cover output 12's array: row `r` is in the block of point `r / 2048`. -/
theorem cover12 (i : S65536x128.Idx) : ∃ t : Fin cfg0.N, (cfg0.win 12).flush t = true ∧ i ∈ ((cfg0.win 12).blk t).view.set := by
  have hi0 : (i 0).val < 65536 := (i 0).isLt
  have hi1 : (i 1).val < 128 := (i 1).isLt
  have ht : (i 0).val / 2048 < 32 := by omega
  refine ⟨⟨(i 0).val / 2048, ht⟩, flush0_12 _, ?_⟩
  obtain ⟨e0, e1⟩ := index_12 ⟨(i 0).val / 2048, ht⟩
  rw [mem_blk12]
  intro a
  match a with
  | ⟨0, _⟩ => show win0_12.index ⟨(i 0).val / 2048, ht⟩ (0 : Fin 2) * 2048 ≤ (i 0).val ∧ (i 0).val < win0_12.index ⟨(i 0).val / 2048, ht⟩ (0 : Fin 2) * 2048 + 2048; rw [e0]; show (i 0).val / 2048 * 2048 ≤ (i 0).val ∧ (i 0).val < (i 0).val / 2048 * 2048 + 2048; omega
  | ⟨1, _⟩ => show win0_12.index ⟨(i 0).val / 2048, ht⟩ (1 : Fin 2) * 128 ≤ (i 1).val ∧ (i 1).val < win0_12.index ⟨(i 0).val / 2048, ht⟩ (1 : Fin 2) * 128 + 128; rw [e1]; omega

/-- What point `t` writes back to output 13 is block `t` of the batch word, or −1 outside the ball. -/
theorem flushed13_eq (c : Dev nD) (t : Fin cfg0.N) :
    (dats m 0 c).flushed 13 t = ((cfg0.win 13).blk t).view.read (Elt Ideal)
      (fun i => Cert.Spec.batchWord (nX m c i) (X7 m c i)) := by
  show (cfg0.win 13).cut (grid0.coords t) ((dats m 0 c).after 13 t) = _
  rw [after0_13]
  unfold out0_13
  rw [View.canon_unit_zero zero_offsets]
  simp only [View.ld_unit_zero (S := S2048x128) zero_offsets]
  funext j
  refine (store13_apply (iblk m c 0 t) (iblk m c 1 t) (iblk m c 2 t) (iblk m c 3 t) (iblk m c 4 t) (iblk m c 5 t) (iblk m c 6 t) (iblk m c 7 t) j).trans ?_
  unfold nE
  rw [read_13, iblk0_apply, iblk1_apply, iblk2_apply, iblk3_apply, iblk4_apply, iblk5_apply, iblk6_apply, iblk7_apply]

/-- An index of output 13's array is in point `t`'s block iff each coordinate is in the block's range on its axis. -/
theorem mem_blk13 (t : Fin cfg0.N) (i : S65536x128.Idx) :
    i ∈ ((cfg0.win 13).blk t).view.set ↔ ∀ a : Fin 2, win0_13.index t a * S2048x128.size a ≤ (i a).val ∧ (i a).val < win0_13.index t a * S2048x128.size a + S2048x128.size a := by
  show i ∈ ((View.whole main_v29_5).slice (win0_13.rect t)).set ↔ _
  rw [View.set_slice_whole, Rect.mem_set_unit]
  exact Iff.rfl

/-- The 32 row blocks cover output 13's array: row `r` is in the block of point `r / 2048`. -/
theorem cover13 (i : S65536x128.Idx) : ∃ t : Fin cfg0.N, (cfg0.win 13).flush t = true ∧ i ∈ ((cfg0.win 13).blk t).view.set := by
  have hi0 : (i 0).val < 65536 := (i 0).isLt
  have hi1 : (i 1).val < 128 := (i 1).isLt
  have ht : (i 0).val / 2048 < 32 := by omega
  refine ⟨⟨(i 0).val / 2048, ht⟩, flush0_13 _, ?_⟩
  obtain ⟨e0, e1⟩ := index_13 ⟨(i 0).val / 2048, ht⟩
  rw [mem_blk13]
  intro a
  match a with
  | ⟨0, _⟩ => show win0_13.index ⟨(i 0).val / 2048, ht⟩ (0 : Fin 2) * 2048 ≤ (i 0).val ∧ (i 0).val < win0_13.index ⟨(i 0).val / 2048, ht⟩ (0 : Fin 2) * 2048 + 2048; rw [e0]; show (i 0).val / 2048 * 2048 ≤ (i 0).val ∧ (i 0).val < (i 0).val / 2048 * 2048 + 2048; omega
  | ⟨1, _⟩ => show win0_13.index ⟨(i 0).val / 2048, ht⟩ (1 : Fin 2) * 128 ≤ (i 1).val ∧ (i 1).val < win0_13.index ⟨(i 0).val / 2048, ht⟩ (1 : Fin 2) * 128 + 128; rw [e1]; omega

/-- What point `t` writes back to output 14 is block `t` of the inside bit as a 32-bit word. -/
theorem flushed14_eq (c : Dev nD) (t : Fin cfg0.N) :
    (dats m 0 c).flushed 14 t = ((cfg0.win 14).blk t).view.read (Elt Ideal)
      (fun i => BitVec.setWidth 32 (Cert.Spec.inside (nX m c i))) := by
  show (cfg0.win 14).cut (grid0.coords t) ((dats m 0 c).after 14 t) = _
  rw [after0_14]
  unfold out0_14
  rw [View.canon_unit_zero zero_offsets]
  simp only [View.ld_unit_zero (S := S2048x128) zero_offsets]
  funext j
  refine (store14_apply (iblk m c 0 t) (iblk m c 1 t) (iblk m c 2 t) (iblk m c 3 t) (iblk m c 4 t) (iblk m c 5 t) (iblk m c 6 t) j).trans ?_
  unfold nE
  rw [read_14, iblk0_apply, iblk1_apply, iblk2_apply, iblk3_apply, iblk4_apply, iblk5_apply, iblk6_apply]

/-- An index of output 14's array is in point `t`'s block iff each coordinate is in the block's range on its axis. -/
theorem mem_blk14 (t : Fin cfg0.N) (i : S65536x128.Idx) :
    i ∈ ((cfg0.win 14).blk t).view.set ↔ ∀ a : Fin 2, win0_14.index t a * S2048x128.size a ≤ (i a).val ∧ (i a).val < win0_14.index t a * S2048x128.size a + S2048x128.size a := by
  show i ∈ ((View.whole main_v29_6).slice (win0_14.rect t)).set ↔ _
  rw [View.set_slice_whole, Rect.mem_set_unit]
  exact Iff.rfl

/-- The 32 row blocks cover output 14's array: row `r` is in the block of point `r / 2048`. -/
theorem cover14 (i : S65536x128.Idx) : ∃ t : Fin cfg0.N, (cfg0.win 14).flush t = true ∧ i ∈ ((cfg0.win 14).blk t).view.set := by
  have hi0 : (i 0).val < 65536 := (i 0).isLt
  have hi1 : (i 1).val < 128 := (i 1).isLt
  have ht : (i 0).val / 2048 < 32 := by omega
  refine ⟨⟨(i 0).val / 2048, ht⟩, flush0_14 _, ?_⟩
  obtain ⟨e0, e1⟩ := index_14 ⟨(i 0).val / 2048, ht⟩
  rw [mem_blk14]
  intro a
  match a with
  | ⟨0, _⟩ => show win0_14.index ⟨(i 0).val / 2048, ht⟩ (0 : Fin 2) * 2048 ≤ (i 0).val ∧ (i 0).val < win0_14.index ⟨(i 0).val / 2048, ht⟩ (0 : Fin 2) * 2048 + 2048; rw [e0]; show (i 0).val / 2048 * 2048 ≤ (i 0).val ∧ (i 0).val < (i 0).val / 2048 * 2048 + 2048; omega
  | ⟨1, _⟩ => show win0_14.index ⟨(i 0).val / 2048, ht⟩ (1 : Fin 2) * 128 ≤ (i 1).val ∧ (i 1).val < win0_14.index ⟨(i 0).val / 2048, ht⟩ (1 : Fin 2) * 128 + 128; rw [e1]; omega

/-! ## The seven output arrays after the run -/

theorem final8 (c : Dev nD) : ((dats m 0 c).arrAt 8 cfg0.N : S65536x128.Idx → EReal) =
    fun i => Cert.Spec.scaled (Cert.Spec.coord (X0 m c i) (X3 m c i) (X6 m c i)) (X6 m c i) (nX m c i) := by
  exact (dats m 0 c).arrAt_eq_of_cover 8 _ (fun t _ => flushed8_eq m c t) cover8
theorem final9 (c : Dev nD) : ((dats m 0 c).arrAt 9 cfg0.N : S65536x128.Idx → EReal) =
    fun i => Cert.Spec.scaled (Cert.Spec.coord (X1 m c i) (X4 m c i) (X6 m c i)) (X6 m c i) (nX m c i) := by
  exact (dats m 0 c).arrAt_eq_of_cover 9 _ (fun t _ => flushed9_eq m c t) cover9
theorem final10 (c : Dev nD) : ((dats m 0 c).arrAt 10 cfg0.N : S65536x128.Idx → EReal) =
    fun i => Cert.Spec.scaled (Cert.Spec.coord (X2 m c i) (X5 m c i) (X6 m c i)) (X6 m c i) (nX m c i) := by
  exact (dats m 0 c).arrAt_eq_of_cover 10 _ (fun t _ => flushed10_eq m c t) cover10
theorem final11 (c : Dev nD) : ((dats m 0 c).arrAt 11 cfg0.N : S65536x128.Idx → EReal) =
    fun i => nX m c i * Cert.Spec.maskf (nX m c i) := by
  exact (dats m 0 c).arrAt_eq_of_cover 11 _ (fun t _ => flushed11_eq m c t) cover11
theorem final12 (c : Dev nD) : ((dats m 0 c).arrAt 12 cfg0.N : S65536x128.Idx → EReal) =
    fun i => Cert.Spec.weight (nX m c i) := by
  exact (dats m 0 c).arrAt_eq_of_cover 12 _ (fun t _ => flushed12_eq m c t) cover12
theorem final13 (c : Dev nD) : ((dats m 0 c).arrAt 13 cfg0.N : S65536x128.Idx → BitVec 32) =
    fun i => Cert.Spec.batchWord (nX m c i) (X7 m c i) := by
  exact (dats m 0 c).arrAt_eq_of_cover 13 _ (fun t _ => flushed13_eq m c t) cover13
theorem final14 (c : Dev nD) : ((dats m 0 c).arrAt 14 cfg0.N : S65536x128.Idx → BitVec 32) =
    fun i => BitVec.setWidth 32 (Cert.Spec.inside (nX m c i)) := by
  exact (dats m 0 c).arrAt_eq_of_cover 14 _ (fun t _ => flushed14_eq m c t) cover14

end Cert.KernelIdeal.Final

end
-- ==== Proof.KIValueA.lean ====
/-
  The host side of the kernel program before its region. The four gathered arrays (the members' points, the centres,
  the radii, the batch words, one row per edge) are cut into columns; each column is laid out as a vector over the
  edges and then as a 65536 × 128 array, and these eight arrays are what the region finds. Laying a vector out as
  65536 × 128 and back is the identity, so each of the eight, read where an edge lies in that layout, is the gathered
  array at that edge; and the norm the kernel computes there is the specification's norm of the edge.
-/
import proofs.«430290_j19808389169237_1_alg».proof.Proof.KIFinal
import Idealize.ShloMosaic.Lib.Pipeline.Value
import Idealize.ShloMosaic.Lib.ValueIdx
import Idealize.ShloMosaic.Lib.ValueLayout
import Idealize.ShloMosaic.Lib.StableHlo.Run
import Idealize.ShloMosaic.Lib.Pipeline.FrameSuffix

set_option maxRecDepth 16384

noncomputable section

namespace Cert.KernelIdeal.KValue

open Cert.KernelIdeal Cert.KernelIdeal.Gen Cert.KernelIdeal.Around Cert.KernelIdeal.Final
open Idealize.ShloMosaic Idealize.ShloMosaic.TcCoe Idealize.SL.Sem
open Idealize.ShloMosaic.ValueIdx

/-! ## Layouts read at an index -/

section Layout
variable {α : Type}

/-- A column over the edges laid out as a vector reads, at edge `e`, the column at `(e, 0)`. -/
theorem vec_of_col (x : S8388608x1.Idx → α) (h : S8388608x1.ShapeCasts S8388608) (e : Fin 8388608) :
    shapeCast S8388608 x h (ix1 e) = x (ix2 e (0 : Fin 1)) :=
  shapeCast_apply x h _ _ (by
    rw [Shape.rowMajor_val_two, Shape.rowMajor_val_one]
    show e.val * 1 + 0 = e.val
    omega)

/-- Column `k` of a three-column array, laid out as a vector, reads at edge `e` the array at `(e, k)`. -/
theorem vec_of_slice (o : Nat) (k : Fin 3) (hk : k.val = o) (x : S8388608x3.Idx → α)
    (hs : S8388608x3.Slices ![0, o] S8388608x1) (h : S8388608x1.ShapeCasts S8388608) (e : Fin 8388608) :
    shapeCast S8388608 (extractStridedSlice S8388608x1 ![0, o] x hs) h (ix1 e) = x (ix2 e k) :=
  (vec_of_col _ h e).trans (slice2_axis1_apply o x hs e (0 : Fin 1) k (by show k.val = o + 0; omega))

/-- A vector broadcast to a column reads, at `(e, 0)`, the vector at `e`. -/
theorem col_of_vec (x : S8388608.Idx → α) (h : S8388608.BroadcastsInDim S8388608x1 (![0] : Fin 1 → Fin S8388608x1.rank))
    (e : Fin 8388608) (z : Fin 1) :
    broadcastInDim S8388608x1 ![0] h x (ix2 e z) = x (ix1 e) :=
  broadcastInDim_apply _ h x _ _ (fun a => match a with | ⟨0, _⟩ => rfl)

/-- Three columns stacked side by side read, at `(e, 0)`, the first at `(e, 0)`, -/
theorem stack3_0 (x0 x1 x2 : S8388608x1.Idx → α)
    (h : Shape.Concatenates [S8388608x1, S8388608x1, S8388608x1] S8388608x3 1) (e : Fin 8388608) :
    concatenate S8388608x3 1 [⟨S8388608x1, x0⟩, ⟨S8388608x1, x1⟩, ⟨S8388608x1, x2⟩] h (ix2 e (0 : Fin 3)) = x0 (ix2 e (0 : Fin 1)) :=
  concatenate_apply_piece (t := S8388608x3) (1 : Fin 2) [⟨S8388608x1, x0⟩, ⟨S8388608x1, x1⟩, ⟨S8388608x1, x2⟩] h _ 0 (by show (0 : ℕ) < 3; omega) S8388608x1 x0 rfl rfl 0 rfl (ix2 e (0 : Fin 1))
    (fun b => match b with | ⟨0, _⟩ => fun _ => rfl | ⟨1, _⟩ => fun hne => absurd rfl hne) rfl
/-- at `(e, 1)` the second at `(e, 0)`, -/
theorem stack3_1 (x0 x1 x2 : S8388608x1.Idx → α)
    (h : Shape.Concatenates [S8388608x1, S8388608x1, S8388608x1] S8388608x3 1) (e : Fin 8388608) :
    concatenate S8388608x3 1 [⟨S8388608x1, x0⟩, ⟨S8388608x1, x1⟩, ⟨S8388608x1, x2⟩] h (ix2 e (1 : Fin 3)) = x1 (ix2 e (0 : Fin 1)) :=
  concatenate_apply_piece (t := S8388608x3) (1 : Fin 2) [⟨S8388608x1, x0⟩, ⟨S8388608x1, x1⟩, ⟨S8388608x1, x2⟩] h _ 1 (by show (1 : ℕ) < 3; omega) S8388608x1 x1 rfl rfl 1 rfl (ix2 e (0 : Fin 1))
    (fun b => match b with | ⟨0, _⟩ => fun _ => rfl | ⟨1, _⟩ => fun hne => absurd rfl hne) rfl
/-- and at `(e, 2)` the third at `(e, 0)`. -/
theorem stack3_2 (x0 x1 x2 : S8388608x1.Idx → α)
    (h : Shape.Concatenates [S8388608x1, S8388608x1, S8388608x1] S8388608x3 1) (e : Fin 8388608) :
    concatenate S8388608x3 1 [⟨S8388608x1, x0⟩, ⟨S8388608x1, x1⟩, ⟨S8388608x1, x2⟩] h (ix2 e (2 : Fin 3)) = x2 (ix2 e (0 : Fin 1)) :=
  concatenate_apply_piece (t := S8388608x3) (1 : Fin 2) [⟨S8388608x1, x0⟩, ⟨S8388608x1, x1⟩, ⟨S8388608x1, x2⟩] h _ 2 (by show (2 : ℕ) < 3; omega) S8388608x1 x2 rfl rfl 2 rfl (ix2 e (0 : Fin 1))
    (fun b => match b with | ⟨0, _⟩ => fun _ => rfl | ⟨1, _⟩ => fun hne => absurd rfl hne) rfl

/-- A vector laid out as 65536 × 128 and back is the vector. -/
theorem vec_round (x : S8388608.Idx → α) (h : S8388608.ShapeCasts S65536x128) (h' : S65536x128.ShapeCasts S8388608) :
    shapeCast S8388608 (shapeCast S65536x128 x h) h' = x := shapeCast_shapeCast x h h'

end Layout

/-! ## The eight input arrays from the four gathered ones -/

section Before
variable (m : (ℓ : Loc nD τ sig) → Buf (Elt Ideal) ℓ)

/-- Operations run one stretch after another are run as one line. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => simp only [List.cons_append, StableHlo.after_cons, ih]

/-- The buffers of core `c` after the first four stretches: the radius table and the three gathers of floats. -/
def A3 (c : Dev nD) : Valuation τ sig (Elt Ideal) :=
  StableHlo.after (List.flatten [hostOps0, hostOps0_1, hostOps0_2, hostOps0_3]) (fun b => m (c, b))

/-- The buffers the region finds are the last three stretches run from there. -/
theorem V0_split (c : Dev nD) :
    V0 m c = StableHlo.after hostOps0_6 (StableHlo.after hostOps0_5 (StableHlo.after hostOps0_4 (A3 m c))) := by
  show StableHlo.after (List.flatten ([hostOps0, hostOps0_1, hostOps0_2, hostOps0_3] ++ [hostOps0_4, hostOps0_5, hostOps0_6])) _ = _
  rw [List.flatten_append, after_append]
  show StableHlo.after (List.flatten [hostOps0_4, hostOps0_5, hostOps0_6]) (A3 m c) = _
  simp only [List.flatten_cons, List.flatten_nil, List.append_nil]
  rw [after_append, after_append]

/-- The kernel's four gathered arrays, as the region finds them. -/
abbrev MP (c : Dev nD) : S8388608x3.Idx → EReal := V m c main_v4
abbrev MC (c : Dev nD) : S8388608x3.Idx → EReal := V m c main_v5
abbrev MR (c : Dev nD) : S8388608x1.Idx → EReal := V m c main_v6
abbrev MB (c : Dev nD) : S8388608.Idx → BitVec 32 := V m c main_v8

set_option maxHeartbeats 4000000 in
/-- Input 0 is column 0 of the members' coordinates, laid out as a vector and then as 65536 × 128. -/
theorem X0_eq (c : Dev nD) : X0 m c = shapeCast S65536x128 (shapeCast S8388608 (extractStridedSlice S8388608x1 ![0, 0] (MP m c) slices_S8388608x3_S8388608x1_0_0) shapeCasts_S8388608x1_S8388608) shapeCasts_S8388608_S65536x128 := by
  show V0 m c (Proc.devRef .tc main_v11) = shapeCast S65536x128 (shapeCast S8388608 (extractStridedSlice S8388608x1 ![0, 0] (V0 m c (Proc.devRef .tc main_v4)) _) _) _
  rw [V0_split]
  after_results
  rfl

set_option maxHeartbeats 4000000 in
/-- Input 1 is column 1 of the members' coordinates, laid out as a vector and then as 65536 × 128. -/
theorem X1_eq (c : Dev nD) : X1 m c = shapeCast S65536x128 (shapeCast S8388608 (extractStridedSlice S8388608x1 ![0, 1] (MP m c) slices_S8388608x3_S8388608x1_0_1) shapeCasts_S8388608x1_S8388608) shapeCasts_S8388608_S65536x128 := by
  show V0 m c (Proc.devRef .tc main_v14) = shapeCast S65536x128 (shapeCast S8388608 (extractStridedSlice S8388608x1 ![0, 1] (V0 m c (Proc.devRef .tc main_v4)) _) _) _
  rw [V0_split]
  after_results
  rfl

set_option maxHeartbeats 4000000 in
/-- Input 2 is column 2 of the members' coordinates, laid out as a vector and then as 65536 × 128. -/
theorem X2_eq (c : Dev nD) : X2 m c = shapeCast S65536x128 (shapeCast S8388608 (extractStridedSlice S8388608x1 ![0, 2] (MP m c) slices_S8388608x3_S8388608x1_0_2) shapeCasts_S8388608x1_S8388608) shapeCasts_S8388608_S65536x128 := by
  show V0 m c (Proc.devRef .tc main_v17) = shapeCast S65536x128 (shapeCast S8388608 (extractStridedSlice S8388608x1 ![0, 2] (V0 m c (Proc.devRef .tc main_v4)) _) _) _
  rw [V0_split]
  after_results
  rfl

set_option maxHeartbeats 4000000 in
/-- Input 3 is column 0 of the centres' coordinates, laid out as a vector and then as 65536 × 128. -/
theorem X3_eq (c : Dev nD) : X3 m c = shapeCast S65536x128 (shapeCast S8388608 (extractStridedSlice S8388608x1 ![0, 0] (MC m c) slices_S8388608x3_S8388608x1_0_0) shapeCasts_S8388608x1_S8388608) shapeCasts_S8388608_S65536x128 := by
  show V0 m c (Proc.devRef .tc main_v20) = shapeCast S65536x128 (shapeCast S8388608 (extractStridedSlice S8388608x1 ![0, 0] (V0 m c (Proc.devRef .tc main_v5)) _) _) _
  rw [V0_split]
  after_results
  rfl

set_option maxHeartbeats 4000000 in
/-- Input 4 is column 1 of the centres' coordinates, laid out as a vector and then as 65536 × 128. -/
theorem X4_eq (c : Dev nD) : X4 m c = shapeCast S65536x128 (shapeCast S8388608 (extractStridedSlice S8388608x1 ![0, 1] (MC m c) slices_S8388608x3_S8388608x1_0_1) shapeCasts_S8388608x1_S8388608) shapeCasts_S8388608_S65536x128 := by
  show V0 m c (Proc.devRef .tc main_v23) = shapeCast S65536x128 (shapeCast S8388608 (extractStridedSlice S8388608x1 ![0, 1] (V0 m c (Proc.devRef .tc main_v5)) _) _) _
  rw [V0_split]
  after_results
  rfl

set_option maxHeartbeats 4000000 in
/-- Input 5 is column 2 of the centres' coordinates, laid out as a vector and then as 65536 × 128. -/
theorem X5_eq (c : Dev nD) : X5 m c = shapeCast S65536x128 (shapeCast S8388608 (extractStridedSlice S8388608x1 ![0, 2] (MC m c) slices_S8388608x3_S8388608x1_0_2) shapeCasts_S8388608x1_S8388608) shapeCasts_S8388608_S65536x128 := by
  show V0 m c (Proc.devRef .tc main_v26) = shapeCast S65536x128 (shapeCast S8388608 (extractStridedSlice S8388608x1 ![0, 2] (V0 m c (Proc.devRef .tc main_v5)) _) _) _
  rw [V0_split]
  after_results
  rfl

set_option maxHeartbeats 4000000 in
/-- Input 6 is the column of radii, laid out as a vector and then as 65536 × 128. -/
theorem X6_eq (c : Dev nD) : X6 m c = shapeCast S65536x128 (shapeCast S8388608 (MR m c) shapeCasts_S8388608x1_S8388608) shapeCasts_S8388608_S65536x128 := by
  show V0 m c (Proc.devRef .tc main_v27) = shapeCast S65536x128 (shapeCast S8388608 (V0 m c (Proc.devRef .tc main_v6)) _) _
  rw [V0_split]
  after_results
  rfl

set_option maxHeartbeats 4000000 in
/-- Input 7 is the vector of batch words, laid out as 65536 × 128. -/
theorem X7_eq (c : Dev nD) : X7 m c = shapeCast S65536x128 (MB m c) shapeCasts_S8388608_S65536x128 := by
  show V0 m c (Proc.devRef .tc main_v28) = shapeCast S65536x128 (V0 m c (Proc.devRef .tc main_v8)) _
  rw [V0_split]
  after_results
  rfl

end Before

/-! ## The inputs at the place an edge is laid out at -/

section At
variable (m : (ℓ : Loc nD τ sig) → Buf (Elt Ideal) ℓ)

/-- Where edge `e` lies in the 65536 × 128 layout. -/
abbrev place (e : Fin 8388608) : S65536x128.Idx := Shape.reshapeEquiv shapeCasts_S65536x128_S8388608 (ix1 e)

/-- A vector laid out as 65536 × 128 reads, where edge `e` lies, the vector at `e`. -/
theorem at_place {α : Type} (y : S8388608.Idx → α) (h : S8388608.ShapeCasts S65536x128) (e : Fin 8388608) :
    shapeCast S65536x128 y h (place e) = y (ix1 e) :=
  congrFun (vec_round y h shapeCasts_S65536x128_S8388608) (ix1 e)

theorem X0_at (c : Dev nD) (e : Fin 8388608) : X0 m c (place e) = MP m c (ix2 e (0 : Fin 3)) := by
  rw [X0_eq]; exact (at_place _ _ e).trans (vec_of_slice 0 0 rfl _ _ _ e)
theorem X1_at (c : Dev nD) (e : Fin 8388608) : X1 m c (place e) = MP m c (ix2 e (1 : Fin 3)) := by
  rw [X1_eq]; exact (at_place _ _ e).trans (vec_of_slice 1 1 rfl _ _ _ e)
theorem X2_at (c : Dev nD) (e : Fin 8388608) : X2 m c (place e) = MP m c (ix2 e (2 : Fin 3)) := by
  rw [X2_eq]; exact (at_place _ _ e).trans (vec_of_slice 2 2 rfl _ _ _ e)
theorem X3_at (c : Dev nD) (e : Fin 8388608) : X3 m c (place e) = MC m c (ix2 e (0 : Fin 3)) := by
  rw [X3_eq]; exact (at_place _ _ e).trans (vec_of_slice 0 0 rfl _ _ _ e)
theorem X4_at (c : Dev nD) (e : Fin 8388608) : X4 m c (place e) = MC m c (ix2 e (1 : Fin 3)) := by
  rw [X4_eq]; exact (at_place _ _ e).trans (vec_of_slice 1 1 rfl _ _ _ e)
theorem X5_at (c : Dev nD) (e : Fin 8388608) : X5 m c (place e) = MC m c (ix2 e (2 : Fin 3)) := by
  rw [X5_eq]; exact (at_place _ _ e).trans (vec_of_slice 2 2 rfl _ _ _ e)
theorem X6_at (c : Dev nD) (e : Fin 8388608) : X6 m c (place e) = MR m c (ix2 e (0 : Fin 1)) := by
  rw [X6_eq]; exact (at_place _ _ e).trans (vec_of_col _ _ e)
theorem X7_at (c : Dev nD) (e : Fin 8388608) : X7 m c (place e) = MB m c (ix1 e) := by
  rw [X7_eq]; exact at_place _ _ e

/-- The norm the kernel computes where edge `e` lies is the specification's norm of edge `e`. -/
theorem nX_at (c : Dev nD) (e : Fin 8388608) :
    nX m c (place e) = Cert.Spec.nAt (MP m c) (MC m c) (MR m c) e := by
  show Cert.Spec.norm (Cert.Spec.coord (X0 m c (place e)) (X3 m c (place e)) (X6 m c (place e)))
    (Cert.Spec.coord (X1 m c (place e)) (X4 m c (place e)) (X6 m c (place e)))
    (Cert.Spec.coord (X2 m c (place e)) (X5 m c (place e)) (X6 m c (place e))) = _
  rw [X0_at, X1_at, X2_at, X3_at, X4_at, X5_at, X6_at]
  rfl

end At

end Cert.KernelIdeal.KValue

end
-- ==== Proof.KIValue.lean ====
/-
  The host side of the kernel program after its region, and the five results. The seven outputs of the region are laid
  back out as vectors over the edges, the three coordinate vectors are stacked as columns, and the mask word is compared
  with zero. The region's body computes entry by entry from the eight inputs, and an input read where an edge lies is
  the gathered array at that edge, so each result at an edge is the specification's function of the four gathered
  arrays at that edge; the arguments end as launched.
-/
import proofs.«430290_j19808389169237_1_alg».proof.Proof.KIValueA

set_option maxRecDepth 16384

noncomputable section

namespace Cert.KernelIdeal.KValue

open Cert.KernelIdeal Cert.KernelIdeal.Gen Cert.KernelIdeal.Around Cert.KernelIdeal.Final
open Idealize.ShloMosaic Idealize.ShloMosaic.TcCoe Idealize.SL.Sem
open Idealize.ShloMosaic.ValueIdx

/-! ## The last stretch -/

section Tail
variable (m : (ℓ : Loc nD τ sig) → Buf (Elt Ideal) ℓ)

/-- The buffers the last stretch starts from: the region's arrays as the run leaves them, every other buffer as the
    region found it. -/
def Wt (c : Dev nD) : Valuation τ sig (Elt Ideal) :=
  Pipeline.withArrays (cfgs 0).spec c (V0 m c) fun w => (dats m 0 c).arrAt w (cfgs 0).N

/-- What the run ends with at a buffer that bypasses the region: the last stretch run from there. -/
theorem tail_eq (c : Dev nD) (b : Ref sig .tc) :
    Pipeline.afterTail₀ cfgs (dats m) 0 (V0 m) [hostOps1] c b = StableHlo.after hostOps1 (Wt m c) (Proc.devRef .tc b) := by
  unfold Pipeline.afterTail₀ Wt
  rfl

/-! ### The seven outputs the last stretch starts from -/

theorem Wt_8 (c : Dev nD) : (Wt m c (Proc.devRef .tc main_v29_0) : S65536x128.Idx → EReal) =
    fun i => Cert.Spec.scaled (Cert.Spec.coord (X0 m c i) (X3 m c i) (X6 m c i)) (X6 m c i) (nX m c i) := by
  unfold Wt; exact (Pipeline.withArrays_arr spec0 launch0.win.arr_inj c _ _ 8).trans (final8 m c)
theorem Wt_9 (c : Dev nD) : (Wt m c (Proc.devRef .tc main_v29_1) : S65536x128.Idx → EReal) =
    fun i => Cert.Spec.scaled (Cert.Spec.coord (X1 m c i) (X4 m c i) (X6 m c i)) (X6 m c i) (nX m c i) := by
  unfold Wt; exact (Pipeline.withArrays_arr spec0 launch0.win.arr_inj c _ _ 9).trans (final9 m c)
theorem Wt_10 (c : Dev nD) : (Wt m c (Proc.devRef .tc main_v29_2) : S65536x128.Idx → EReal) =
    fun i => Cert.Spec.scaled (Cert.Spec.coord (X2 m c i) (X5 m c i) (X6 m c i)) (X6 m c i) (nX m c i) := by
  unfold Wt; exact (Pipeline.withArrays_arr spec0 launch0.win.arr_inj c _ _ 10).trans (final10 m c)
theorem Wt_11 (c : Dev nD) : (Wt m c (Proc.devRef .tc main_v29_3) : S65536x128.Idx → EReal) =
    fun i => nX m c i * Cert.Spec.maskf (nX m c i) := by
  unfold Wt; exact (Pipeline.withArrays_arr spec0 launch0.win.arr_inj c _ _ 11).trans (final11 m c)
theorem Wt_12 (c : Dev nD) : (Wt m c (Proc.devRef .tc main_v29_4) : S65536x128.Idx → EReal) =
    fun i => Cert.Spec.weight (nX m c i) := by
  unfold Wt; exact (Pipeline.withArrays_arr spec0 launch0.win.arr_inj c _ _ 12).trans (final12 m c)
theorem Wt_13 (c : Dev nD) : (Wt m c (Proc.devRef .tc main_v29_5) : S65536x128.Idx → BitVec 32) =
    fun i => Cert.Spec.batchWord (nX m c i) (X7 m c i) := by
  unfold Wt; exact (Pipeline.withArrays_arr spec0 launch0.win.arr_inj c _ _ 13).trans (final13 m c)
theorem Wt_14 (c : Dev nD) : (Wt m c (Proc.devRef .tc main_v29_6) : S65536x128.Idx → BitVec 32) =
    fun i => BitVec.setWidth 32 (Cert.Spec.inside (nX m c i)) := by
  unfold Wt; exact (Pipeline.withArrays_arr spec0 launch0.win.arr_inj c _ _ 14).trans (final14 m c)

/-! ### The outputs laid out as vectors, at an edge -/

theorem out8_at (c : Dev nD) (e : Fin 8388608) :
    shapeCast S8388608 (Wt m c (Proc.devRef .tc main_v29_0) : S65536x128.Idx → EReal) shapeCasts_S65536x128_S8388608 (ix1 e)
      = Cert.Spec.localArr (MP m c) (MC m c) (MR m c) (ix2 e (0 : Fin 3)) := by
  show (Wt m c (Proc.devRef .tc main_v29_0) : S65536x128.Idx → EReal) (place e) = _
  rw [Wt_8]
  show Cert.Spec.scaled (Cert.Spec.coord (X0 m c (place e)) (X3 m c (place e)) (X6 m c (place e))) (X6 m c (place e)) (nX m c (place e)) = _
  rw [X0_at, X3_at, X6_at, nX_at]
  rfl
theorem out9_at (c : Dev nD) (e : Fin 8388608) :
    shapeCast S8388608 (Wt m c (Proc.devRef .tc main_v29_1) : S65536x128.Idx → EReal) shapeCasts_S65536x128_S8388608 (ix1 e)
      = Cert.Spec.localArr (MP m c) (MC m c) (MR m c) (ix2 e (1 : Fin 3)) := by
  show (Wt m c (Proc.devRef .tc main_v29_1) : S65536x128.Idx → EReal) (place e) = _
  rw [Wt_9]
  show Cert.Spec.scaled (Cert.Spec.coord (X1 m c (place e)) (X4 m c (place e)) (X6 m c (place e))) (X6 m c (place e)) (nX m c (place e)) = _
  rw [X1_at, X4_at, X6_at, nX_at]
  rfl
theorem out10_at (c : Dev nD) (e : Fin 8388608) :
    shapeCast S8388608 (Wt m c (Proc.devRef .tc main_v29_2) : S65536x128.Idx → EReal) shapeCasts_S65536x128_S8388608 (ix1 e)
      = Cert.Spec.localArr (MP m c) (MC m c) (MR m c) (ix2 e (2 : Fin 3)) := by
  show (Wt m c (Proc.devRef .tc main_v29_2) : S65536x128.Idx → EReal) (place e) = _
  rw [Wt_10]
  show Cert.Spec.scaled (Cert.Spec.coord (X2 m c (place e)) (X5 m c (place e)) (X6 m c (place e))) (X6 m c (place e)) (nX m c (place e)) = _
  rw [X2_at, X5_at, X6_at, nX_at]
  rfl
theorem out11_at (c : Dev nD) (e : Fin 8388608) :
    shapeCast S8388608 (Wt m c (Proc.devRef .tc main_v29_3) : S65536x128.Idx → EReal) shapeCasts_S65536x128_S8388608 (ix1 e)
      = Cert.Spec.normArr (MP m c) (MC m c) (MR m c) (ix1 e) := by
  show (Wt m c (Proc.devRef .tc main_v29_3) : S65536x128.Idx → EReal) (place e) = _
  rw [Wt_11]
  show nX m c (place e) * Cert.Spec.maskf (nX m c (place e)) = _
  rw [nX_at]
  rfl
theorem out12_at (c : Dev nD) (e : Fin 8388608) :
    shapeCast S8388608 (Wt m c (Proc.devRef .tc main_v29_4) : S65536x128.Idx → EReal) shapeCasts_S65536x128_S8388608 (ix1 e)
      = Cert.Spec.weightArr (MP m c) (MC m c) (MR m c) (ix1 e) := by
  show (Wt m c (Proc.devRef .tc main_v29_4) : S65536x128.Idx → EReal) (place e) = _
  rw [Wt_12]
  show Cert.Spec.weight (nX m c (place e)) = _
  rw [nX_at]
  rfl
theorem out13_at (c : Dev nD) (e : Fin 8388608) :
    shapeCast S8388608 (Wt m c (Proc.devRef .tc main_v29_5) : S65536x128.Idx → BitVec 32) shapeCasts_S65536x128_S8388608 (ix1 e)
      = Cert.Spec.batchArr (MP m c) (MC m c) (MR m c) (MB m c) (ix1 e) := by
  show (Wt m c (Proc.devRef .tc main_v29_5) : S65536x128.Idx → BitVec 32) (place e) = _
  rw [Wt_13]
  show Cert.Spec.batchWord (nX m c (place e)) (X7 m c (place e)) = _
  rw [nX_at, X7_at]
  rfl

/-- A bit widened to a word differs from zero exactly when the bit is set. -/
theorem bit_ne_zero (b : BitVec 1) : IntOp.cmpi .ne (BitVec.setWidth 32 b) 0#32 = b := by
  rcases BitVec.eq_zero_or_eq_one b with rfl | rfl <;> decide

theorem out14_at (c : Dev nD) (e : Fin 8388608) :
    IntOp.cmpi .ne (shapeCast S8388608 (Wt m c (Proc.devRef .tc main_v29_6) : S65536x128.Idx → BitVec 32) shapeCasts_S65536x128_S8388608 (ix1 e)) 0#32
      = Cert.Spec.insideArr (MP m c) (MC m c) (MR m c) (ix1 e) := by
  show IntOp.cmpi .ne ((Wt m c (Proc.devRef .tc main_v29_6) : S65536x128.Idx → BitVec 32) (place e)) 0#32 = _
  rw [Wt_14]
  show IntOp.cmpi .ne (BitVec.setWidth 32 (Cert.Spec.inside (nX m c (place e)))) 0#32 = _
  rw [nX_at, bit_ne_zero]
  rfl

/-! ### The last stretch's results as operations on those outputs -/

/-- A three-operand operation's result with each operand's contents at its own buffer. -/
theorem nary3_result {x a b y : Ref sig .tc}
    (f : ((k : Fin 3) → ((![x, a, b] : Fin 3 → Ref sig .tc) k).ty.Contents (Elt Ideal)) → y.ty.Contents (Elt Ideal)) (hxs hy)
    (W : Valuation τ sig (Elt Ideal)) :
    (StableHlo.nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [StableHlo.nary_result]; congr 1; funext k; fin_cases k <;> rfl

set_option maxHeartbeats 4000000 in
theorem T36 (c : Dev nD) : StableHlo.after hostOps1 (Wt m c) (Proc.devRef .tc main_v36) =
    concatenate (α := EReal) S8388608x3 1
      [⟨S8388608x1, broadcastInDim S8388608x1 ![0] bcast_S8388608_S8388608x1_0 (shapeCast S8388608 (Wt m c (Proc.devRef .tc main_v29_0) : S65536x128.Idx → EReal) shapeCasts_S65536x128_S8388608)⟩,
       ⟨S8388608x1, broadcastInDim S8388608x1 ![0] bcast_S8388608_S8388608x1_0 (shapeCast S8388608 (Wt m c (Proc.devRef .tc main_v29_1) : S65536x128.Idx → EReal) shapeCasts_S65536x128_S8388608)⟩,
       ⟨S8388608x1, broadcastInDim S8388608x1 ![0] bcast_S8388608_S8388608x1_0 (shapeCast S8388608 (Wt m c (Proc.devRef .tc main_v29_2) : S65536x128.Idx → EReal) shapeCasts_S65536x128_S8388608)⟩]
      concatenates_S8388608x1_S8388608x1_S8388608x1_S8388608x3_d1 := by
  simp only [StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  rw [nary3_result]
  repeat (first
    | rw [StableHlo.unary_result] | rw [StableHlo.reshape_result]
    | (rw [StableHlo.unary_result_ne]; rotate_left; decide)
    | (rw [StableHlo.reshape_result_ne]; rotate_left; decide))
  rfl

set_option maxHeartbeats 4000000 in
theorem T37 (c : Dev nD) : StableHlo.after hostOps1 (Wt m c) (Proc.devRef .tc main_v37) =
    shapeCast S8388608 (Wt m c (Proc.devRef .tc main_v29_3) : S65536x128.Idx → EReal) shapeCasts_S65536x128_S8388608 := by
  after_results
  rfl
set_option maxHeartbeats 4000000 in
theorem T38 (c : Dev nD) : StableHlo.after hostOps1 (Wt m c) (Proc.devRef .tc main_v38) =
    shapeCast S8388608 (Wt m c (Proc.devRef .tc main_v29_4) : S65536x128.Idx → EReal) shapeCasts_S65536x128_S8388608 := by
  after_results
  rfl
set_option maxHeartbeats 4000000 in
theorem T39 (c : Dev nD) : StableHlo.after hostOps1 (Wt m c) (Proc.devRef .tc main_v39) =
    shapeCast S8388608 (Wt m c (Proc.devRef .tc main_v29_5) : S65536x128.Idx → BitVec 32) shapeCasts_S65536x128_S8388608 := by
  after_results
  rfl
set_option maxHeartbeats 4000000 in
theorem T43 (c : Dev nD) : StableHlo.after hostOps1 (Wt m c) (Proc.devRef .tc main_v43) =
    cmpi .ne (shapeCast S8388608 (Wt m c (Proc.devRef .tc main_v29_6) : S65536x128.Idx → BitVec 32) shapeCasts_S65536x128_S8388608)
      (broadcastInDim S8388608 ![] bcast_S_S8388608 (constantI S_ 32 0#32)) := by
  after_results
  rfl

/-! ### The five results -/

theorem tail36 (c : Dev nD) :
    Pipeline.afterTail₀ cfgs (dats m) 0 (V0 m) [hostOps1] c main_v36 = Cert.Spec.localArr (MP m c) (MC m c) (MR m c) := by
  refine (tail_eq m c main_v36).trans ((T36 m c).trans ?_)
  funext i
  obtain ⟨e, k, rfl⟩ : ∃ (e : Fin 8388608) (k : Fin 3), i = ix2 e k := ⟨i 0, i 1, eq_ix2 i⟩
  match k with
  | ⟨0, _⟩ => exact (stack3_0 _ _ _ _ e).trans ((col_of_vec _ _ e 0).trans (out8_at m c e))
  | ⟨1, _⟩ => exact (stack3_1 _ _ _ _ e).trans ((col_of_vec _ _ e 0).trans (out9_at m c e))
  | ⟨2, _⟩ => exact (stack3_2 _ _ _ _ e).trans ((col_of_vec _ _ e 0).trans (out10_at m c e))

theorem tail37 (c : Dev nD) :
    Pipeline.afterTail₀ cfgs (dats m) 0 (V0 m) [hostOps1] c main_v37 = Cert.Spec.normArr (MP m c) (MC m c) (MR m c) := by
  refine (tail_eq m c main_v37).trans ((T37 m c).trans ?_)
  funext i
  obtain ⟨e, rfl⟩ : ∃ e : Fin 8388608, i = ix1 e := ⟨i 0, eq_ix1 i⟩
  exact out11_at m c e

theorem tail38 (c : Dev nD) :
    Pipeline.afterTail₀ cfgs (dats m) 0 (V0 m) [hostOps1] c main_v38 = Cert.Spec.weightArr (MP m c) (MC m c) (MR m c) := by
  refine (tail_eq m c main_v38).trans ((T38 m c).trans ?_)
  funext i
  obtain ⟨e, rfl⟩ : ∃ e : Fin 8388608, i = ix1 e := ⟨i 0, eq_ix1 i⟩
  exact out12_at m c e

theorem tail39 (c : Dev nD) :
    Pipeline.afterTail₀ cfgs (dats m) 0 (V0 m) [hostOps1] c main_v39 = Cert.Spec.batchArr (MP m c) (MC m c) (MR m c) (MB m c) := by
  refine (tail_eq m c main_v39).trans ((T39 m c).trans ?_)
  funext i
  obtain ⟨e, rfl⟩ : ∃ e : Fin 8388608, i = ix1 e := ⟨i 0, eq_ix1 i⟩
  exact out13_at m c e

theorem tail43 (c : Dev nD) :
    Pipeline.afterTail₀ cfgs (dats m) 0 (V0 m) [hostOps1] c main_v43 = Cert.Spec.insideArr (MP m c) (MC m c) (MR m c) := by
  refine (tail_eq m c main_v43).trans ((T43 m c).trans ?_)
  funext i
  obtain ⟨e, rfl⟩ : ∃ e : Fin 8388608, i = ix1 e := ⟨i 0, eq_ix1 i⟩
  exact out14_at m c e

/-- Every weakly fair execution of the kernel program ends with its five results at the specification's arrays of the
    four gathered arrays, and with every argument as launched. -/
theorem results (ρ : Dev nD → PrngReg) :
    θ_run (defs (F := Ideal)) (onTc (τ := τ) (main (F := Ideal))) ⟨m, fun _ => 0, ρ⟩ fun r => ∀ c : Dev nD,
      r.2.mem ((c.tc : Thread nD τ).loc main_v36) = Cert.Spec.localArr (MP m c) (MC m c) (MR m c)
      ∧ r.2.mem ((c.tc : Thread nD τ).loc main_v37) = Cert.Spec.normArr (MP m c) (MC m c) (MR m c)
      ∧ r.2.mem ((c.tc : Thread nD τ).loc main_v38) = Cert.Spec.weightArr (MP m c) (MC m c) (MR m c)
      ∧ r.2.mem ((c.tc : Thread nD τ).loc main_v39) = Cert.Spec.batchArr (MP m c) (MC m c) (MR m c) (MB m c)
      ∧ r.2.mem ((c.tc : Thread nD τ).loc main_v43) = Cert.Spec.insideArr (MP m c) (MC m c) (MR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v36 (Pipeline.mem_restRefs_of main_v36 (by decide) (by decide))).trans (tail36 m c),
    ((h c).2 main_v37 (Pipeline.mem_restRefs_of main_v37 (by decide) (by decide))).trans (tail37 m c),
    ((h c).2 main_v38 (Pipeline.mem_restRefs_of main_v38 (by decide) (by decide))).trans (tail38 m c),
    ((h c).2 main_v39 (Pipeline.mem_restRefs_of main_v39 (by decide) (by decide))).trans (tail39 m c),
    ((h c).2 main_v43 (Pipeline.mem_restRefs_of main_v43 (by decide) (by decide))).trans (tail43 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩) (run_main m ρ)

end Tail

end Cert.KernelIdeal.KValue

end
-- ==== Proof.RefValue.lean ====
/-
  The reference's five results, read off its run one operation at a time: each is the specification's array of the
  reference's four gathered arrays (the member points, the centres, the radii, the batch words).
-/
import proofs.«430290_j19808389169237_1_alg».proof.Proof.Gen.ReferenceIdeal.Run
import proofs.«430290_j19808389169237_1_alg».proof.Proof.Gen.ReferenceIdeal.Read
import proofs.«430290_j19808389169237_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## Words and literals -/

/-- A bit read unsigned is the bit widened to 32 bits and read signed: both are `0` or `1`. -/
theorem uitofp_bit (b : BitVec 1) :
    FloatOps.uitofp (F := Ideal) .f32 b = FloatOps.sitofp (F := Ideal) .f32 (BitVec.setWidth 32 b) := by
  have h : (BitVec.setWidth 32 b).toInt = (b.toNat : ℤ) := by
    rcases BitVec.eq_zero_or_eq_one b with rfl | rfl <;> decide
  show (((b.toNat : ℝ)) : EReal) = ((((BitVec.setWidth 32 b).toInt : ℝ)) : EReal)
  rw [h, Int.cast_natCast]

/-- The single-precision `0.2` is `13421773 / 2²⁶`. -/
theorem fifth_eq : Ideal.ofBits .f32 0x3E4CCCCD#32 = ((13421773 / 67108864 : ℝ) : EReal) := by
  simp [Ideal.ofBits, Ideal.ieee, -EReal.coe_mul]; norm_num

/-- Dividing by the single-precision `0.2` is multiplying by its exact reciprocal. -/
theorem div_fifth (a : EReal) : Ideal.div a (Ideal.ofBits .f32 0x3E4CCCCD#32) = a * Cert.Spec.rescale := by
  have hr : (1 / (13421773 / 67108864) : ℝ) = 67108864 / 13421773 := by norm_num
  rw [fifth_eq, Ideal.div_coe (by norm_num), hr]
  rfl

/-! ## The layout operations' indices, by coordinates -/

theorem idx_v26 (e : Fin 8388608) (k : Fin 3) : Read.idx_main_v26 (ix2 e k) = ix2 e (0 : Fin 1) := by
  funext a; match a with | ⟨0, _⟩ => rfl | ⟨1, _⟩ => rfl
theorem idx_v43 (e : Fin 8388608) (k : Fin 3) : Read.idx_main_v43 (ix2 e k) = ix2 e (0 : Fin 1) := by
  funext a; match a with | ⟨0, _⟩ => rfl | ⟨1, _⟩ => rfl
theorem idx_v49 (e : Fin 8388608) (k : Fin 3) : Read.idx_main_v48 (Read.idx_main_v49 (ix2 e k)) = ix1 e := by
  funext a; match a with | ⟨0, _⟩ => rfl
theorem idx_sum (e : Fin 8388608) (k : Fin 3) : Read.idx_main_call0_v1 (ix1 e) k = ix2 e k := by
  funext a; match a with | ⟨0, _⟩ => rfl | ⟨1, _⟩ => rfl

/-! ## One edge, read off the operations -/

section Edge

variable (x0 : (⟨S1000000x3, .f32⟩ : BufTy).Contents (Elt Ideal)) (x1 : (⟨S16384x3, .f32⟩ : BufTy).Contents (Elt Ideal)) (x2 : (⟨S16384x1, .f32⟩ : BufTy).Contents (Elt Ideal)) (x4 x5 : (⟨S8388608, .i32⟩ : BufTy).Contents (Elt Ideal))

/-- The quotient `(P − C) / R` at coordinate `k` of edge `e`. -/
theorem l_at (e : Fin 8388608) (k : Fin 3) :
    Read.val_main_v27 (F := Ideal) x0 x1 x2 x4 x5 (ix2 e k) = Cert.Spec.lAt (Read.val_main_v6 (F := Ideal) x0 x5) (Read.val_main_v13 (F := Ideal) x1 x4) (Read.val_main_v25 (F := Ideal) x2 x4) e k := by
  rw [Read.val_main_v27_apply, Read.val_main_v14_apply, Read.val_main_v26_apply, idx_v26]
  rfl

/-- The sum of squares along the three coordinates. -/
theorem sq_at (e : Fin 8388608) :
    Read.val_main_call0_v1 (F := Ideal) x0 x1 x2 x4 x5 (ix1 e)
      = Cert.Spec.lAt (Read.val_main_v6 (F := Ideal) x0 x5) (Read.val_main_v13 (F := Ideal) x1 x4) (Read.val_main_v25 (F := Ideal) x2 x4) e 0 * Cert.Spec.lAt (Read.val_main_v6 (F := Ideal) x0 x5) (Read.val_main_v13 (F := Ideal) x1 x4) (Read.val_main_v25 (F := Ideal) x2 x4) e 0
        + Cert.Spec.lAt (Read.val_main_v6 (F := Ideal) x0 x5) (Read.val_main_v13 (F := Ideal) x1 x4) (Read.val_main_v25 (F := Ideal) x2 x4) e 1 * Cert.Spec.lAt (Read.val_main_v6 (F := Ideal) x0 x5) (Read.val_main_v13 (F := Ideal) x1 x4) (Read.val_main_v25 (F := Ideal) x2 x4) e 1
        + Cert.Spec.lAt (Read.val_main_v6 (F := Ideal) x0 x5) (Read.val_main_v13 (F := Ideal) x1 x4) (Read.val_main_v25 (F := Ideal) x2 x4) e 2 * Cert.Spec.lAt (Read.val_main_v6 (F := Ideal) x0 x5) (Read.val_main_v13 (F := Ideal) x1 x4) (Read.val_main_v25 (F := Ideal) x2 x4) e 2 := by
  rw [Read.val_main_call0_v1_apply, Read.val_main_call0_cst_apply, Ideal.ofBits_def, Ideal.ofBits_zero_f32, zero_add,
    Fin.sum_univ_three, idx_sum, idx_sum, idx_sum,
    Read.val_main_call0_v0_apply, Read.val_main_call0_v0_apply, Read.val_main_call0_v0_apply, l_at, l_at, l_at]
  rfl

/-- The norm. -/
theorem n_at (e : Fin 8388608) :
    Read.val_main_v28 (F := Ideal) x0 x1 x2 x4 x5 (ix1 e) = Cert.Spec.nAt (Read.val_main_v6 (F := Ideal) x0 x5) (Read.val_main_v13 (F := Ideal) x1 x4) (Read.val_main_v25 (F := Ideal) x2 x4) e := by
  rw [Read.val_main_v28_apply, sq_at]
  rfl

/-- The inside bit. -/
theorem inside_at (e : Fin 8388608) :
    Read.val_main_v30 (F := Ideal) x0 x1 x2 x4 x5 (ix1 e) = Cert.Spec.inside (Cert.Spec.nAt (Read.val_main_v6 (F := Ideal) x0 x5) (Read.val_main_v13 (F := Ideal) x1 x4) (Read.val_main_v25 (F := Ideal) x2 x4) e) := by
  rw [Read.val_main_v30_apply, n_at, Read.val_main_v29_apply, Read.val_main_cst_6_apply]
  rfl

/-- The inside bit as a number. -/
theorem mask_at (e : Fin 8388608) :
    Read.val_main_v47 (F := Ideal) x0 x1 x2 x4 x5 (ix1 e) = Cert.Spec.maskf (Cert.Spec.nAt (Read.val_main_v6 (F := Ideal) x0 x5) (Read.val_main_v13 (F := Ideal) x1 x4) (Read.val_main_v25 (F := Ideal) x2 x4) e) := by
  rw [Read.val_main_v47_apply, inside_at]
  exact uitofp_bit _

/-- A result coordinate: `((l · R) / 0.2) · [inside]` is `l · (R · s) · [inside]`, by associativity. -/
theorem local_at (e : Fin 8388608) (k : Fin 3) :
    Read.val_main_v50 (F := Ideal) x0 x1 x2 x4 x5 (ix2 e k)
      = Cert.Spec.scaled (Cert.Spec.lAt (Read.val_main_v6 (F := Ideal) x0 x5) (Read.val_main_v13 (F := Ideal) x1 x4) (Read.val_main_v25 (F := Ideal) x2 x4) e k) ((Read.val_main_v25 (F := Ideal) x2 x4) (ix2 e (0 : Fin 1))) (Cert.Spec.nAt (Read.val_main_v6 (F := Ideal) x0 x5) (Read.val_main_v13 (F := Ideal) x1 x4) (Read.val_main_v25 (F := Ideal) x2 x4) e) := by
  rw [Read.val_main_v50_apply, Read.val_main_v46_apply, Read.val_main_v44_apply, l_at, Read.val_main_v43_apply, idx_v43,
    Read.val_main_v45_apply, Read.val_main_cst_13_apply, Read.val_main_v49_apply, Read.val_main_v48_apply, idx_v49, mask_at]
  show Ideal.div (_ * _) (Ideal.ofBits .f32 0x3E4CCCCD#32) * _ = _ * (_ * Cert.Spec.rescale) * _
  rw [div_fifth, mul_assoc (Cert.Spec.lAt (Read.val_main_v6 (F := Ideal) x0 x5) (Read.val_main_v13 (F := Ideal) x1 x4) (Read.val_main_v25 (F := Ideal) x2 x4) e k)]

/-- The masked norm. -/
theorem norm_at (e : Fin 8388608) :
    Read.val_main_v59 (F := Ideal) x0 x1 x2 x4 x5 (ix1 e)
      = Cert.Spec.nAt (Read.val_main_v6 (F := Ideal) x0 x5) (Read.val_main_v13 (F := Ideal) x1 x4) (Read.val_main_v25 (F := Ideal) x2 x4) e * Cert.Spec.maskf (Cert.Spec.nAt (Read.val_main_v6 (F := Ideal) x0 x5) (Read.val_main_v13 (F := Ideal) x1 x4) (Read.val_main_v25 (F := Ideal) x2 x4) e) := by
  rw [Read.val_main_v59_apply, n_at, mask_at]
  rfl

/-- The log boundary weight. -/
theorem weight_at (e : Fin 8388608) :
    Read.val_main_v42 (F := Ideal) x0 x1 x2 x4 x5 (ix1 e) = Cert.Spec.weight (Cert.Spec.nAt (Read.val_main_v6 (F := Ideal) x0 x5) (Read.val_main_v13 (F := Ideal) x1 x4) (Read.val_main_v25 (F := Ideal) x2 x4) e) := by
  rw [Read.val_main_v42_apply, inside_at, Read.val_main_v41_apply, Read.val_main_v40_apply, Read.val_main_v38_apply,
    Read.val_main_v36_apply, Read.val_main_v35_apply, Read.val_main_cst_9_apply, Read.val_main_v34_apply,
    Read.val_main_v32_apply, n_at, Read.val_main_v31_apply, Read.val_main_cst_7_apply, Read.val_main_v33_apply,
    Read.val_main_cst_8_apply, Read.val_main_v37_apply, Read.val_main_cst_10_apply, Read.val_main_v39_apply,
    Read.val_main_cst_11_apply, Read.val_main_call1_v1_apply, Read.val_main_call1_v0_apply, Read.val_main_cst_12_apply]
  rfl

/-- The batch word inside, `−1` outside. -/
theorem batch_at (x3 : (⟨S1000000, .i32⟩ : BufTy).Contents (Elt Ideal)) (e : Fin 8388608) :
    Read.val_main_v58 (F := Ideal) x0 x1 x2 x3 x4 x5 (ix1 e)
      = Cert.Spec.batchWord (Cert.Spec.nAt (Read.val_main_v6 (F := Ideal) x0 x5) (Read.val_main_v13 (F := Ideal) x1 x4) (Read.val_main_v25 (F := Ideal) x2 x4) e) (Read.val_main_v57 (F := Ideal) x3 x5 (ix1 e)) := by
  rw [Read.val_main_v58_apply, inside_at, Read.val_main_call2_v1_apply, Read.val_main_call2_v0_apply,
    Read.val_main_c_16_apply]
  rfl

end Edge

/-! ## The four gathered arrays and the five results -/

variable (m : (ℓ : Loc nD τ sig) → Buf (Elt Ideal) ℓ)

/-- The index vector with its negative words wrapped by the extent, as a column. -/
abbrev wrapped (N : BitVec 32) (idx : IVec S8388608 32) : IVec S8388608x1 32 :=
  broadcastInDim S8388608x1 ![0] bcast_S8388608_S8388608x1_0
    (select (cmpi .slt idx (broadcastInDim S8388608 ![] bcast_S_S8388608 (constantI S_ 32 0#32)))
      (addi idx (broadcastInDim S8388608 ![] bcast_S_S8388608 (constantI S_ 32 N))) idx)

/-- The member points: the rows of the positions at the wrapped neighbour indices. -/
def MP (c : Dev nD) : S8388608x3.Idx → EReal := Host.gather gather_S1000000x3_S8388608x1_S8388608x3_1_0_n_n_0_1_13 (m ((c.tc : Thread nD τ).loc main_arg0)) (wrapped 1000000#32 (m ((c.tc : Thread nD τ).loc main_arg5)))
/-- The centres: the rows of the glimpse centres at the wrapped glimpse indices. -/
def MC (c : Dev nD) : S8388608x3.Idx → EReal := Host.gather gather_S16384x3_S8388608x1_S8388608x3_1_0_n_n_0_1_13 (m ((c.tc : Thread nD τ).loc main_arg1)) (wrapped 16384#32 (m ((c.tc : Thread nD τ).loc main_arg4)))
/-- The radii: `0.15 · ratio + 0.05` at the wrapped glimpse indices. -/
def MR (c : Dev nD) : S8388608x1.Idx → EReal := Host.gather gather_S16384x1_S8388608x1_S8388608x1_1_0_n_n_0_1_11 (addf (F := Ideal) (mulf (F := Ideal) (broadcastInDim S16384x1 ![] bcast_S_S16384x1 (constant (F := Ideal) S_ .f32 0x3E19999A#32)) (m ((c.tc : Thread nD τ).loc main_arg2))) (broadcastInDim S16384x1 ![] bcast_S_S16384x1 (constant (F := Ideal) S_ .f32 0x3D4CCCCD#32))) (wrapped 16384#32 (m ((c.tc : Thread nD τ).loc main_arg4)))
/-- The batch words at the wrapped neighbour indices. -/
def MB (c : Dev nD) : S8388608.Idx → BitVec 32 := Host.gather gather_S1000000_S8388608x1_S8388608_n_0_n_n_0_1_1 (m ((c.tc : Thread nD τ).loc main_arg3)) (wrapped 1000000#32 (m ((c.tc : Thread nD τ).loc main_arg5)))

theorem MP_eq (c : Dev nD) : MP m c = Read.val_main_v6 (F := Ideal) (m ((c.tc : Thread nD τ).loc main_arg0)) (m ((c.tc : Thread nD τ).loc main_arg5)) := rfl
theorem MC_eq (c : Dev nD) : MC m c = Read.val_main_v13 (F := Ideal) (m ((c.tc : Thread nD τ).loc main_arg1)) (m ((c.tc : Thread nD τ).loc main_arg4)) := rfl
theorem MR_eq (c : Dev nD) : MR m c = Read.val_main_v25 (F := Ideal) (m ((c.tc : Thread nD τ).loc main_arg2)) (m ((c.tc : Thread nD τ).loc main_arg4)) := rfl
theorem MB_eq (c : Dev nD) : MB m c = Read.val_main_v57 (F := Ideal) (m ((c.tc : Thread nD τ).loc main_arg3)) (m ((c.tc : Thread nD τ).loc main_arg5)) := rfl

/-- The rescaled, masked local coordinates. -/
theorem local_eq (c : Dev nD) :
    Cert.ReferenceIdeal.Value.res_main_v50 m c = Cert.Spec.localArr (MP m c) (MC m c) (MR m c) := by
  rw [Read.val_main_v50_eq, MP_eq, MC_eq, MR_eq]
  funext i
  obtain ⟨e, k, rfl⟩ : ∃ (e : Fin 8388608) (k : Fin 3), i = ix2 e k := ⟨i 0, i 1, eq_ix2 i⟩
  exact local_at _ _ _ _ _ e k

/-- The masked norms. -/
theorem norm_eq (c : Dev nD) :
    Cert.ReferenceIdeal.Value.res_main_v59 m c = Cert.Spec.normArr (MP m c) (MC m c) (MR m c) := by
  rw [Read.val_main_v59_eq, MP_eq, MC_eq, MR_eq]
  funext i
  obtain ⟨e, rfl⟩ : ∃ e : Fin 8388608, i = ix1 e := ⟨i 0, eq_ix1 i⟩
  exact norm_at _ _ _ _ _ e

/-- The log boundary weights. -/
theorem weight_eq (c : Dev nD) :
    Cert.ReferenceIdeal.Value.res_main_v42 m c = Cert.Spec.weightArr (MP m c) (MC m c) (MR m c) := by
  rw [Read.val_main_v42_eq, MP_eq, MC_eq, MR_eq]
  funext i
  obtain ⟨e, rfl⟩ : ∃ e : Fin 8388608, i = ix1 e := ⟨i 0, eq_ix1 i⟩
  exact weight_at _ _ _ _ _ e

/-- The batch words. -/
theorem batch_eq (c : Dev nD) :
    Cert.ReferenceIdeal.Value.res_main_v58 m c = Cert.Spec.batchArr (MP m c) (MC m c) (MR m c) (MB m c) := by
  rw [Read.val_main_v58_eq, MP_eq, MC_eq, MR_eq, MB_eq]
  funext i
  obtain ⟨e, rfl⟩ : ∃ e : Fin 8388608, i = ix1 e := ⟨i 0, eq_ix1 i⟩
  exact batch_at _ _ _ _ _ _ e

/-- The inside bits. -/
theorem inside_eq (c : Dev nD) :
    Read.val_main_v30 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      = Cert.Spec.insideArr (MP m c) (MC m c) (MR m c) := by
  rw [MP_eq, MC_eq, MR_eq]
  funext i
  obtain ⟨e, rfl⟩ : ∃ e : Fin 8388608, i = ix1 e := ⟨i 0, eq_ix1 i⟩
  exact inside_at _ _ _ _ _ e

/-- Every weakly fair execution of the reference ends with its five results at the specification's arrays of its four
    gathered arrays, and its arguments unchanged. -/
theorem results (ρ : Dev nD → PrngReg) :
    θ_run (defs (F := Ideal)) (onTc (τ := τ) (main (F := Ideal))) ⟨m, fun _ => 0, ρ⟩ fun r => ∀ c : Dev nD,
      r.2.mem ((c.tc : Thread nD τ).loc main_v50) = Cert.Spec.localArr (MP m c) (MC m c) (MR m c)
      ∧ r.2.mem ((c.tc : Thread nD τ).loc main_v59) = Cert.Spec.normArr (MP m c) (MC m c) (MR m c)
      ∧ r.2.mem ((c.tc : Thread nD τ).loc main_v42) = Cert.Spec.weightArr (MP m c) (MC m c) (MR m c)
      ∧ r.2.mem ((c.tc : Thread nD τ).loc main_v58) = Cert.Spec.batchArr (MP m c) (MC m c) (MR m c) (MB m c)
      ∧ r.2.mem ((c.tc : Thread nD τ).loc main_v30) = Cert.Spec.insideArr (MP m c) (MC m c) (MR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (local_eq m c), (h c).2.1.trans (norm_eq m c),
      (h c).2.2.1.trans (weight_eq m c), (h c).2.2.2.1.trans (batch_eq m c),
      (h c).2.2.2.2.1.trans ((Read.val_main_v30_eq (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))).trans (inside_eq m c)),
      (h c).2.2.2.2.2⟩)
    (Cert.ReferenceIdeal.Value.run (F := Ideal) m ρ)

end Cert.ReferenceIdeal.RefValue

end
-- ==== Proof.lean ====
/-
  A radius ball query's neighbour pairs, localised and masked: a Pallas kernel against its jnp reference, over the extended
  reals. For each of 8388608 edges both programs gather the member point (a row of `pos`), the glimpse centre, the ball
  radius `0.15 · ratio + 0.05` and the member's batch word, then compute entry by entry the local coordinates
  `l k = (P k − C k) / R`, their norm `n`, the inside bit `n < 1.2`, and five results: `l k · R · s` masked, `n` masked, the log
  boundary weight, the batch word or `−1`, and the bit. The kernel multiplies by a folded `s = 1 / 0.2`, the reference divides
  by the single-precision `0.2`; with `s` named the exact reciprocal of that word the two agree by associativity of the
  product on the extended reals. The kernel gathers with a fill for out-of-range rows, the reference clamps; under the
  precondition (every index word in `[−N, N)`) no row is out of range and the two gathers are one array. The kernel lays
  the gathered columns out as eight 65536 × 128 arrays, runs one region over 32 row blocks, and re-lays the seven outputs as
  vectors; both re-layouts are row-major, so per edge nothing moves.

  The frames of the two kernel programs (Proof/KHost, KBody, KRun at the word level; Proof/KIHost, KIBody, KIRun over the
  extended reals): @main is seven stretches of host operations, the region, and one more stretch; the body's triple gives
  the body obligation at every grid point, and the launch gives the run. The reference's frame is its run.
  The values: Proof/KIFinal (the seven output arrays after the run), Proof/KIValue (the kernel's five results),
  Proof/RefValue (the reference's), Proof/Spec (the per-edge functions they share), Proof/PreRange and Proof/KIGather (the
  index ranges, and the filling gathers as plain gathers).
-/
import proofs.«430290_j19808389169237_1_alg».proof.Defs
import proofs.«430290_j19808389169237_1_alg».proof.Proof.Gen.Kernel
import proofs.«430290_j19808389169237_1_alg».proof.Proof.Gen.KernelIdeal
import proofs.«430290_j19808389169237_1_alg».proof.Proof.Gen.ReferenceIdeal
import proofs.«430290_j19808389169237_1_alg».proof.Proof.Gen.Pre_finite_inputs
import proofs.«430290_j19808389169237_1_alg».proof.Proof.KRun
import proofs.«430290_j19808389169237_1_alg».proof.Proof.KIRun
import proofs.«430290_j19808389169237_1_alg».proof.Proof.Spec
import proofs.«430290_j19808389169237_1_alg».proof.Proof.PreRange
import proofs.«430290_j19808389169237_1_alg».proof.Proof.KIGather
import proofs.«430290_j19808389169237_1_alg».proof.Proof.KIValue
import proofs.«430290_j19808389169237_1_alg».proof.Proof.RefValue
import Idealize.ShloMosaic.PureOps.IdealRules

noncomputable section

namespace Cert.Proof

open Idealize.ShloMosaic Idealize.ShloMosaic.TcCoe Idealize.SL.Sem

/-- The word-level kernel runs to the end, faults nowhere and leaves its six arguments as launched. -/
theorem frame_kernel : Cert.frame_Kernel := fun m ρ _ => Cert.Kernel.Around.frame m ρ

/-- So does the kernel read over the extended reals. -/
theorem frame_kernelIdeal : Cert.frame_KernelIdeal := fun m ρ _ => Cert.KernelIdeal.Around.frame m ρ

/-- The reference is host operations only: its run, with the results dropped. -/
theorem frame_referenceIdeal : Cert.frame_ReferenceIdeal := fun m ρ _ =>
  (θ_run Cert.ReferenceIdeal.defs _ _).mono (fun _ h c => (h c).2.2.2.2.2) (Cert.ReferenceIdeal.Value.run (F := Ideal) m ρ)

/-- The one named constant: the kernel's literal `5.0` is read as the exact reciprocal of the single-precision `0.2`,
    whose single-precision rounding is the word `5.0`. -/
theorem preserves : Cert.preserves_Kernel_KernelIdeal :=
  IdealRules.named_const.statement Cert.KernelIdeal.κ "inv_r_max" .f32 0x40A00000#32 ((67108864 / 13421773 : ℝ) : EReal) rfl

/-- Over the extended reals, from memories that agree on the six arguments, under the precondition (finite floats,
    index words in range): the kernel's filling gathers never fill, so its four gathered arrays are the reference's;
    both programs' five results are the same per-edge functions of those arrays. -/
theorem algebraic : Cert.algebraic_KernelIdeal_ReferenceIdeal := by
  intro m ρ m' ρ' hpre hagree
  have hr := fun c => Cert.PreRange.index_ranges _ _ _ _ _ _ (hpre c)
  have eP : ∀ c, Cert.KernelIdeal.KValue.MP m c = Cert.ReferenceIdeal.RefValue.MP m' c := fun c => by
    show Cert.KernelIdeal.Around.V m c Cert.KernelIdeal.main_v4 = _
    rw [Cert.KernelIdeal.Gathered.member_pos m c (hr c).2]
    unfold Cert.ReferenceIdeal.RefValue.MP
    rw [(hagree c).1, (hagree c).2.2.2.2.2]
    rfl
  have eC : ∀ c, Cert.KernelIdeal.KValue.MC m c = Cert.ReferenceIdeal.RefValue.MC m' c := fun c => by
    show Cert.KernelIdeal.Around.V m c Cert.KernelIdeal.main_v5 = _
    rw [Cert.KernelIdeal.Gathered.member_center m c (hr c).1]
    unfold Cert.ReferenceIdeal.RefValue.MC
    rw [(hagree c).2.1, (hagree c).2.2.2.2.1]
    rfl
  have eR : ∀ c, Cert.KernelIdeal.KValue.MR m c = Cert.ReferenceIdeal.RefValue.MR m' c := fun c => by
    show Cert.KernelIdeal.Around.V m c Cert.KernelIdeal.main_v6 = _
    rw [Cert.KernelIdeal.Gathered.member_radius m c (hr c).1]
    unfold Cert.ReferenceIdeal.RefValue.MR
    rw [(hagree c).2.2.1, (hagree c).2.2.2.2.1]
    rfl
  have eB : ∀ c, Cert.KernelIdeal.KValue.MB m c = Cert.ReferenceIdeal.RefValue.MB m' c := fun c => by
    show Cert.KernelIdeal.Around.V m c Cert.KernelIdeal.main_v8 = _
    rw [Cert.KernelIdeal.Gathered.member_batch m c (hr c).2]
    unfold Cert.ReferenceIdeal.RefValue.MB
    rw [(hagree c).2.2.2.1, (hagree c).2.2.2.2.2]
    rfl
  refine ⟨fun c => Cert.Spec.localArr (Cert.ReferenceIdeal.RefValue.MP m' c) (Cert.ReferenceIdeal.RefValue.MC m' c) (Cert.ReferenceIdeal.RefValue.MR m' c),
    fun c => Cert.Spec.normArr (Cert.ReferenceIdeal.RefValue.MP m' c) (Cert.ReferenceIdeal.RefValue.MC m' c) (Cert.ReferenceIdeal.RefValue.MR m' c),
    fun c => Cert.Spec.weightArr (Cert.ReferenceIdeal.RefValue.MP m' c) (Cert.ReferenceIdeal.RefValue.MC m' c) (Cert.ReferenceIdeal.RefValue.MR m' c),
    fun c => Cert.Spec.batchArr (Cert.ReferenceIdeal.RefValue.MP m' c) (Cert.ReferenceIdeal.RefValue.MC m' c) (Cert.ReferenceIdeal.RefValue.MR m' c) (Cert.ReferenceIdeal.RefValue.MB m' c),
    fun c => Cert.Spec.insideArr (Cert.ReferenceIdeal.RefValue.MP m' c) (Cert.ReferenceIdeal.RefValue.MC m' c) (Cert.ReferenceIdeal.RefValue.MR m' c),
    ?_, ?_⟩
  · refine (θ_run Cert.KernelIdeal.defs _ _).mono (fun r h c => ?_) (Cert.KernelIdeal.KValue.results m ρ)
    obtain ⟨h0, h1, h2, h3, h4, hargs⟩ := h c
    rw [eP c, eC c, eR c] at h0 h1 h2 h4
    rw [eP c, eC c, eR c, eB c] at h3
    exact ⟨h0, h1, h2, h3, h4, hargs⟩
  · exact Cert.ReferenceIdeal.RefValue.results m' ρ'

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
